-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S384x512 : Shape := ⟨2, ![384, 512]⟩
abbrev S512 : Shape := ⟨1, ![512]⟩
abbrev S512x128 : Shape := ⟨2, ![512, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg9 : FVec F S512x128 .f32) (main_arg10 : FVec F S128 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S384x512 .f32) (main_arg8 : FVec F S512 .f32) (main_arg9 : FVec F S512x128 .f32) (main_arg10 : FVec F S128 .f32) (main_v13 : IVec S_ 1) (main_v16 : IVec S3x128x256 1) : IVec S_ 1 :=
  let main_c_5 : IVec S_ 1 := constantI S_ 1 1#1
  let main_v17 : IVec S_ 1 := (fun x v => Host.reduce IntOp.andi x v reducesTo_S3x128x256_S_d0_1_2 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S384x512 .f32 := Host.absf main_arg7
  let main_cst_8 : FVec F S_ .f32 := constant S_ .f32 0x7F800000#32
  let main_v25 : FVec F S384x512 .f32 := broadcastInDim S384x512 ![] bcast_S_S384x512 main_cst_8
  let main_v26 : IVec S384x512 1 := cmpf .olt main_v24 main_v25
  let main_c_9 : IVec S_ 1 := constantI S_ 1 1#1
  let main_v27 : IVec S_ 1 := (fun x v => Host.reduce IntOp.andi x v reducesTo_S384x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S3x128x128 .f32) (main_arg4 : FVec F S128 .f32) (main_arg5 : FVec F S3x128x256 .f32) (main_arg6 : FVec F S256 .f32) (main_arg7 : FVec F S384x512 .f32) (main_arg8 : FVec F S512 .f32) (main_arg9 : FVec F S512x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x256 .f32 := Host.absf main_arg5
  let main_cst_4 : FVec F S_ .f32 := constant S_ .f32 0x7F800000#32
  let main_v15 : FVec F S3x128x256 .f32 := broadcastInDim S3x128x256 ![] bcast_S_S3x128x256 main_cst_4
  let main_v16 : IVec S3x128x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S384x512 : Shape := ⟨2, ![384, 512]⟩
abbrev S512 : Shape := ⟨1, ![512]⟩
abbrev S512x128 : Shape := ⟨2, ![512, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x128x128 : Shape := ⟨3, ![1, 128, 128]⟩
abbrev S128x128 : Shape := ⟨2, ![128, 128]⟩
abbrev S1000x128 : Shape := ⟨2, ![1000, 128]⟩
abbrev S1x256 : Shape := ⟨2, ![1, 256]⟩
abbrev S1x128x256 : Shape := ⟨3, ![1, 128, 256]⟩
abbrev S128x256 : Shape := ⟨2, ![128, 256]⟩
abbrev S50000x256 : Shape := ⟨2, ![50000, 256]⟩
abbrev S1000x256 : Shape := ⟨2, ![1000, 256]⟩
abbrev S50000x1 : Shape := ⟨2, ![50000, 1]⟩
abbrev S128x384 : Shape := ⟨2, ![128, 384]⟩
abbrev S128x1 : Shape := ⟨2, ![128, 1]⟩
abbrev S1000x1 : Shape := ⟨2, ![1000, 1]⟩
abbrev S1000 : Shape := ⟨1, ![1000]⟩
abbrev S128x1000 : Shape := ⟨2, ![128, 1000]⟩
abbrev S1x1000 : Shape := ⟨2, ![1, 1000]⟩
abbrev S1x512 : Shape := ⟨2, ![1, 512]⟩
abbrev S128x512 : Shape := ⟨2, ![128, 512]⟩

abbrev nBuf : Space → Nat
  | .hbm => 144
  | .vmem => 40
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S128, .f32⟩
  | 5 => ⟨S3x128x256, .f32⟩
  | 6 => ⟨S256, .f32⟩
  | 7 => ⟨S384x512, .f32⟩
  | 8 => ⟨S512, .f32⟩
  | 9 => ⟨S512x128, .f32⟩
  | 10 => ⟨S128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S600000x1, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S600000x1, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x128, .f32⟩
  | 78 => ⟨S600000x128, .f32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S1x128, .f32⟩
  | 85 => ⟨S1x128x128, .f32⟩
  | 86 => ⟨S128x128, .f32⟩
  | 87 => ⟨S1x128x128, .f32⟩
  | 88 => ⟨S128x128, .f32⟩
  | 89 => ⟨S1x128x128, .f32⟩
  | 90 => ⟨S128x128, .f32⟩
  | 91 => ⟨S50000x128, .f32⟩
  | 92 => ⟨S600000x1, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S600000x1, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x128, .f32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S1x256, .f32⟩
  | 125 => ⟨S1x128x256, .f32⟩
  | 126 => ⟨S128x256, .f32⟩
  | 127 => ⟨S1x128x256, .f32⟩
  | _ => ⟨S50000x128, .f32⟩

abbrev hbmTy0_1 (i : Nat) : BufTy := match i % 128 with
  | 0 => ⟨S128x256, .f32⟩
  | 1 => ⟨S1x128x256, .f32⟩
  | 2 => ⟨S128x256, .f32⟩
  | 3 => ⟨S50000x256, .f32⟩
  | 4 => ⟨S50000x1, .i32⟩
  | 5 => ⟨S128x384, .f32⟩
  | 6 => ⟨S128x1, .f32⟩
  | 7 => ⟨S_, .f32⟩
  | 8 => ⟨S128x1, .f32⟩
  | 9 => ⟨S128x1, .f32⟩
  | 10 => ⟨S128x384, .f32⟩
  | 11 => ⟨S128x384, .f32⟩
  | 12 => ⟨S1x512, .f32⟩
  | 13 => ⟨S128x512, .f32⟩
  | 14 => ⟨S1x128, .f32⟩
  | 15 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x128, .f32⟩
  | .local _ .vmem, ⟨27, _⟩ => ⟨S1000x128, .f32⟩
  | .local _ .vmem, ⟨28, _⟩ => ⟨S1000x1, .i32⟩
  | .local _ .vmem, ⟨29, _⟩ => ⟨S1000x1, .i32⟩
  | .local _ .vmem, ⟨30, _⟩ => ⟨S128x384, .f32⟩
  | .local _ .vmem, ⟨31, _⟩ => ⟨S128x1, .f32⟩
  | .local _ .vmem, ⟨32, _⟩ => ⟨S128x384, .f32⟩
  | .local _ .vmem, ⟨33, _⟩ => ⟨S384x512, .f32⟩
  | .local _ .vmem, ⟨34, _⟩ => ⟨S1x512, .f32⟩
  | .local _ .vmem, ⟨35, _⟩ => ⟨S128x512, .f32⟩
  | .local _ .vmem, ⟨36, _⟩ => ⟨S128x512, .f32⟩
  | .local _ .vmem, ⟨37, _⟩ => ⟨S512x128, .f32⟩
  | .local _ .vmem, ⟨38, _⟩ => ⟨S1x128, .f32⟩
  | .local _ .vmem, ⟨39, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99_0 : Ref sig .tc := ⟨.hbm, 133, rfl⟩
abbrev main_v99_1 : Ref sig .tc := ⟨.hbm, 134, rfl⟩
abbrev main_cst_19 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc3_sem0_0 : DmaSem sig := 32
abbrev cc3_sem1_0 : DmaSem sig := 33
abbrev cc3_sem2_0 : DmaSem sig := 34
abbrev cc3_sem3_0 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S128x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S384x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S256_S1x256 : S256.ShapeCasts S1x256
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  shapeCasts_S50000_S50000x1 : S50000.ShapeCasts S50000x1
  inb_S128x384_S128x384_0_0 : ∀ a, (![0, 0] : Fin 2 → Nat) a + S128x384.size a ≤ S128x384.size a
  h_S128x384 : 0 < S128x384.numel
  inb_S128x1_S128x1_0_0 : ∀ a, (![0, 0] : Fin 2 → Nat) a + S128x1.size a ≤ S128x1.size a
  h_S128x1 : 0 < S128x1.numel
  inb_S1000x1_S1000x1_0_0 : ∀ a, (![0, 0] : Fin 2 → Nat) a + S1000x1.size a ≤ S1000x1.size a
  h_S1000x1 : 0 < S1000x1.numel
  shapeCasts_S1000x1_S1000 : S1000x1.ShapeCasts S1000
  iota_S128x1000_d0_w32 : S128x1000.Iotas .tc 32 [0]
  shapeCasts_S1000_S1x1000 : S1000.ShapeCasts S1x1000
  broadcasts_S1x1000_S128x1000 : S1x1000.Broadcasts S128x1000
  natLt_1_32 : 1 < 32
  inb_S128x384_S128x256_0_0 : ∀ a, (![0, 0] : Fin 2 → Nat) a + S128x256.size a ≤ S128x384.size a
  shapeCasts_S1000x256_S1000x256 : S1000x256.ShapeCasts S1000x256
  inb_S128x384_S128x128_0_256 : ∀ a, (![0, 256] : Fin 2 → Nat) a + S128x128.size a ≤ S128x384.size a
  shapeCasts_S128x1_S128x1 : S128x1.ShapeCasts S128x1
  reduces_S128x1000_S128 : S128x1000.Reduces [1] S128
  shapeCasts_S128_S128x1 : S128.ShapeCasts S128x1
  bcast_S_S128x1 : S_.BroadcastsInDim S128x1 (![] : Fin 0 → Fin S128x1.rank)
  bcast_S128x1_S128x384_0_1 : S128x1.BroadcastsInDim S128x384 (![0, 1] : Fin 2 → Fin S128x384.rank)
  shapeCasts_S512_S1x512 : S512.ShapeCasts S1x512
  shapeCasts_S128x384_S128x384 : S128x384.ShapeCasts S128x384
  inb_S384x512_S384x512_0_0 : ∀ a, (![0, 0] : Fin 2 → Nat) a + S384x512.size a ≤ S384x512.size a
  h_S384x512 : 0 < S384x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  broadcasts_S1x128_S128x128 : S1x128.Broadcasts S128x128
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S128x1000_S1000x256_S128x256_1_0_0_1_n_n_wf : DotDims.WF S128x1000 S1000x256 S128x256 [1] [0] [0] [1] [] []
  dot_S128x1000_S1000x128_S128x128_1_0_0_1_n_n_wf : DotDims.WF S128x1000 S1000x128 S128x128 [1] [0] [0] [1] [] []
  dot_S128x384_S384x512_S128x512_1_0_0_1_n_n_wf : DotDims.WF S128x384 S384x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S50000x128.size a
  hwx0_7 : ∀ i : grid0.Coords, EltTy.bits .f32 = 32 ∨ (Rect.block (s := S50000x128) S1000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S50000x256.size a
  hwx1_7 : ∀ i : grid1.Coords, EltTy.bits .f32 = 32 ∨ (Rect.block (s := S50000x256) S1000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .i32 = 32 ∨ (Rect.block (s := S50000x1) S1000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S128x384.size a ≤ S128x384.size a
  hwx3_0 : ∀ i : grid3.Coords, EltTy.bits .f32 = 32 ∨ (Rect.block (s := S128x384) S128x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x512.size a ≤ S384x512.size a
  hwx3_1 : ∀ i : grid3.Coords, EltTy.bits .f32 = 32 ∨ (Rect.block (s := S384x512) S384x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S128x512.size a ≤ S128x512.size a
  hwx3_3 : ∀ i : grid3.Coords, EltTy.bits .f32 = 32 ∨ (Rect.block (s := S128x512) S128x512.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S128x512.size a ≤ S128x512.size a
  hwx4_0 : ∀ i : grid4.Coords, EltTy.bits .f32 = 32 ∨ (Rect.block (s := S128x512) S128x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S128x1000_S1000x256_S128x256_1_0_0_1_n_n : DotDims S128x1000 S1000x256 S128x256 where
  lhsContracting := [1]
  rhsContracting := [0]
  lhsNonContracting := [0]
  rhsNonContracting := [1]
  lhsBatch := []
  rhsBatch := []
  wf := dot_S128x1000_S1000x256_S128x256_1_0_0_1_n_n_wf
def dot_S128x1000_S1000x128_S128x128_1_0_0_1_n_n : DotDims S128x1000 S1000x128 S128x128 where
  lhsContracting := [1]
  rhsContracting := [0]
  lhsNonContracting := [0]
  rhsNonContracting := [1]
  lhsBatch := []
  rhsBatch := []
  wf := dot_S128x1000_S1000x128_S128x128_1_0_0_1_n_n_wf
def dot_S128x384_S384x512_S128x512_1_0_0_1_n_n : DotDims S128x384 S384x512 S128x512 where
  lhsContracting := [1]
  rhsContracting := [0]
  lhsNonContracting := [0]
  rhsNonContracting := [1]
  lhsBatch := []
  rhsBatch := []
  wf := dot_S128x384_S384x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v63) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v89) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v96) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v97) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v97) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v98) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v99_0) S128x384.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99_1) S128x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v103) S128x384.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S384x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v105) S128x512.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v105) S128x512.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S128x128.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S3x128x256 : Shape := ⟨3, ![3, 128, 256]⟩
abbrev S256 : Shape := ⟨1, ![256]⟩
abbrev S384x512 : Shape := ⟨2, ![384, 512]⟩
abbrev S512 : Shape := ⟨1, ![512]⟩
abbrev S512x128 : Shape := ⟨2, ![512, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S1x128 : Shape := ⟨2, ![1, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S50000x384 : Shape := ⟨2, ![50000, 384]⟩
abbrev S128x384 : Shape := ⟨2, ![128, 384]⟩
abbrev S50000x1 : Shape := ⟨2, ![50000, 1]⟩
abbrev S128x1 : Shape := ⟨2, ![128, 1]⟩
abbrev S128x512 : Shape := ⟨2, ![128, 512]⟩
abbrev S1x512 : Shape := ⟨2, ![1, 512]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S128, .f32⟩
  | 5 => ⟨S3x128x256, .f32⟩
  | 6 => ⟨S256, .f32⟩
  | 7 => ⟨S384x512, .f32⟩
  | 8 => ⟨S512, .f32⟩
  | 9 => ⟨S512x128, .f32⟩
  | 10 => ⟨S128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S1x128x128, .f32⟩
  | 53 => ⟨S128x128, .f32⟩
  | 54 => ⟨S50000x128, .f32⟩
  | 55 => ⟨S600000x1, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x128, .f32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x256, .f32⟩
  | 106 => ⟨S128x256, .f32⟩
  | 107 => ⟨S50000x256, .f32⟩
  | 108 => ⟨S600000x1, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x128, .f32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S1x128x256, .f32⟩
  | 125 => ⟨S128x256, .f32⟩
  | 126 => ⟨S50000x256, .f32⟩
  | 127 => ⟨S50000x256, .f32⟩
  | _ => ⟨S50000x128, .f32⟩

abbrev hbmTy0_1 (i : Nat) : BufTy := match i % 128 with
  | 0 => ⟨S600000x1, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S600000x128, .f32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S1x128x256, .f32⟩
  | 21 => ⟨S128x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x384, .f32⟩
  | 31 => ⟨S_, .f32⟩
  | 32 => ⟨S128x384, .f32⟩
  | 33 => ⟨S50000x1, .i32⟩
  | 34 => ⟨S128x384, .f32⟩
  | 35 => ⟨S_, .f32⟩
  | 36 => ⟨S50000, .f32⟩
  | 37 => ⟨S_, .f32⟩
  | 38 => ⟨S128, .f32⟩
  | 39 => ⟨S50000x1, .i32⟩
  | 40 => ⟨S128, .f32⟩
  | 41 => ⟨S_, .f32⟩
  | 42 => ⟨S128, .f32⟩
  | 43 => ⟨S128, .f32⟩
  | 44 => ⟨S128x1, .f32⟩
  | 45 => ⟨S128x384, .f32⟩
  | 46 => ⟨S128x384, .f32⟩
  | 47 => ⟨S128x512, .f32⟩
  | 48 => ⟨S1x512, .f32⟩
  | 49 => ⟨S128x512, .f32⟩
  | 50 => ⟨S128x512, .f32⟩
  | 51 => ⟨S_, .f32⟩
  | 52 => ⟨S128x512, .f32⟩
  | 53 => ⟨S128x512, .f32⟩
  | 54 => ⟨S128x128, .f32⟩
  | 55 => ⟨S1x128, .f32⟩
  | 56 => ⟨S128x128, .f32⟩
  | 57 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call1_cst : Ref sig .tc := ⟨.hbm, 102, rfl⟩
abbrev main_call1_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_14 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call2_cst : Ref sig .tc := ⟨.hbm, 155, rfl⟩
abbrev main_call2_v0 : Ref sig .tc := ⟨.hbm, 156, rfl⟩
abbrev main_v117 : Ref sig .tc := ⟨.hbm, 157, rfl⟩
abbrev main_v118 : Ref sig .tc := ⟨.hbm, 158, rfl⟩
abbrev main_cst_21 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_22 : Ref sig .tc := ⟨.hbm, 163, rfl⟩
abbrev main_v122 : Ref sig .tc := ⟨.hbm, 164, rfl⟩
abbrev main_cst_23 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_24 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_call3_cst : Ref sig .tc := ⟨.hbm, 179, rfl⟩
abbrev main_call3_v0 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S50000x256_S50000x128_S50000x384_d1 : Shape.Concatenates [S50000x256, S50000x128] S50000x384 1
  bcast_S_S128x384 : S_.BroadcastsInDim S128x384 (![] : Fin 0 → Fin S128x384.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x384_0_1 : S128x1.BroadcastsInDim S128x384 (![0, 1] : Fin 2 → Fin S128x384.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S1x128_S128x128_0_1 : S1x128.BroadcastsInDim S128x128 (![0, 1] : Fin 2 → Fin S128x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  scatter_S128x384_S50000x1_S50000x384_1_0_0_1_wf : ScatterDims.WF S128x384 S50000x1 S50000x384 [1] [0] [0] 1
  scatter_S128_S50000x1_S50000_n_0_0_1_wf : ScatterDims.WF S128 S50000x1 S50000 [] [0] [0] 1
  dot_S128x384_S384x512_S128x512_1_0_0_1_n_n_wf : DotDims.WF S128x384 S384x512 S128x512 [1] [0] [0] [1] [] []
  dot_S128x512_S512x128_S128x128_1_0_0_1_n_n_wf : DotDims.WF S128x512 S512x128 S128x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S128x384_S50000x1_S50000x384_1_0_0_1 : ScatterDims S128x384 S50000x1 S50000x384 where
  updateWindowDims := [1]
  insertedWindowDims := [0]
  scatterDimsToOperandDims := [0]
  indexVectorDim := 1
  wf := scatter_S128x384_S50000x1_S50000x384_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x384_S384x512_S128x512_1_0_0_1_n_n : DotDims S128x384 S384x512 S128x512 where
  lhsContracting := [1]
  rhsContracting := [0]
  lhsNonContracting := [0]
  rhsNonContracting := [1]
  lhsBatch := []
  rhsBatch := []
  wf := dot_S128x384_S384x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

class Facts : Prop extends Facts₀ where

variable [Facts]
-- ==== Proof.Spec.lean ====
/-
  The result of the whole network as functions of whole arrays, index by index, over the extended reals.

  A graph convolution layer (Chebyshev order 3) on N = 50000 nodes: from node features x and its two propagated
  forms p1 = P x and p2 = P (P x) along the edges, row r and output column j of the layer is
      max (((Σ_k x[r,k]·W0[k,j] + Σ_k p1[r,k]·W1[k,j]) + Σ_k (2·p2[r,k] − x[r,k])·W2[k,j]) + b[j]) 0.
  Mean pooling over 128 graphs: graph g sums the rows whose batch word, read signed, is g (a row whose word names no
  graph contributes nowhere), columns 0..255 from the second layer's output and 256..383 from the input features;
  the count of such rows; the quotient by max(count, 1). Then two dense layers.
  The propagation P itself is not described here: both programs apply the same host operations for it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals of a literal shape. -/
abbrev Arr (s : Shape) : Type := s.Idx → EReal

abbrev S50000x128 : Shape := ⟨2, ![50000, 128]⟩
abbrev S50000x256 : Shape := ⟨2, ![50000, 256]⟩
abbrev S50000x1 : Shape := ⟨2, ![50000, 1]⟩
abbrev S50000 : Shape := ⟨1, ![50000]⟩
abbrev S3x128x128 : Shape := ⟨3, ![3, 128, 128]⟩
abbrev S3x128x256 : Shape := ⟨3, ![3, 128, 256]⟩
abbrev S128x128 : Shape := ⟨2, ![128, 128]⟩
abbrev S128x256 : Shape := ⟨2, ![128, 256]⟩
abbrev S1x128 : Shape := ⟨2, ![1, 128]⟩
abbrev S1x256 : Shape := ⟨2, ![1, 256]⟩
abbrev S1x512 : Shape := ⟨2, ![1, 512]⟩
abbrev S128 : Shape := ⟨1, ![128]⟩
abbrev S256 : Shape := ⟨1, ![256]⟩
abbrev S512 : Shape := ⟨1, ![512]⟩
abbrev S128x384 : Shape := ⟨2, ![128, 384]⟩
abbrev S128x1 : Shape := ⟨2, ![128, 1]⟩
abbrev S384x512 : Shape := ⟨2, ![384, 512]⟩
abbrev S128x512 : Shape := ⟨2, ![128, 512]⟩
abbrev S512x128 : Shape := ⟨2, ![512, 128]⟩

/-- The float words the programs spell: 2.0, 0.0 and 1.0 (never evaluated except the zero). -/
abbrev two : EReal := Ideal.ofBits .f32 0x40000000#32
abbrev zero : EReal := Ideal.ofBits .f32 0x00000000#32
abbrev one : EReal := Ideal.ofBits .f32 0x3F800000#32

/-- Slice k of a stack of three weight matrices. -/
def wslice128 (W : Arr S3x128x128) (k : Fin 3) : Arr S128x128 := fun i => W (ix3 k (i 0) (i 1))
def wslice256 (W : Arr S3x128x256) (k : Fin 3) : Arr S128x256 := fun i => W (ix3 k (i 0) (i 1))

/-- A bias vector as a one-row matrix. -/
def row128 (b : Arr S128) : Arr S1x128 := fun i => b (ix1 (i 1))
def row256 (b : Arr S256) : Arr S1x256 := fun i => b (ix1 (i 1))
def row512 (b : Arr S512) : Arr S1x512 := fun i => b (ix1 (i 1))

/-- A vector of words as a one-column matrix. -/
def col50000 (b : IVec S50000 32) : IVec S50000x1 32 := fun i => b (ix1 (i 0))

/-- The convolution layer, 128 output columns. -/
def conv128 (x p1 p2 : Arr S50000x128) (w0 w1 w2 : Arr S128x128) (b : Arr S1x128) : Arr S50000x128 := fun i =>
  max ((((∑ k : Fin 128, x (ix2 (i 0) k) * w0 (ix2 k (i 1))) + (∑ k : Fin 128, p1 (ix2 (i 0) k) * w1 (ix2 k (i 1))))
      + (∑ k : Fin 128, (two * p2 (ix2 (i 0) k) - x (ix2 (i 0) k)) * w2 (ix2 k (i 1)))) + b (ix2 (0 : Fin 1) (i 1))) zero

/-- The convolution layer, 256 output columns. -/
def conv256 (x p1 p2 : Arr S50000x128) (w0 w1 w2 : Arr S128x256) (b : Arr S1x256) : Arr S50000x256 := fun i =>
  max ((((∑ k : Fin 128, x (ix2 (i 0) k) * w0 (ix2 k (i 1))) + (∑ k : Fin 128, p1 (ix2 (i 0) k) * w1 (ix2 k (i 1))))
      + (∑ k : Fin 128, (two * p2 (ix2 (i 0) k) - x (ix2 (i 0) k)) * w2 (ix2 k (i 1)))) + b (ix2 (0 : Fin 1) (i 1))) zero

/-- The rows of graph g: those whose batch word, read signed, is g. -/
def rowsOf (bt : IVec S50000x1 32) (g : Fin 128) : Finset (Fin 50000) :=
  Finset.univ.filter fun n : Fin 50000 => (bt (ix2 n (0 : Fin 1))).toInt = (g.val : ℤ)

/-- Row n of the concatenation [h | x] at column f < 384. -/
def catRow (h : Arr S50000x256) (x : Arr S50000x128) (n : Fin 50000) (f : Fin 384) : EReal :=
  if hf : f.val < 256 then h (ix2 n (⟨f.val, hf⟩ : Fin 256)) else x (ix2 n (⟨f.val - 256, by omega⟩ : Fin 128))

/-- The pooled sums: graph g, column f. -/
def poolSum (bt : IVec S50000x1 32) (h : Arr S50000x256) (x : Arr S50000x128) : Arr S128x384 := fun i =>
  ∑ n ∈ rowsOf bt (i 0), catRow h x n (i 1)

/-- The pooled counts, as a one-column matrix. -/
def poolCnt (bt : IVec S50000x1 32) : Arr S128x1 := fun i => ∑ _n ∈ rowsOf bt (i 0), one

/-- The mean: sums over max(count, 1). -/
def pooled (s : Arr S128x384) (cnt : Arr S128x1) : Arr S128x384 := fun i =>
  Ideal.div (s i) (max (cnt (ix2 (i 0) (0 : Fin 1))) one)

/-- The hidden dense layer with its rectifier. -/
def denseRelu (x : Arr S128x384) (w : Arr S384x512) (b : Arr S1x512) : Arr S128x512 := fun i =>
  max ((∑ k : Fin 384, x (ix2 (i 0) k) * w (ix2 k (i 1))) + b (ix2 (0 : Fin 1) (i 1))) zero

/-- The output dense layer. -/
def dense (x : Arr S128x512) (w : Arr S512x128) (b : Arr S1x128) : Arr S128x128 := fun i =>
  (∑ k : Fin 512, x (ix2 (i 0) k) * w (ix2 k (i 1))) + b (ix2 (0 : Fin 1) (i 1))

/-- The network after the two propagations of each layer are given: P is a parameter. -/
def net (P : Arr S50000x128 → Arr S50000x128)
    (x0 : Arr S50000x128) (x2 : IVec S50000 32) (x3 : Arr S3x128x128) (x4 : Arr S128) (x5 : Arr S3x128x256) (x6 : Arr S256)
    (x7 : Arr S384x512) (x8 : Arr S512) (x9 : Arr S512x128) (x10 : Arr S128) : Arr S128x128 :=
  let g1 := conv128 x0 (P x0) (P (P x0)) (wslice128 x3 0) (wslice128 x3 1) (wslice128 x3 2) (row128 x4)
  let g2 := conv256 g1 (P g1) (P (P g1)) (wslice256 x5 0) (wslice256 x5 1) (wslice256 x5 2) (row256 x6)
  let pl := pooled (poolSum (col50000 x2) g2 x0) (poolCnt (col50000 x2))
  dense (denseRelu pl x7 (row512 x8)) x9 (row128 x10)

end Cert.Spec

end
-- ==== Proof.RefProp.lean ====
/-
  One propagation along the edges as ONE function of the edge list and a node-feature array: the accumulating
  scatter, by destination node, of each edge's weight times the source node's row. The reference applies it four
  times (twice per layer); each application is this function of the array it propagates.
-/
import proofs.«410204_j74380243632480_3_alg».proof.Proof.RefRead
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.Hand

open Cert.ReferenceIdeal Cert.ReferenceIdeal.ReadP

variable {F : FTy → Type} [FloatOps F]

/-- Propagating a node-feature array h along the edges x1. -/
def edgeProp (x1 : (⟨S2x600000, .i32⟩ : BufTy).Contents (Elt F)) (h : (⟨S50000x128, .f32⟩ : BufTy).Contents (Elt F)) : (⟨S50000x128, .f32⟩ : BufTy).Contents (Elt F) :=
  Host.scatterAdd scatter_S50000x128_S600000x1_S600000x128_1_0_0_1 (val_main_v43 (F := F)) (val_main_v44 (F := F) x1)
    (mulf (val_main_v41 (F := F) x1) (Host.gather gather_S50000x128_S600000x1_S600000x128_1_0_n_n_0_1_1128 h (val_main_v39 (F := F) x1)))

/-- The first layer's first propagation. -/
theorem v45_eq (x0 : (⟨S50000x128, .f32⟩ : BufTy).Contents (Elt F)) (x1 : (⟨S2x600000, .i32⟩ : BufTy).Contents (Elt F)) :
    val_main_v45 (F := F) x0 x1 = edgeProp x1 x0 := by
  unfold val_main_v45 val_main_v42 val_main_v40 edgeProp; rfl

/-- The first layer's second propagation: of the first one's result. -/
theorem v62_eq (x0 : (⟨S50000x128, .f32⟩ : BufTy).Contents (Elt F)) (x1 : (⟨S2x600000, .i32⟩ : BufTy).Contents (Elt F)) :
    val_main_v62 (F := F) x0 x1 = edgeProp x1 (val_main_v45 (F := F) x0 x1) := by
  unfold val_main_v62 val_main_v59 val_main_v57 edgeProp; rfl

/-- The second layer's first propagation: of the first layer's output. -/
theorem v89_eq (x0 : (⟨S50000x128, .f32⟩ : BufTy).Contents (Elt F)) (x1 : (⟨S2x600000, .i32⟩ : BufTy).Contents (Elt F)) (x3 : (⟨S3x128x128, .f32⟩ : BufTy).Contents (Elt F)) (x4 : (⟨S128, .f32⟩ : BufTy).Contents (Elt F)) :
    val_main_v89 (F := F) x0 x1 x3 x4 = edgeProp x1 (val_main_v73 (F := F) x0 x1 x3 x4) := by
  unfold val_main_v89 val_main_v86 val_main_v84 edgeProp; rfl

/-- The second layer's second propagation. -/
theorem v106_eq (x0 : (⟨S50000x128, .f32⟩ : BufTy).Contents (Elt F)) (x1 : (⟨S2x600000, .i32⟩ : BufTy).Contents (Elt F)) (x3 : (⟨S3x128x128, .f32⟩ : BufTy).Contents (Elt F)) (x4 : (⟨S128, .f32⟩ : BufTy).Contents (Elt F)) :
    val_main_v106 (F := F) x0 x1 x3 x4 = edgeProp x1 (val_main_v89 (F := F) x0 x1 x3 x4) := by
  unfold val_main_v106 val_main_v103 val_main_v101 edgeProp; rfl

end Cert.ReferenceIdeal.Hand

end
-- ==== Proof.KHostA.lean ====
/-
  What the kernel program's buffers hold at its segment boundaries, read back to the launch memory.

  Between two pallas_calls the program runs host operations; the contents at a boundary are the fold of everything
  before it. Read at the buffers a region takes: the two propagated forms of a layer's input are the propagation
  function (the reference's own host operations) applied once and twice; the source and destination vectors and the
  edge weights are the reference's stages of the edge list; a region's output arrives unchanged at the next region.
  This part holds for any float family: the host operations are the same text in both programs.
-/
import proofs.«410204_j74380243632480_3_alg».proof.Proof.Gen.KernelIdeal.Frame
import proofs.«410204_j74380243632480_3_alg».proof.Proof.RefProp
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen
open Cert.ReferenceIdeal.Hand (edgeProp)
open Cert.ReferenceIdeal.ReadP (val_main_v1 val_main_v3 val_main_v29)

variable {F : FTy → Type} [FloatOps F]
variable (m : (ℓ : Loc nD τ sig) → Buf (Elt F) ℓ) (ρ : Dev nD → PrngReg)

/-! ## Region 0's entry -/

/-- The node features reach region 0 as launched. -/
theorem W3_arg0 (c : Dev nD) : W3 m ρ c (Proc.devRef .tc main_arg0) = m ((c : Thread nD τ).loc main_arg0) := by
  show StableHlo.after hostOps0_2 (W2 m ρ c) (Proc.devRef .tc main_arg0) = _
  after_results_simp <;> rfl

/-- The source-node vector. -/
theorem W3_v1 (c : Dev nD) : W3 m ρ c (Proc.devRef .tc main_v1) = val_main_v1 (F := F) (m ((c : Thread nD τ).loc main_arg1)) := by
  show StableHlo.after hostOps0_2 (W2 m ρ c) (Proc.devRef .tc main_v1) = _
  after_results_simp
  rfl

/-- The destination-node vector. -/
theorem W3_v3 (c : Dev nD) : W3 m ρ c (Proc.devRef .tc main_v3) = val_main_v3 (F := F) (m ((c : Thread nD τ).loc main_arg1)) := by
  show StableHlo.after hostOps0_2 (W2 m ρ c) (Proc.devRef .tc main_v3) = _
  after_results_simp
  rfl

set_option maxHeartbeats 4000000 in
/-- The edge weights. -/
theorem W3_v29 (c : Dev nD) : W3 m ρ c (Proc.devRef .tc main_v29) = val_main_v29 (F := F) (m ((c : Thread nD τ).loc main_arg1)) := by
  show StableHlo.after hostOps0_2 (W2 m ρ c) (Proc.devRef .tc main_v29) = _
  after_results_simp
  rfl

set_option maxHeartbeats 4000000 in
/-- The features propagated once. -/
theorem W3_v42 (c : Dev nD) :
    W3 m ρ c (Proc.devRef .tc main_v42)
      = edgeProp (F := F) (m ((c : Thread nD τ).loc main_arg1)) (m ((c : Thread nD τ).loc main_arg0)) := by
  show StableHlo.after hostOps0_2 (W2 m ρ c) (Proc.devRef .tc main_v42) = _
  after_results_simp
  rfl

set_option maxHeartbeats 8000000 in
/-- The features propagated twice. -/
theorem W3_v55 (c : Dev nD) :
    W3 m ρ c (Proc.devRef .tc main_v55)
      = edgeProp (F := F) (m ((c : Thread nD τ).loc main_arg1))
          (edgeProp (F := F) (m ((c : Thread nD τ).loc main_arg1)) (m ((c : Thread nD τ).loc main_arg0))) := by
  show StableHlo.after hostOps0_2 (W2 m ρ c) (Proc.devRef .tc main_v55) = _
  after_results_simp
  rfl

/-! ## Across region 0, and region 1's entry -/

theorem W4_v1 (c : Dev nD) : W4 m ρ c (Proc.devRef .tc main_v1) = val_main_v1 (F := F) (m ((c : Thread nD τ).loc main_arg1)) :=
  (W4_of_ne m ρ c main_v1 (by decide)).trans (W3_v1 m ρ c)
theorem W4_v3 (c : Dev nD) : W4 m ρ c (Proc.devRef .tc main_v3) = val_main_v3 (F := F) (m ((c : Thread nD τ).loc main_arg1)) :=
  (W4_of_ne m ρ c main_v3 (by decide)).trans (W3_v3 m ρ c)
theorem W4_v29 (c : Dev nD) : W4 m ρ c (Proc.devRef .tc main_v29) = val_main_v29 (F := F) (m ((c : Thread nD τ).loc main_arg1)) :=
  (W4_of_ne m ρ c main_v29 (by decide)).trans (W3_v29 m ρ c)

/-- Region 0's output reaches region 1 unchanged. -/
theorem W5_v63 (c : Dev nD) : W5 m ρ c (Proc.devRef .tc main_v63) = W4 m ρ c (Proc.devRef .tc main_v63) := by
  show StableHlo.after hostOps1 (W4 m ρ c) (Proc.devRef .tc main_v63) = _
  after_results_simp

set_option maxHeartbeats 4000000 in
/-- The first layer's output propagated once. -/
theorem W5_v76 (c : Dev nD) :
    W5 m ρ c (Proc.devRef .tc main_v76)
      = edgeProp (F := F) (m ((c : Thread nD τ).loc main_arg1)) (W4 m ρ c (Proc.devRef .tc main_v63)) := by
  show StableHlo.after hostOps1 (W4 m ρ c) (Proc.devRef .tc main_v76) = _
  after_results_simp
  rw [W4_v1, W4_v3, W4_v29]
  rfl

set_option maxHeartbeats 8000000 in
/-- The first layer's output propagated twice. -/
theorem W5_v89 (c : Dev nD) :
    W5 m ρ c (Proc.devRef .tc main_v89)
      = edgeProp (F := F) (m ((c : Thread nD τ).loc main_arg1))
          (edgeProp (F := F) (m ((c : Thread nD τ).loc main_arg1)) (W4 m ρ c (Proc.devRef .tc main_v63))) := by
  show StableHlo.after hostOps1 (W4 m ρ c) (Proc.devRef .tc main_v89) = _
  after_results_simp
  rw [W4_v1, W4_v3, W4_v29]
  rfl

end Cert.KernelIdeal.Hand

end
-- ==== Proof.KLayoutW.lean ====
/-
  The host's weight slices read at an index: slice k of a [3, 128, C] stack (offsets [k, 0, 0], sizes [1, 128, C])
  reshaped to [128, C] holds, at (a, b), the stack's element (k, a, b).
-/
import proofs.«410204_j74380243632480_3_alg».proof.KernelIdeal
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Hand

open Cert.KernelIdeal

/-- Slice k (offsets [k, 0, 0], sizes [1, 128, C]) of a [3, 128, C] stack, reshaped to [128, C], holds at (p, q) the
    stack's element (k, p, q): the reshape keeps the row-major position, (0 · 128 + p) · C + q = p · C + q, and the slice
    shifts the first coordinate by k. -/
theorem wslice_apply {C : Nat} (k : Nat) (hk : k < 3) (W : (⟨3, ![3, 128, C]⟩ : Shape).Idx → EReal)
    (hs : (⟨3, ![3, 128, C]⟩ : Shape).Slices ![k, 0, 0] ⟨3, ![1, 128, C]⟩)
    (hc : (⟨3, ![1, 128, C]⟩ : Shape).ShapeCasts ⟨2, ![128, C]⟩) (p : Fin 128) (q : Fin C) :
    shapeCast ⟨2, ![128, C]⟩ (extractStridedSlice ⟨3, ![1, 128, C]⟩ ![k, 0, 0] W hs) hc (ix2 p q)
      = W (ix3 (⟨k, hk⟩ : Fin 3) p q) := by
  refine (shapeCast_apply _ hc (ix2 p q) (ix3 (0 : Fin 1) p q) ?_).trans ?_
  · rw [Shape.rowMajor_val_three, Shape.rowMajor_val_two]
    show (0 * 128 + p.val) * C + q.val = p.val * C + q.val
    rw [Nat.zero_mul, Nat.zero_add]
  · exact extractStridedSlice_apply ![k, 0, 0] W hs (ix3 (0 : Fin 1) p q) (ix3 (⟨k, hk⟩ : Fin 3) p q) (fun a => match a with
      | ⟨0, _⟩ => by show k = k + 0; rfl
      | ⟨1, _⟩ => by show p.val = 0 + p.val; omega
      | ⟨2, _⟩ => by show q.val = 0 + q.val; omega)

/-- Slice 0 of the stack, reshaped to a matrix, is the stack's matrix 0. -/
theorem wslice128_0 (W : Cert.Spec.Arr Cert.Spec.S3x128x128) (hs : S3x128x128.Slices ![0, 0, 0] S1x128x128) (hc : S1x128x128.ShapeCasts S128x128) :
    (fun i => shapeCast S128x128 (extractStridedSlice S1x128x128 ![0, 0, 0] W hs) hc i) = Cert.Spec.wslice128 W 0 := by
  funext i
  obtain ⟨p, q, rfl⟩ : ∃ (p : Fin 128) (q : Fin 128), i = ix2 p q := ⟨i 0, i 1, eq_ix2 i⟩
  exact wslice_apply 0 (by decide) W hs hc p q

/-- Slice 1 of the stack, reshaped to a matrix, is the stack's matrix 1. -/
theorem wslice128_1 (W : Cert.Spec.Arr Cert.Spec.S3x128x128) (hs : S3x128x128.Slices ![1, 0, 0] S1x128x128) (hc : S1x128x128.ShapeCasts S128x128) :
    (fun i => shapeCast S128x128 (extractStridedSlice S1x128x128 ![1, 0, 0] W hs) hc i) = Cert.Spec.wslice128 W 1 := by
  funext i
  obtain ⟨p, q, rfl⟩ : ∃ (p : Fin 128) (q : Fin 128), i = ix2 p q := ⟨i 0, i 1, eq_ix2 i⟩
  exact wslice_apply 1 (by decide) W hs hc p q

/-- Slice 2 of the stack, reshaped to a matrix, is the stack's matrix 2. -/
theorem wslice128_2 (W : Cert.Spec.Arr Cert.Spec.S3x128x128) (hs : S3x128x128.Slices ![2, 0, 0] S1x128x128) (hc : S1x128x128.ShapeCasts S128x128) :
    (fun i => shapeCast S128x128 (extractStridedSlice S1x128x128 ![2, 0, 0] W hs) hc i) = Cert.Spec.wslice128 W 2 := by
  funext i
  obtain ⟨p, q, rfl⟩ : ∃ (p : Fin 128) (q : Fin 128), i = ix2 p q := ⟨i 0, i 1, eq_ix2 i⟩
  exact wslice_apply 2 (by decide) W hs hc p q

/-- Slice 0 of the stack, reshaped to a matrix, is the stack's matrix 0. -/
theorem wslice256_0 (W : Cert.Spec.Arr Cert.Spec.S3x128x256) (hs : S3x128x256.Slices ![0, 0, 0] S1x128x256) (hc : S1x128x256.ShapeCasts S128x256) :
    (fun i => shapeCast S128x256 (extractStridedSlice S1x128x256 ![0, 0, 0] W hs) hc i) = Cert.Spec.wslice256 W 0 := by
  funext i
  obtain ⟨p, q, rfl⟩ : ∃ (p : Fin 128) (q : Fin 256), i = ix2 p q := ⟨i 0, i 1, eq_ix2 i⟩
  exact wslice_apply 0 (by decide) W hs hc p q

/-- Slice 1 of the stack, reshaped to a matrix, is the stack's matrix 1. -/
theorem wslice256_1 (W : Cert.Spec.Arr Cert.Spec.S3x128x256) (hs : S3x128x256.Slices ![1, 0, 0] S1x128x256) (hc : S1x128x256.ShapeCasts S128x256) :
    (fun i => shapeCast S128x256 (extractStridedSlice S1x128x256 ![1, 0, 0] W hs) hc i) = Cert.Spec.wslice256 W 1 := by
  funext i
  obtain ⟨p, q, rfl⟩ : ∃ (p : Fin 128) (q : Fin 256), i = ix2 p q := ⟨i 0, i 1, eq_ix2 i⟩
  exact wslice_apply 1 (by decide) W hs hc p q

/-- Slice 2 of the stack, reshaped to a matrix, is the stack's matrix 2. -/
theorem wslice256_2 (W : Cert.Spec.Arr Cert.Spec.S3x128x256) (hs : S3x128x256.Slices ![2, 0, 0] S1x128x256) (hc : S1x128x256.ShapeCasts S128x256) :
    (fun i => shapeCast S128x256 (extractStridedSlice S1x128x256 ![2, 0, 0] W hs) hc i) = Cert.Spec.wslice256 W 2 := by
  funext i
  obtain ⟨p, q, rfl⟩ : ∃ (p : Fin 128) (q : Fin 256), i = ix2 p q := ⟨i 0, i 1, eq_ix2 i⟩
  exact wslice_apply 2 (by decide) W hs hc p q

end Cert.KernelIdeal.Hand

end
-- ==== Proof.KLayoutR.lean ====
/-
  The host's remaining layout steps read at an index: a bias vector reshaped to one row, the batch words reshaped to
  one column, and the mean, the pooled sums over max(count, 1) with the count column broadcast along the columns.
-/
import proofs.«410204_j74380243632480_3_alg».proof.KernelIdeal
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Hand

open Cert.KernelIdeal

/-- A vector of 128 reshaped to one row: element (0, j) is element j. -/
theorem row128_eq (b : Cert.Spec.Arr Cert.Spec.S128) (hc : S128.ShapeCasts S1x128) :
    (fun i => shapeCast S1x128 b hc i) = Cert.Spec.row128 b := by
  funext i
  unfold Cert.Spec.row128
  refine shapeCast_apply b hc i (ix1 (i 1)) ?_
  rw [Shape.rowMajor_val_one, Shape.rowMajor_val_two]
  have h0 := idx2_lt0 i
  show (i 1).val = (i 0).val * 128 + (i 1).val
  omega

/-- A vector of 256 reshaped to one row: element (0, j) is element j. -/
theorem row256_eq (b : Cert.Spec.Arr Cert.Spec.S256) (hc : S256.ShapeCasts S1x256) :
    (fun i => shapeCast S1x256 b hc i) = Cert.Spec.row256 b := by
  funext i
  unfold Cert.Spec.row256
  refine shapeCast_apply b hc i (ix1 (i 1)) ?_
  rw [Shape.rowMajor_val_one, Shape.rowMajor_val_two]
  have h0 := idx2_lt0 i
  show (i 1).val = (i 0).val * 256 + (i 1).val
  omega

/-- A vector of 512 reshaped to one row: element (0, j) is element j. -/
theorem row512_eq (b : Cert.Spec.Arr Cert.Spec.S512) (hc : S512.ShapeCasts S1x512) :
    (fun i => shapeCast S1x512 b hc i) = Cert.Spec.row512 b := by
  funext i
  unfold Cert.Spec.row512
  refine shapeCast_apply b hc i (ix1 (i 1)) ?_
  rw [Shape.rowMajor_val_one, Shape.rowMajor_val_two]
  have h0 := idx2_lt0 i
  show (i 1).val = (i 0).val * 512 + (i 1).val
  omega

/-- The batch words reshaped to one column: element (n, 0) is word n. -/
theorem col50000_eq (b : IVec Cert.Spec.S50000 32) (hc : S50000.ShapeCasts S50000x1) :
    (fun i => shapeCast S50000x1 b hc i) = Cert.Spec.col50000 b := by
  funext i
  unfold Cert.Spec.col50000
  refine shapeCast_apply b hc i (ix1 (i 0)) ?_
  rw [Shape.rowMajor_val_one, Shape.rowMajor_val_two]
  have h1 := idx2_lt1 i
  show (i 0).val = (i 0).val * 1 + (i 1).val
  omega

/-- The host's quotient of the pooled sums by max(count, 1.0), the count column broadcast along the 384 columns. -/
theorem pooled_host_eq (s : Cert.Spec.Arr Cert.Spec.S128x384) (cnt : Cert.Spec.Arr Cert.Spec.S128x1)
    (hb : S128x1.BroadcastsInDim S128x384 (![0, 1] : Fin 2 → Fin S128x384.rank))
    (h1 : S_.BroadcastsInDim S128x1 (![] : Fin 0 → Fin S128x1.rank)) :
    Host.divf (F := Ideal) (φ := .f32) s
        (broadcastInDim S128x384 ![0, 1] hb
          (maximumf (F := Ideal) (φ := .f32) cnt (broadcastInDim S128x1 ![] h1 (constant (F := Ideal) S_ .f32 0x3F800000#32))))
      = Cert.Spec.pooled s cnt := by
  funext i
  -- the count column read at (g, f) is read at (g, 0)
  have e1 : ∀ Y : S128x1.Idx → EReal,
      broadcastInDim S128x384 ![0, 1] hb Y i = Y (ix2 (i 0) (0 : Fin 1)) := fun Y =>
    broadcastInDim_apply _ hb Y i (ix2 (i 0) (0 : Fin 1)) (fun a => match a with
      | ⟨0, _⟩ => by show (i 0).val = if (128 : Nat) = 1 then 0 else (i 0).val; rw [if_neg (by decide)]
      | ⟨1, _⟩ => by show 0 = if (1 : Nat) = 1 then 0 else (i 1).val; rw [if_pos rfl])
  -- the scalar 1.0 read at any index of the column is the scalar
  have e2 : ∀ (C : S_.Idx → EReal) (j : S128x1.Idx),
      broadcastInDim S128x1 ![] h1 C j = C (fun a => a.elim0) := fun C j =>
    broadcastInDim_apply _ h1 C j (fun a => a.elim0) (fun a => a.elim0)
  refine (congrArg (Ideal.div (s i)) (e1 _)).trans ?_
  exact congrArg (fun z => Ideal.div (s i) (max (cnt (ix2 (i 0) (0 : Fin 1))) z)) (e2 _ _)

end Cert.KernelIdeal.Hand

end
-- ==== Proof.KHostB.lean ====
/-
  The same boundaries read at the extended reals, in the words of the network's description: the weight slices, the
  bias rows, the batch column and the mean as the description's functions of the launched arrays; every argument array
  unchanged up to the region that takes it; each region's output handed to the next.
-/
import proofs.«410204_j74380243632480_3_alg».proof.Proof.KHostA
import proofs.«410204_j74380243632480_3_alg».proof.Proof.KLayoutW
import proofs.«410204_j74380243632480_3_alg».proof.Proof.KLayoutR
import proofs.«410204_j74380243632480_3_alg».proof.Proof.Spec

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-! ## Arguments that no region before their own touches: as launched -/

theorem W3_arg3 (c : Dev nD) : W3 m ρ c (Proc.devRef .tc main_arg3) = m ((c : Thread nD τ).loc main_arg3) := by
  show StableHlo.after hostOps0_2 (W2 m ρ c) (Proc.devRef .tc main_arg3) = _
  after_results_simp <;> rfl

theorem W3_arg4 (c : Dev nD) : W3 m ρ c (Proc.devRef .tc main_arg4) = m ((c : Thread nD τ).loc main_arg4) := by
  show StableHlo.after hostOps0_2 (W2 m ρ c) (Proc.devRef .tc main_arg4) = _
  after_results_simp <;> rfl

theorem W3_arg5 (c : Dev nD) : W3 m ρ c (Proc.devRef .tc main_arg5) = m ((c : Thread nD τ).loc main_arg5) := by
  show StableHlo.after hostOps0_2 (W2 m ρ c) (Proc.devRef .tc main_arg5) = _
  after_results_simp <;> rfl

theorem W3_arg6 (c : Dev nD) : W3 m ρ c (Proc.devRef .tc main_arg6) = m ((c : Thread nD τ).loc main_arg6) := by
  show StableHlo.after hostOps0_2 (W2 m ρ c) (Proc.devRef .tc main_arg6) = _
  after_results_simp <;> rfl

theorem W3_arg2 (c : Dev nD) : W3 m ρ c (Proc.devRef .tc main_arg2) = m ((c : Thread nD τ).loc main_arg2) := by
  show StableHlo.after hostOps0_2 (W2 m ρ c) (Proc.devRef .tc main_arg2) = _
  after_results_simp <;> rfl

theorem W3_arg7 (c : Dev nD) : W3 m ρ c (Proc.devRef .tc main_arg7) = m ((c : Thread nD τ).loc main_arg7) := by
  show StableHlo.after hostOps0_2 (W2 m ρ c) (Proc.devRef .tc main_arg7) = _
  after_results_simp <;> rfl

theorem W3_arg8 (c : Dev nD) : W3 m ρ c (Proc.devRef .tc main_arg8) = m ((c : Thread nD τ).loc main_arg8) := by
  show StableHlo.after hostOps0_2 (W2 m ρ c) (Proc.devRef .tc main_arg8) = _
  after_results_simp <;> rfl

theorem W3_arg9 (c : Dev nD) : W3 m ρ c (Proc.devRef .tc main_arg9) = m ((c : Thread nD τ).loc main_arg9) := by
  show StableHlo.after hostOps0_2 (W2 m ρ c) (Proc.devRef .tc main_arg9) = _
  after_results_simp <;> rfl

theorem W3_arg10 (c : Dev nD) : W3 m ρ c (Proc.devRef .tc main_arg10) = m ((c : Thread nD τ).loc main_arg10) := by
  show StableHlo.after hostOps0_2 (W2 m ρ c) (Proc.devRef .tc main_arg10) = _
  after_results_simp <;> rfl

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

theorem W4_arg10 (c : Dev nD) : W4 m ρ c (Proc.devRef .tc main_arg10) = m ((c : Thread nD τ).loc main_arg10) :=
  (W4_of_ne m ρ c main_arg10 (by decide)).trans (W3_arg10 m ρ c)

/-- The node features are region 0's first window: an input window's array leaves the region as it entered. -/
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)

theorem W5_arg0 (c : Dev nD) : W5 m ρ c (Proc.devRef .tc main_arg0) = m ((c : Thread nD τ).loc main_arg0) := by
  show StableHlo.after hostOps1 (W4 m ρ c) (Proc.devRef .tc main_arg0) = _
  after_results_simp
  exact W4_arg0 m ρ c

theorem W5_arg2 (c : Dev nD) : W5 m ρ c (Proc.devRef .tc main_arg2) = m ((c : Thread nD τ).loc main_arg2) := by
  show StableHlo.after hostOps1 (W4 m ρ c) (Proc.devRef .tc main_arg2) = _
  after_results_simp
  exact W4_arg2 m ρ c

theorem W5_arg7 (c : Dev nD) : W5 m ρ c (Proc.devRef .tc main_arg7) = m ((c : Thread nD τ).loc main_arg7) := by
  show StableHlo.after hostOps1 (W4 m ρ c) (Proc.devRef .tc main_arg7) = _
  after_results_simp
  exact W4_arg7 m ρ c

theorem W5_arg8 (c : Dev nD) : W5 m ρ c (Proc.devRef .tc main_arg8) = m ((c : Thread nD τ).loc main_arg8) := by
  show StableHlo.after hostOps1 (W4 m ρ c) (Proc.devRef .tc main_arg8) = _
  after_results_simp
  exact W4_arg8 m ρ c

theorem W5_arg9 (c : Dev nD) : W5 m ρ c (Proc.devRef .tc main_arg9) = m ((c : Thread nD τ).loc main_arg9) := by
  show StableHlo.after hostOps1 (W4 m ρ c) (Proc.devRef .tc main_arg9) = _
  after_results_simp
  exact W4_arg9 m ρ c

theorem W5_arg10 (c : Dev nD) : W5 m ρ c (Proc.devRef .tc main_arg10) = m ((c : Thread nD τ).loc main_arg10) := by
  show StableHlo.after hostOps1 (W4 m ρ c) (Proc.devRef .tc main_arg10) = _
  after_results_simp
  exact W4_arg10 m ρ c

theorem W6_arg0 (c : Dev nD) : W6 m ρ c (Proc.devRef .tc main_arg0) = m ((c : Thread nD τ).loc main_arg0) :=
  (W6_of_ne m ρ c main_arg0 (by decide)).trans (W5_arg0 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg7 (c : Dev nD) : W6 m ρ c (Proc.devRef .tc main_arg7) = m ((c : Thread nD τ).loc main_arg7) :=
  (W6_of_ne m ρ c main_arg7 (by decide)).trans (W5_arg7 m ρ c)

theorem W6_arg8 (c : Dev nD) : W6 m ρ c (Proc.devRef .tc main_arg8) = m ((c : Thread nD τ).loc main_arg8) :=
  (W6_of_ne m ρ c main_arg8 (by decide)).trans (W5_arg8 m ρ c)

theorem W6_arg9 (c : Dev nD) : W6 m ρ c (Proc.devRef .tc main_arg9) = m ((c : Thread nD τ).loc main_arg9) :=
  (W6_of_ne m ρ c main_arg9 (by decide)).trans (W5_arg9 m ρ c)

theorem W6_arg10 (c : Dev nD) : W6 m ρ c (Proc.devRef .tc main_arg10) = m ((c : Thread nD τ).loc main_arg10) :=
  (W6_of_ne m ρ c main_arg10 (by decide)).trans (W5_arg10 m ρ c)

theorem W7_arg0 (c : Dev nD) : W7 m ρ c (Proc.devRef .tc main_arg0) = m ((c : Thread nD τ).loc main_arg0) := by
  show StableHlo.after hostOps2 (W6 m ρ c) (Proc.devRef .tc main_arg0) = _
  after_results_simp
  exact W6_arg0 m ρ c

theorem W7_arg7 (c : Dev nD) : W7 m ρ c (Proc.devRef .tc main_arg7) = m ((c : Thread nD τ).loc main_arg7) := by
  show StableHlo.after hostOps2 (W6 m ρ c) (Proc.devRef .tc main_arg7) = _
  after_results_simp
  exact W6_arg7 m ρ c

theorem W7_arg8 (c : Dev nD) : W7 m ρ c (Proc.devRef .tc main_arg8) = m ((c : Thread nD τ).loc main_arg8) := by
  show StableHlo.after hostOps2 (W6 m ρ c) (Proc.devRef .tc main_arg8) = _
  after_results_simp
  exact W6_arg8 m ρ c

theorem W7_arg9 (c : Dev nD) : W7 m ρ c (Proc.devRef .tc main_arg9) = m ((c : Thread nD τ).loc main_arg9) := by
  show StableHlo.after hostOps2 (W6 m ρ c) (Proc.devRef .tc main_arg9) = _
  after_results_simp
  exact W6_arg9 m ρ c

theorem W7_arg10 (c : Dev nD) : W7 m ρ c (Proc.devRef .tc main_arg10) = m ((c : Thread nD τ).loc main_arg10) := by
  show StableHlo.after hostOps2 (W6 m ρ c) (Proc.devRef .tc main_arg10) = _
  after_results_simp
  exact W6_arg10 m ρ c

theorem W8_arg7 (c : Dev nD) : W8 m ρ c (Proc.devRef .tc main_arg7) = m ((c : Thread nD τ).loc main_arg7) :=
  (W8_of_ne m ρ c main_arg7 (by decide)).trans (W7_arg7 m ρ c)

theorem W8_arg8 (c : Dev nD) : W8 m ρ c (Proc.devRef .tc main_arg8) = m ((c : Thread nD τ).loc main_arg8) :=
  (W8_of_ne m ρ c main_arg8 (by decide)).trans (W7_arg8 m ρ c)

theorem W8_arg9 (c : Dev nD) : W8 m ρ c (Proc.devRef .tc main_arg9) = m ((c : Thread nD τ).loc main_arg9) :=
  (W8_of_ne m ρ c main_arg9 (by decide)).trans (W7_arg9 m ρ c)

theorem W8_arg10 (c : Dev nD) : W8 m ρ c (Proc.devRef .tc main_arg10) = m ((c : Thread nD τ).loc main_arg10) :=
  (W8_of_ne m ρ c main_arg10 (by decide)).trans (W7_arg10 m ρ c)

theorem W9_arg7 (c : Dev nD) : W9 m ρ c (Proc.devRef .tc main_arg7) = m ((c : Thread nD τ).loc main_arg7) := by
  show StableHlo.after hostOps3 (W8 m ρ c) (Proc.devRef .tc main_arg7) = _
  after_results_simp
  exact W8_arg7 m ρ c

theorem W9_arg9 (c : Dev nD) : W9 m ρ c (Proc.devRef .tc main_arg9) = m ((c : Thread nD τ).loc main_arg9) := by
  show StableHlo.after hostOps3 (W8 m ρ c) (Proc.devRef .tc main_arg9) = _
  after_results_simp
  exact W8_arg9 m ρ c

theorem W9_arg10 (c : Dev nD) : W9 m ρ c (Proc.devRef .tc main_arg10) = m ((c : Thread nD τ).loc main_arg10) := by
  show StableHlo.after hostOps3 (W8 m ρ c) (Proc.devRef .tc main_arg10) = _
  after_results_simp
  exact W8_arg10 m ρ c

theorem W10_arg9 (c : Dev nD) : W10 m ρ c (Proc.devRef .tc main_arg9) = m ((c : Thread nD τ).loc main_arg9) :=
  (W10_of_ne m ρ c main_arg9 (by decide)).trans (W9_arg9 m ρ c)

theorem W10_arg10 (c : Dev nD) : W10 m ρ c (Proc.devRef .tc main_arg10) = m ((c : Thread nD τ).loc main_arg10) :=
  (W10_of_ne m ρ c main_arg10 (by decide)).trans (W9_arg10 m ρ c)

theorem W11_arg9 (c : Dev nD) : W11 m ρ c (Proc.devRef .tc main_arg9) = m ((c : Thread nD τ).loc main_arg9) := by
  show StableHlo.after hostOps4 (W10 m ρ c) (Proc.devRef .tc main_arg9) = _
  after_results_simp
  exact W10_arg9 m ρ c

/-! ## Region 0's entry: the first layer's weights and bias -/

theorem W3_w0 (c : Dev nD) : W3 m ρ c (Proc.devRef .tc main_v58) = Cert.Spec.wslice128 (m ((c : Thread nD τ).loc main_arg3)) 0 := by
  show StableHlo.after hostOps0_2 (W2 m ρ c) (Proc.devRef .tc main_v58) = _
  after_results_simp
  exact wslice128_0 _ _ _

theorem W3_w1 (c : Dev nD) : W3 m ρ c (Proc.devRef .tc main_v60) = Cert.Spec.wslice128 (m ((c : Thread nD τ).loc main_arg3)) 1 := by
  show StableHlo.after hostOps0_2 (W2 m ρ c) (Proc.devRef .tc main_v60) = _
  after_results_simp
  exact wslice128_1 _ _ _

theorem W3_w2 (c : Dev nD) : W3 m ρ c (Proc.devRef .tc main_v62) = Cert.Spec.wslice128 (m ((c : Thread nD τ).loc main_arg3)) 2 := by
  show StableHlo.after hostOps0_2 (W2 m ρ c) (Proc.devRef .tc main_v62) = _
  after_results_simp
  exact wslice128_2 _ _ _

theorem W3_b (c : Dev nD) : W3 m ρ c (Proc.devRef .tc main_v56) = Cert.Spec.row128 (m ((c : Thread nD τ).loc main_arg4)) := by
  show StableHlo.after hostOps0_2 (W2 m ρ c) (Proc.devRef .tc main_v56) = _
  after_results_simp
  exact row128_eq _ _

/-! ## Region 1's entry: the second layer's weights and bias -/

theorem W5_w0 (c : Dev nD) : W5 m ρ c (Proc.devRef .tc main_v92) = Cert.Spec.wslice256 (m ((c : Thread nD τ).loc main_arg5)) 0 := by
  show StableHlo.after hostOps1 (W4 m ρ c) (Proc.devRef .tc main_v92) = _
  after_results_simp
  rw [W4_arg5]
  exact wslice256_0 _ _ _

theorem W5_w1 (c : Dev nD) : W5 m ρ c (Proc.devRef .tc main_v94) = Cert.Spec.wslice256 (m ((c : Thread nD τ).loc main_arg5)) 1 := by
  show StableHlo.after hostOps1 (W4 m ρ c) (Proc.devRef .tc main_v94) = _
  after_results_simp
  rw [W4_arg5]
  exact wslice256_1 _ _ _

theorem W5_w2 (c : Dev nD) : W5 m ρ c (Proc.devRef .tc main_v96) = Cert.Spec.wslice256 (m ((c : Thread nD τ).loc main_arg5)) 2 := by
  show StableHlo.after hostOps1 (W4 m ρ c) (Proc.devRef .tc main_v96) = _
  after_results_simp
  rw [W4_arg5]
  exact wslice256_2 _ _ _

theorem W5_b (c : Dev nD) : W5 m ρ c (Proc.devRef .tc main_v90) = Cert.Spec.row256 (m ((c : Thread nD τ).loc main_arg6)) := by
  show StableHlo.after hostOps1 (W4 m ρ c) (Proc.devRef .tc main_v90) = _
  after_results_simp
  rw [W4_arg6]
  exact row256_eq _ _

/-! ## Region 2's entry -/

/-- Region 1's output reaches region 2 unchanged. -/
theorem W7_v97 (c : Dev nD) : W7 m ρ c (Proc.devRef .tc main_v97) = W6 m ρ c (Proc.devRef .tc main_v97) := by
  show StableHlo.after hostOps2 (W6 m ρ c) (Proc.devRef .tc main_v97) = _
  after_results_simp

theorem W7_bt (c : Dev nD) : W7 m ρ c (Proc.devRef .tc main_v98) = Cert.Spec.col50000 (m ((c : Thread nD τ).loc main_arg2)) := by
  show StableHlo.after hostOps2 (W6 m ρ c) (Proc.devRef .tc main_v98) = _
  after_results_simp
  rw [W6_arg2]
  exact col50000_eq _ _

/-! ## Region 3's entry: the mean, and the hidden layer's bias -/

theorem W9_mean (c : Dev nD) :
    W9 m ρ c (Proc.devRef .tc main_v103)
      = Cert.Spec.pooled (W8 m ρ c (Proc.devRef .tc main_v99_0)) (W8 m ρ c (Proc.devRef .tc main_v99_1)) := by
  show StableHlo.after hostOps3 (W8 m ρ c) (Proc.devRef .tc main_v103) = _
  after_results_simp
  exact pooled_host_eq _ _ _ _

theorem W9_b (c : Dev nD) : W9 m ρ c (Proc.devRef .tc main_v104) = Cert.Spec.row512 (m ((c : Thread nD τ).loc main_arg8)) := by
  show StableHlo.after hostOps3 (W8 m ρ c) (Proc.devRef .tc main_v104) = _
  after_results_simp
  rw [W8_arg8]
  exact row512_eq _ _

/-! ## Region 4's entry -/

/-- Region 3's output reaches region 4 unchanged. -/
theorem W11_v105 (c : Dev nD) : W11 m ρ c (Proc.devRef .tc main_v105) = W10 m ρ c (Proc.devRef .tc main_v105) := by
  show StableHlo.after hostOps4 (W10 m ρ c) (Proc.devRef .tc main_v105) = _
  after_results_simp

theorem W11_b (c : Dev nD) : W11 m ρ c (Proc.devRef .tc main_v106) = Cert.Spec.row128 (m ((c : Thread nD τ).loc main_arg10)) := by
  show StableHlo.after hostOps4 (W10 m ρ c) (Proc.devRef .tc main_v106) = _
  after_results_simp
  rw [W10_arg10]
  exact row128_eq _ _

end Cert.KernelIdeal.Hand

end
-- ==== Proof.KRegion0.lean ====
/-
  The first convolution layer's kernel (50 row blocks of 1000 nodes): after its last grid point the output array is the
  layer's function of the arrays the region found, index by index.

  Three steps. The stored value of the body at row p, column q of a block is the rectified sum of three matrix
  products and the bias, each product a sum over the 128 shared coordinates. The block that point t writes back is
  block t of the layer's function, because row p of every row-block window at point t is row 1000 t + p of its array
  and the weight and bias windows hold their whole arrays. Every row r lies in the block of point r / 1000, so the
  blocks written back fill the array.
-/
import proofs.«410204_j74380243632480_3_alg».proof.Proof.Gen.KernelIdeal.Frame
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

namespace Region0

/-! ## The matrix product of a row block with a weight matrix, at an index -/

/-- The left operand's row coordinate is the output's row. -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the shared coordinate. -/
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the shared coordinate. -/
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column coordinate is the output's column. -/
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A row block times a weight matrix into the zero accumulator, at row p and column q: the sum over the 128 shared
    coordinates of the products. -/
theorem matmul_apply (a : FVec Ideal S1000x128 .f32) (w : FVec Ideal S128x128 .f32) (p : Fin 1000) (q : Fin 128) :
    matmul dot_S1000x128_S128x128_S1000x128_1_0_0_1_n_n (some .fp32) a w (constant S1000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's payload at an index -/

/-- The stored value at row p, column q of the block: the rectified sum of the three products and the bias. -/
theorem pay_apply (x p2 : Vec Ideal S1000x128 .f32) (w0 : Vec Ideal S128x128 .f32) (p1 : Vec Ideal S1000x128 .f32)
    (w1 w2 : Vec Ideal S128x128 .f32) (b : Vec Ideal S1x128 .f32) (p : Fin 1000) (q : Fin 128) :
    k0_pay1 (F := Ideal) x p2 w0 p1 w1 w2 b (ix2 p q)
      = max ((((∑ k : Fin 128, x (ix2 p k) * w0 (ix2 k q)) + (∑ k : Fin 128, p1 (ix2 p k) * w1 (ix2 k q)))
          + (∑ k : Fin 128, (Cert.Spec.two * p2 (ix2 p k) - x (ix2 p k)) * w2 (ix2 k q))) + b (ix2 (0 : Fin 1) q)) Cert.Spec.zero := by
  unfold k0_pay1
  simp only [shapeCast_self]
  rw [maximumf_apply, addf_apply, addf_apply, addf_apply, matmul_apply, matmul_apply, matmul_apply,
    broadcastTo_1b_ab_apply]
  rfl

/-! ## The windows' blocks, read where the output's rectangle says -/

theorem hz : (![0, 0] : Fin 2 → Nat) = fun _ => 0 := funext fun a => by fin_cases a <;> rfl

/-- The printed index maps over the grid: a row-block window's block index is the point on the rows and zero on the
    columns; a whole-array window's is zero on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the block of point t is row 1000 t + p of the array. -/
def rowAt (t : Fin cfg0.N) (p : Fin 1000) : Fin 50000 :=
  ⟨1000 * t.val + p.val, by have ht : t.val < 50 := lt_of_lt_of_eq t.isLt N_0; have hp := p.isLt; omega⟩

/-- The features' block at point t, row p, column k: the array at row 1000 t + p. -/
theorem iblk_0_apply (c : Dev nD) (t : Fin cfg0.N) (p : Fin 1000) (k : Fin 128) :
    iblk0 V c 0 t (ix2 p k) = V c main_arg0 (ix2 (rowAt t p) k) := by
  obtain ⟨e0, e1, -⟩ := idx_facts t
  show V c main_arg0 (((cfg0.win 0).blk t).view.emb (ix2 p k)) = V c main_arg0 (ix2 (rowAt t p) k)
  congr 1
  funext a; apply Fin.ext
  match a with
  | ⟨0, _⟩ => show win0_0.index t (0 : Fin 2) * 1000 + 1 * p.val = 1000 * t.val + p.val; omega
  | ⟨1, _⟩ => show win0_0.index t (1 : Fin 2) * 128 + 1 * k.val = k.val; omega

/-- The once-propagated features' block, likewise. -/
theorem iblk_1_apply (c : Dev nD) (t : Fin cfg0.N) (p : Fin 1000) (k : Fin 128) :
    iblk0 V c 1 t (ix2 p k) = V c main_v42 (ix2 (rowAt t p) k) := by
  obtain ⟨-, -, e0, e1, -⟩ := idx_facts t
  show V c main_v42 (((cfg0.win 1).blk t).view.emb (ix2 p k)) = V c main_v42 (ix2 (rowAt t p) k)
  congr 1
  funext a; apply Fin.ext
  match a with
  | ⟨0, _⟩ => show win0_1.index t (0 : Fin 2) * 1000 + 1 * p.val = 1000 * t.val + p.val; omega
  | ⟨1, _⟩ => show win0_1.index t (1 : Fin 2) * 128 + 1 * k.val = k.val; omega

/-- The twice-propagated features' block, likewise. -/
theorem iblk_2_apply (c : Dev nD) (t : Fin cfg0.N) (p : Fin 1000) (k : Fin 128) :
    iblk0 V c 2 t (ix2 p k) = V c main_v55 (ix2 (rowAt t p) k) := by
  obtain ⟨-, -, -, -, e0, e1, -⟩ := idx_facts t
  show V c main_v55 (((cfg0.win 2).blk t).view.emb (ix2 p k)) = V c main_v55 (ix2 (rowAt t p) k)
  congr 1
  funext a; apply Fin.ext
  match a with
  | ⟨0, _⟩ => show win0_2.index t (0 : Fin 2) * 1000 + 1 * p.val = 1000 * t.val + p.val; omega
  | ⟨1, _⟩ => show win0_2.index t (1 : Fin 2) * 128 + 1 * k.val = k.val; omega

/-- A weight matrix's block is the whole matrix at every point: the first, -/
theorem iblk_3_apply (c : Dev nD) (t : Fin cfg0.N) (k q : Fin 128) :
    iblk0 V c 3 t (ix2 k q) = V c main_v58 (ix2 k q) := by
  obtain ⟨-, -, -, -, -, -, e0, e1, -⟩ := idx_facts t
  show V c main_v58 (((cfg0.win 3).blk t).view.emb (ix2 k q)) = V c main_v58 (ix2 k q)
  congr 1
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- the second, -/
theorem iblk_4_apply (c : Dev nD) (t : Fin cfg0.N) (k q : Fin 128) :
    iblk0 V c 4 t (ix2 k q) = V c main_v60 (ix2 k q) := by
  obtain ⟨-, -, -, -, -, -, -, -, e0, e1, -⟩ := idx_facts t
  show V c main_v60 (((cfg0.win 4).blk t).view.emb (ix2 k q)) = V c main_v60 (ix2 k q)
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- and the third. -/
theorem iblk_5_apply (c : Dev nD) (t : Fin cfg0.N) (k q : Fin 128) :
    iblk0 V c 5 t (ix2 k q) = V c main_v62 (ix2 k q) := by
  obtain ⟨-, -, -, -, -, -, -, -, -, -, e0, e1, -⟩ := idx_facts t
  show V c main_v62 (((cfg0.win 5).blk t).view.emb (ix2 k q)) = V c main_v62 (ix2 k q)
  congr 1
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- The bias row's block is the whole row at every point. -/
theorem iblk_6_apply (c : Dev nD) (t : Fin cfg0.N) (q : Fin 128) :
    iblk0 V c 6 t (ix2 (0 : Fin 1) q) = V c main_v56 (ix2 (0 : Fin 1) q) := by
  obtain ⟨-, -, -, -, -, -, -, -, -, -, -, -, e0, e1, -⟩ := idx_facts t
  show V c main_v56 (((cfg0.win 6).blk t).view.emb (ix2 (0 : Fin 1) q)) = V c main_v56 (ix2 (0 : Fin 1) q)
  congr 1
  funext a; apply Fin.ext
  match a with
  | ⟨0, _⟩ => show win0_6.index t (0 : Fin 2) * 1 + 1 * (0 : Fin 1).val = (0 : Fin 1).val; omega
  | ⟨1, _⟩ => show win0_6.index t (1 : Fin 2) * 128 + 1 * q.val = q.val; omega

/-- The output block's element (p, q) sits in the array at row 1000 t + p, column q. -/
theorem emb_7 (t : Fin cfg0.N) (p : Fin 1000) (q : Fin 128) :
    ((cfg0.win 7).blk t).view.emb (ix2 p q) = ix2 (rowAt t p) q := by
  obtain ⟨-, -, -, -, -, -, -, -, -, -, -, -, -, -, e0, e1⟩ := idx_facts t
  funext a; apply Fin.ext
  match a with
  | ⟨0, _⟩ => show win0_7.index t (0 : Fin 2) * 1000 + 1 * p.val = 1000 * t.val + p.val; omega
  | ⟨1, _⟩ => show win0_7.index t (1 : Fin 2) * 128 + 1 * q.val = q.val; omega

/-- What point t writes back is block t of the layer's function of the arrays the region found. -/
theorem flushed_eq (c : Dev nD) (t : Fin cfg0.N) :
    (dat0 (F := Ideal) V c).flushed 7 t = ((cfg0.win 7).blk t).view.read (Elt Ideal)
      (Cert.Spec.conv128 (V c main_arg0) (V c main_v42) (V c main_v55) (V c main_v58) (V c main_v60) (V c main_v62) (V c main_v56)) := by
  show (cfg0.win 7).cut (grid0.coords t) ((dat0 V c).after 7 t) = _
  rw [after0_7]
  unfold out0_7
  rw [View.canon_unit_zero hz]
  simp only [View.ld_unit_zero (S := S1000x128) hz, View.ld_unit_zero (S := S128x128) hz, View.ld_unit_zero (S := S1x128) hz]
  funext j
  obtain ⟨p, q, rfl⟩ : ∃ (p : Fin 1000) (q : Fin 128), j = ix2 p q := ⟨j 0, j 1, eq_ix2 j⟩
  show k0_pay1 (F := Ideal) (iblk0 V c 0 t) (iblk0 V c 2 t) (iblk0 V c 3 t) (iblk0 V c 1 t) (iblk0 V c 4 t) (iblk0 V c 5 t) (iblk0 V c 6 t) (ix2 p q)
    = Cert.Spec.conv128 (V c main_arg0) (V c main_v42) (V c main_v55) (V c main_v58) (V c main_v60) (V c main_v62) (V c main_v56) (((cfg0.win 7).blk t).view.emb (ix2 p q))
  refine (pay_apply (iblk0 V c 0 t) (iblk0 V c 2 t) (iblk0 V c 3 t) (iblk0 V c 1 t) (iblk0 V c 4 t) (iblk0 V c 5 t) (iblk0 V c 6 t) p q).trans ?_
  rw [emb_7]
  simp only [iblk_0_apply, iblk_1_apply, iblk_2_apply, iblk_3_apply, iblk_4_apply, iblk_5_apply, iblk_6_apply]
  rfl

/-! ## From blocks to the array -/

/-- An index of the array is in point t's block iff each coordinate is in the block's range on its axis. -/
theorem mem_blk_7 (t : Fin cfg0.N) (i : S50000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v63).slice (win0_7.rect t)).set ↔ _
  rw [View.set_slice_whole, Rect.mem_set_unit]
  exact Iff.rfl

/-- Row r is in the block of point r / 1000, which is written back. -/
theorem rows_cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, -, -, e0, e1⟩ := idx_facts t
  refine ⟨t, flush0_7 t, ?_⟩
  rw [mem_blk_7]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 128 ≤ (i 1).val ∧ (i 1).val < win0_7.index t (1 : Fin 2) * 128 + 128; omega

end Region0

/-- Region 0's output array after the run is the convolution layer (128 columns) of the arrays the region found. -/
theorem region0_value (c : Dev nD) :
    (dat0 (F := Ideal) V c).arrAt 7 cfg0.N
      = Cert.Spec.conv128 (V c main_arg0) (V c main_v42) (V c main_v55) (V c main_v58) (V c main_v60) (V c main_v62) (V c main_v56) :=
  (dat0 (F := Ideal) V c).arrAt_eq_of_cover 7 _ (fun t _ => Region0.flushed_eq V c t) Region0.rows_cover

end Cert.KernelIdeal.Hand

end
-- ==== Proof.KRegion1.lean ====
/-
  The second convolution layer's kernel (50 row blocks of 1000 nodes, 256 output columns): after its last grid point the
  output array is the layer's function of the arrays the region found, index by index.

  Three steps, as for the first layer. The stored value of the body at row p, column q of a block is the rectified sum
  of three matrix products and the bias, each product a sum over the 128 shared coordinates. The block that point t
  writes back is block t of the layer's function, because row p of every row-block window at point t is row 1000 t + p
  of its array and the weight and bias windows hold their whole arrays. Every row r lies in the block of point
  r / 1000, so the blocks written back fill the array.
-/
import proofs.«410204_j74380243632480_3_alg».proof.Proof.Gen.KernelIdeal.Frame
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

namespace Region1

/-! ## The matrix product of a row block with a weight matrix of 256 columns, at an index -/

/-- The left operand's row coordinate is the output's row. -/
theorem lhs_dot_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- The left operand's column coordinate is the shared coordinate. -/
theorem lhs_dot_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
/-- The right operand's row coordinate is the shared coordinate. -/
theorem rhs_dot_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
/-- The right operand's column coordinate is the output's column. -/
theorem rhs_dot_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- A row block times a weight matrix into the zero accumulator, at row p and column q: the sum over the 128 shared
    coordinates of the products. -/
theorem matmul_apply (a : FVec Ideal S1000x128 .f32) (w : FVec Ideal S128x256 .f32) (p : Fin 1000) (q : Fin 256) :
    matmul dot_S1000x128_S128x256_S1000x256_1_0_0_1_n_n (some .fp32) a w (constant S1000x256 .f32 0x00000000#32) (ix2 p q)
      = ∑ k : Fin 128, a (ix2 p k) * w (ix2 k q) := by
  simp only [matmul]
  rw [Ideal.matmul_constant_zero_apply, ← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p q) ((ValueIdx.contrEquiv1 dot_S1000x128_S128x256_S1000x256_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x256_S1000x256_1_0_0_1_n_n.rhsIdx (ix2 p q) ((ValueIdx.contrEquiv1 dot_S1000x128_S128x256_S1000x256_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's payload at an index -/

/-- The stored value at row p, column q of the block: the rectified sum of the three products and the bias. -/
theorem pay_apply (x p2 : Vec Ideal S1000x128 .f32) (w0 : Vec Ideal S128x256 .f32) (p1 : Vec Ideal S1000x128 .f32)
    (w1 w2 : Vec Ideal S128x256 .f32) (b : Vec Ideal S1x256 .f32) (p : Fin 1000) (q : Fin 256) :
    k1_pay1 (F := Ideal) x p2 w0 p1 w1 w2 b (ix2 p q)
      = max ((((∑ k : Fin 128, x (ix2 p k) * w0 (ix2 k q)) + (∑ k : Fin 128, p1 (ix2 p k) * w1 (ix2 k q)))
          + (∑ k : Fin 128, (Cert.Spec.two * p2 (ix2 p k) - x (ix2 p k)) * w2 (ix2 k q))) + b (ix2 (0 : Fin 1) q)) Cert.Spec.zero := by
  unfold k1_pay1
  simp only [shapeCast_self]
  rw [maximumf_apply, addf_apply, addf_apply, addf_apply, matmul_apply, matmul_apply, matmul_apply,
    broadcastTo_1b_ab_apply]
  rfl

/-! ## The windows' blocks, read where the output's rectangle says -/

theorem hz : (![0, 0] : Fin 2 → Nat) = fun _ => 0 := funext fun a => by fin_cases a <;> rfl

/-- The printed index maps over the grid: a row-block window's block index is the point on the rows and zero on the
    columns; a whole-array window's is zero on both. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the block of point t is row 1000 t + p of the array. -/
def rowAt (t : Fin cfg1.N) (p : Fin 1000) : Fin 50000 :=
  ⟨1000 * t.val + p.val, by have ht : t.val < 50 := lt_of_lt_of_eq t.isLt N_1; have hp := p.isLt; omega⟩

/-- The first layer's output, block at point t, row p, column k: the array at row 1000 t + p. -/
theorem iblk_0_apply (c : Dev nD) (t : Fin cfg1.N) (p : Fin 1000) (k : Fin 128) :
    iblk1 V c 0 t (ix2 p k) = V c main_v63 (ix2 (rowAt t p) k) := by
  obtain ⟨e0, e1, -⟩ := idx_facts t
  show V c main_v63 (((cfg1.win 0).blk t).view.emb (ix2 p k)) = V c main_v63 (ix2 (rowAt t p) k)
  congr 1
  funext a; apply Fin.ext
  match a with
  | ⟨0, _⟩ => show win1_0.index t (0 : Fin 2) * 1000 + 1 * p.val = 1000 * t.val + p.val; omega
  | ⟨1, _⟩ => show win1_0.index t (1 : Fin 2) * 128 + 1 * k.val = k.val; omega

/-- Its once-propagated form's block, likewise. -/
theorem iblk_1_apply (c : Dev nD) (t : Fin cfg1.N) (p : Fin 1000) (k : Fin 128) :
    iblk1 V c 1 t (ix2 p k) = V c main_v76 (ix2 (rowAt t p) k) := by
  obtain ⟨-, -, e0, e1, -⟩ := idx_facts t
  show V c main_v76 (((cfg1.win 1).blk t).view.emb (ix2 p k)) = V c main_v76 (ix2 (rowAt t p) k)
  congr 1
  funext a; apply Fin.ext
  match a with
  | ⟨0, _⟩ => show win1_1.index t (0 : Fin 2) * 1000 + 1 * p.val = 1000 * t.val + p.val; omega
  | ⟨1, _⟩ => show win1_1.index t (1 : Fin 2) * 128 + 1 * k.val = k.val; omega

/-- Its twice-propagated form's block, likewise. -/
theorem iblk_2_apply (c : Dev nD) (t : Fin cfg1.N) (p : Fin 1000) (k : Fin 128) :
    iblk1 V c 2 t (ix2 p k) = V c main_v89 (ix2 (rowAt t p) k) := by
  obtain ⟨-, -, -, -, e0, e1, -⟩ := idx_facts t
  show V c main_v89 (((cfg1.win 2).blk t).view.emb (ix2 p k)) = V c main_v89 (ix2 (rowAt t p) k)
  congr 1
  funext a; apply Fin.ext
  match a with
  | ⟨0, _⟩ => show win1_2.index t (0 : Fin 2) * 1000 + 1 * p.val = 1000 * t.val + p.val; omega
  | ⟨1, _⟩ => show win1_2.index t (1 : Fin 2) * 128 + 1 * k.val = k.val; omega

/-- A weight matrix's block is the whole matrix at every point: the first, -/
theorem iblk_3_apply (c : Dev nD) (t : Fin cfg1.N) (k : Fin 128) (q : Fin 256) :
    iblk1 V c 3 t (ix2 k q) = V c main_v92 (ix2 k q) := by
  obtain ⟨-, -, -, -, -, -, e0, e1, -⟩ := idx_facts t
  show V c main_v92 (((cfg1.win 3).blk t).view.emb (ix2 k q)) = V c main_v92 (ix2 k q)
  congr 1
  funext a; apply Fin.ext
  match a with
  | ⟨0, _⟩ => show win1_3.index t (0 : Fin 2) * 128 + 1 * k.val = k.val; omega
  | ⟨1, _⟩ => show win1_3.index t (1 : Fin 2) * 256 + 1 * q.val = q.val; omega

/-- the second, -/
theorem iblk_4_apply (c : Dev nD) (t : Fin cfg1.N) (k : Fin 128) (q : Fin 256) :
    iblk1 V c 4 t (ix2 k q) = V c main_v94 (ix2 k q) := by
  obtain ⟨-, -, -, -, -, -, -, -, e0, e1, -⟩ := idx_facts t
  show V c main_v94 (((cfg1.win 4).blk t).view.emb (ix2 k q)) = V c main_v94 (ix2 k q)
  congr 1
  funext a; apply Fin.ext
  match a with
  | ⟨0, _⟩ => show win1_4.index t (0 : Fin 2) * 128 + 1 * k.val = k.val; omega
  | ⟨1, _⟩ => show win1_4.index t (1 : Fin 2) * 256 + 1 * q.val = q.val; omega

/-- and the third. -/
theorem iblk_5_apply (c : Dev nD) (t : Fin cfg1.N) (k : Fin 128) (q : Fin 256) :
    iblk1 V c 5 t (ix2 k q) = V c main_v96 (ix2 k q) := by
  obtain ⟨-, -, -, -, -, -, -, -, -, -, e0, e1, -⟩ := idx_facts t
  show V c main_v96 (((cfg1.win 5).blk t).view.emb (ix2 k q)) = V c main_v96 (ix2 k q)
  congr 1
  funext a; apply Fin.ext
  match a with
  | ⟨0, _⟩ => show win1_5.index t (0 : Fin 2) * 128 + 1 * k.val = k.val; omega
  | ⟨1, _⟩ => show win1_5.index t (1 : Fin 2) * 256 + 1 * q.val = q.val; omega

/-- The bias row's block is the whole row at every point. -/
theorem iblk_6_apply (c : Dev nD) (t : Fin cfg1.N) (q : Fin 256) :
    iblk1 V c 6 t (ix2 (0 : Fin 1) q) = V c main_v90 (ix2 (0 : Fin 1) q) := by
  obtain ⟨-, -, -, -, -, -, -, -, -, -, -, -, e0, e1, -⟩ := idx_facts t
  show V c main_v90 (((cfg1.win 6).blk t).view.emb (ix2 (0 : Fin 1) q)) = V c main_v90 (ix2 (0 : Fin 1) q)
  congr 1
  funext a; apply Fin.ext
  match a with
  | ⟨0, _⟩ => show win1_6.index t (0 : Fin 2) * 1 + 1 * (0 : Fin 1).val = (0 : Fin 1).val; omega
  | ⟨1, _⟩ => show win1_6.index t (1 : Fin 2) * 256 + 1 * q.val = q.val; omega

/-- The output block's element (p, q) sits in the array at row 1000 t + p, column q. -/
theorem emb_7 (t : Fin cfg1.N) (p : Fin 1000) (q : Fin 256) :
    ((cfg1.win 7).blk t).view.emb (ix2 p q) = ix2 (rowAt t p) q := by
  obtain ⟨-, -, -, -, -, -, -, -, -, -, -, -, -, -, e0, e1⟩ := idx_facts t
  funext a; apply Fin.ext
  match a with
  | ⟨0, _⟩ => show win1_7.index t (0 : Fin 2) * 1000 + 1 * p.val = 1000 * t.val + p.val; omega
  | ⟨1, _⟩ => show win1_7.index t (1 : Fin 2) * 256 + 1 * q.val = q.val; omega

/-- What point t writes back is block t of the layer's function of the arrays the region found. -/
theorem flushed_eq (c : Dev nD) (t : Fin cfg1.N) :
    (dat1 (F := Ideal) V c).flushed 7 t = ((cfg1.win 7).blk t).view.read (Elt Ideal)
      (Cert.Spec.conv256 (V c main_v63) (V c main_v76) (V c main_v89) (V c main_v92) (V c main_v94) (V c main_v96) (V c main_v90)) := by
  show (cfg1.win 7).cut (grid1.coords t) ((dat1 V c).after 7 t) = _
  rw [after1_7]
  unfold out1_7
  rw [View.canon_unit_zero hz]
  simp only [View.ld_unit_zero (S := S1000x128) hz, View.ld_unit_zero (S := S128x256) hz, View.ld_unit_zero (S := S1x256) hz]
  funext j
  obtain ⟨p, q, rfl⟩ : ∃ (p : Fin 1000) (q : Fin 256), j = ix2 p q := ⟨j 0, j 1, eq_ix2 j⟩
  show k1_pay1 (F := Ideal) (iblk1 V c 0 t) (iblk1 V c 2 t) (iblk1 V c 3 t) (iblk1 V c 1 t) (iblk1 V c 4 t) (iblk1 V c 5 t) (iblk1 V c 6 t) (ix2 p q)
    = Cert.Spec.conv256 (V c main_v63) (V c main_v76) (V c main_v89) (V c main_v92) (V c main_v94) (V c main_v96) (V c main_v90) (((cfg1.win 7).blk t).view.emb (ix2 p q))
  refine (pay_apply (iblk1 V c 0 t) (iblk1 V c 2 t) (iblk1 V c 3 t) (iblk1 V c 1 t) (iblk1 V c 4 t) (iblk1 V c 5 t) (iblk1 V c 6 t) p q).trans ?_
  rw [emb_7]
  simp only [iblk_0_apply, iblk_1_apply, iblk_2_apply, iblk_3_apply, iblk_4_apply, iblk_5_apply, iblk_6_apply]
  rfl

/-! ## From blocks to the array -/

/-- An index of the array is in point t's block iff each coordinate is in the block's range on its axis. -/
theorem mem_blk_7 (t : Fin cfg1.N) (i : S50000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v97).slice (win1_7.rect t)).set ↔ _
  rw [View.set_slice_whole, Rect.mem_set_unit]
  exact Iff.rfl

/-- Row r is in the block of point r / 1000, which is written back. -/
theorem rows_cover (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, -, -, -, -, -, -, -, -, e0, e1⟩ := idx_facts t
  refine ⟨t, flush1_7 t, ?_⟩
  rw [mem_blk_7]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 256 ≤ (i 1).val ∧ (i 1).val < win1_7.index t (1 : Fin 2) * 256 + 256; omega

end Region1

/-- Region 1's output array after the run is the convolution layer (256 columns) of the arrays the region found. -/
theorem region1_value (c : Dev nD) :
    (dat1 (F := Ideal) V c).arrAt 7 cfg1.N
      = Cert.Spec.conv256 (V c main_v63) (V c main_v76) (V c main_v89) (V c main_v92) (V c main_v94) (V c main_v96) (V c main_v90) :=
  (dat1 (F := Ideal) V c).arrAt_eq_of_cover 7 _ (fun t _ => Region1.flushed_eq V c t) Region1.rows_cover

end Cert.KernelIdeal.Hand

end
-- ==== Proof.PoolLaw.lean ====
/-
  The pooling sums taken block by block.

  The 50000 rows are 50 blocks of 1000. For a graph g the sum over the rows whose batch word is g, restricted to the
  first T blocks, starts at 0 and grows, block t, by the sum over the block's 1000 rows of (1 if the row's word is g's
  word, else 0) times the row; after 50 blocks it is the whole sum. The factor is the one-hot entry: 1·a = a and
  0·a = 0 hold for every extended real a, so no finiteness is used, and a word that names no graph (negative, or 128
  and above) meets no g: as a 32-bit word it equals g's word exactly when, read signed, it is g.
-/
import proofs.«410204_j74380243632480_3_alg».proof.Proof.Spec

noncomputable section

namespace Cert.Spec

open Idealize.ShloMosaic Idealize.ShloMosaic.ValueIdx

/-- Row k of block t. -/
def blkRow (t : Fin 50) (k : Fin 1000) : Fin 50000 := ⟨1000 * t.val + k.val, by have := t.isLt; have := k.isLt; omega⟩

/-- The one-hot entry as an extended real: 1 where the word is graph g's word, else 0. -/
def hot (w : BitVec 32) (g : Fin 128) : EReal := if w = BitVec.ofNat 32 g.val then 1 else 0

/-- A 32-bit word is graph g's word exactly when, read signed, it is g. -/
theorem word_eq_iff (w : BitVec 32) (g : Fin 128) : w = BitVec.ofNat 32 g.val ↔ w.toInt = (g.val : ℤ) := by
  have hg := g.isLt
  have h1 : (BitVec.ofNat 32 g.val).toNat = g.val := by
    rw [BitVec.toNat_ofNat]
    omega
  have hw : (BitVec.ofNat 32 g.val).toInt = (g.val : ℤ) := by
    rw [BitVec.toInt_eq_toNat_of_lt (by rw [h1]; omega), h1]
  rw [← hw]
  exact BitVec.toInt_inj.symm

/-- A sum over the rows of graph g that pass a further test is the sum, over all rows passing the test, of the term
    where the row's word names g and of 0 elsewhere. -/
theorem sum_rowsOf_filter (bt : IVec S50000x1 32) (g : Fin 128) (q : Fin 50000 → Prop) [DecidablePred q]
    (f : Fin 50000 → EReal) :
    ∑ n ∈ (rowsOf bt g).filter q, f n
      = ∑ n ∈ Finset.univ.filter q, if (bt (ix2 n (0 : Fin 1))).toInt = (g.val : ℤ) then f n else 0 := by
  unfold rowsOf
  rw [Finset.filter_comm, Finset.sum_filter]

/-- The rows of block t, 1000·t ≤ n < 1000·(t+1), are the rows blkRow t k, each once. -/
theorem sum_block (t : Fin 50) (F : Fin 50000 → EReal) :
    ∑ n ∈ Finset.univ.filter (fun n : Fin 50000 => 1000 * t.val ≤ n.val ∧ n.val < 1000 * (t.val + 1)), F n
      = ∑ k : Fin 1000, F (blkRow t k) := by
  symm
  refine Finset.sum_nbij' (blkRow t)
    (fun n => (⟨(n.val - 1000 * t.val) % 1000, Nat.mod_lt _ (by norm_num)⟩ : Fin 1000)) ?_ ?_ ?_ ?_ ?_
  · intro k _
    have := k.isLt
    simp only [blkRow, Finset.mem_filter, Finset.mem_univ, true_and]
    omega
  · intro n _
    exact Finset.mem_univ _
  · intro k _
    have := k.isLt
    apply Fin.ext
    simp only [blkRow]
    omega
  · intro n hn
    simp only [Finset.mem_filter, Finset.mem_univ, true_and] at hn
    apply Fin.ext
    simp only [blkRow]
    omega
  · intro k _
    rfl

/-- The rows below 1000·(t+1) are the rows below 1000·t together with block t. -/
theorem sum_lt_succ (t : Fin 50) (F : Fin 50000 → EReal) :
    ∑ n ∈ Finset.univ.filter (fun n : Fin 50000 => n.val < 1000 * (t.val + 1)), F n
      = ∑ n ∈ Finset.univ.filter (fun n : Fin 50000 => n.val < 1000 * t.val), F n + ∑ k : Fin 1000, F (blkRow t k) := by
  have hsplit := Finset.sum_filter_add_sum_filter_not
    (Finset.univ.filter (fun n : Fin 50000 => n.val < 1000 * (t.val + 1))) (fun n : Fin 50000 => n.val < 1000 * t.val) F
  rw [Finset.filter_filter, Finset.filter_filter] at hsplit
  have hlo : Finset.univ.filter (fun n : Fin 50000 => n.val < 1000 * (t.val + 1) ∧ n.val < 1000 * t.val)
      = Finset.univ.filter (fun n : Fin 50000 => n.val < 1000 * t.val) :=
    Finset.filter_congr fun n _ => by omega
  have hhi : Finset.univ.filter (fun n : Fin 50000 => n.val < 1000 * (t.val + 1) ∧ ¬ n.val < 1000 * t.val)
      = Finset.univ.filter (fun n : Fin 50000 => 1000 * t.val ≤ n.val ∧ n.val < 1000 * (t.val + 1)) :=
    Finset.filter_congr fun n _ => by omega
  rw [hlo, hhi, sum_block t F] at hsplit
  exact hsplit.symm

/-- The word 1.0 is the pattern of 1 at this format, which denotes the real 1. -/
theorem one_eq' : one = (1 : EReal) := IdealRules.sign_bit.ideal_onePat .f32

/-- The one-hot entry times a value is the value where the word, read signed, is g, and 0 elsewhere. -/
theorem hot_mul (w : BitVec 32) (g : Fin 128) (a : EReal) :
    hot w g * a = if w.toInt = (g.val : ℤ) then a else 0 := by
  unfold hot
  by_cases hw : w.toInt = (g.val : ℤ)
  · rw [if_pos ((word_eq_iff w g).mpr hw), if_pos hw, one_mul]
  · rw [if_neg (fun h => hw ((word_eq_iff w g).mp h)), if_neg hw, zero_mul]

/-- The one-hot entry itself, by the signed reading. -/
theorem hot_eq (w : BitVec 32) (g : Fin 128) : hot w g = if w.toInt = (g.val : ℤ) then 1 else 0 := by
  have := hot_mul w g 1
  rwa [mul_one] at this

/-- For graph g: the rows below 1000·(t+1) add, to the rows below 1000·t, block t's rows weighted by the one-hot entry. -/
theorem rows_succ (bt : IVec S50000x1 32) (g : Fin 128) (t : Fin 50) (f : Fin 50000 → EReal) :
    ∑ n ∈ (rowsOf bt g).filter (fun n : Fin 50000 => n.val < 1000 * (t.val + 1)), f n
      = ∑ n ∈ (rowsOf bt g).filter (fun n : Fin 50000 => n.val < 1000 * t.val), f n
        + ∑ k : Fin 1000, hot (bt (ix2 (blkRow t k) (0 : Fin 1))) g * f (blkRow t k) := by
  rw [sum_rowsOf_filter, sum_rowsOf_filter, sum_lt_succ]
  congr 1
  exact Finset.sum_congr rfl fun k _ => (hot_mul _ _ _).symm

/-- The same for the counts: each row of the graph counts 1. -/
theorem rows_succ_one (bt : IVec S50000x1 32) (g : Fin 128) (t : Fin 50) :
    ∑ _n ∈ (rowsOf bt g).filter (fun n : Fin 50000 => n.val < 1000 * (t.val + 1)), one
      = ∑ _n ∈ (rowsOf bt g).filter (fun n : Fin 50000 => n.val < 1000 * t.val), one
        + ∑ k : Fin 1000, hot (bt (ix2 (blkRow t k) (0 : Fin 1))) g := by
  rw [rows_succ bt g t fun _ => one]
  congr 1
  exact Finset.sum_congr rfl fun k _ => by rw [one_eq', mul_one]

/-- The pooled sums over the first T blocks only. -/
def partSum (bt : IVec S50000x1 32) (h : Arr S50000x256) (x : Arr S50000x128) (T : ℕ) : Arr S128x384 := fun i =>
  ∑ n ∈ (rowsOf bt (i 0)).filter (fun n : Fin 50000 => n.val < 1000 * T), catRow h x n (i 1)

/-- The pooled counts over the first T blocks only. -/
def partCnt (bt : IVec S50000x1 32) (T : ℕ) : Arr S128x1 := fun i =>
  ∑ _n ∈ (rowsOf bt (i 0)).filter (fun n : Fin 50000 => n.val < 1000 * T), one

theorem partSum_zero (bt : IVec S50000x1 32) (h : Arr S50000x256) (x : Arr S50000x128) (i : S128x384.Idx) :
    partSum bt h x 0 i = 0 := by
  unfold partSum
  rw [Finset.filter_false_of_mem fun n _ => by omega, Finset.sum_empty]

theorem partCnt_zero (bt : IVec S50000x1 32) (i : S128x1.Idx) : partCnt bt 0 i = 0 := by
  unfold partCnt
  rw [Finset.filter_false_of_mem fun n _ => by omega, Finset.sum_empty]

/-- Block t adds the one-hot-weighted sum of its 1000 rows. -/
theorem partSum_succ (bt : IVec S50000x1 32) (h : Arr S50000x256) (x : Arr S50000x128) (t : Fin 50) (i : S128x384.Idx) :
    partSum bt h x (t.val + 1) i
      = partSum bt h x t.val i + ∑ k : Fin 1000, hot (bt (ix2 (blkRow t k) (0 : Fin 1))) (i 0) * catRow h x (blkRow t k) (i 1) := by
  exact rows_succ bt (i 0) t fun n => catRow h x n (i 1)

/-- Block t adds the sum of its 1000 one-hot entries (the literal 1.0 of the programs is the real 1). -/
theorem partCnt_succ (bt : IVec S50000x1 32) (t : Fin 50) (i : S128x1.Idx) :
    partCnt bt (t.val + 1) i = partCnt bt t.val i + ∑ k : Fin 1000, hot (bt (ix2 (blkRow t k) (0 : Fin 1))) (i 0) := by
  exact rows_succ_one bt (i 0) t

/-- After all 50 blocks: the whole sums and counts. -/
theorem partSum_full (bt : IVec S50000x1 32) (h : Arr S50000x256) (x : Arr S50000x128) : partSum bt h x 50 = poolSum bt h x := by
  funext i
  unfold partSum poolSum
  rw [Finset.filter_true_of_mem fun n _ => by have := n.isLt; omega]

theorem partCnt_full (bt : IVec S50000x1 32) : partCnt bt 50 = poolCnt bt := by
  funext i
  unfold partCnt poolCnt
  rw [Finset.filter_true_of_mem fun n _ => by have := n.isLt; omega]

/-- The word 1.0 denotes the real 1. -/
theorem one_eq : one = (1 : EReal) := one_eq'

end Cert.Spec

end
-- ==== Proof.K2Pay.lean ====
/-
  The pooling kernel's body, one stored value at a time, read at an index over the extended reals: the one-hot entry;
  a block of the sums plus the one-hot matrix times the block of rows; the counts plus the one-hot's row sums; the
  two zero fills of the first grid point.
-/
import proofs.«410204_j74380243632480_3_alg».proof.Proof.Gen.KernelIdeal.Skeleton
import proofs.«410204_j74380243632480_3_alg».proof.Proof.PoolLaw
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Hand

open Cert.KernelIdeal Cert.KernelIdeal.Gen

/-! ## The one-hot entry

  The entry at (g, k) converts, read signed, the compare bit of g's word (the row counter) with row k's word (the
  column of words viewed as a row and repeated down the 128 rows), widened to 32 bits: the integer 1 or 0. -/

/-- The widened compare bit of two words, read signed, is 1 where they are equal and 0 elsewhere. -/
theorem hot_word (w : BitVec 32) (g : Fin 128) :
    FloatOps.sitofp (F := Ideal) .f32 ((IntOp.cmpi .eq (BitVec.ofNat 32 g.val) w).setWidth 32) = Cert.Spec.hot w g := by
  unfold Cert.Spec.hot
  by_cases h : w = BitVec.ofNat 32 g.val
  · rw [if_pos h, h]
    have e : IntOp.cmpi .eq (BitVec.ofNat 32 g.val) (BitVec.ofNat 32 g.val) = 1#1 := by
      unfold IntOp.cmpi
      simp only [beq_self_eq_true, BitVec.ofBool_true]
      rfl
    rw [e]
    show ((((1#1 : BitVec 1).setWidth 32).toInt : ℝ) : EReal) = 1
    have t : ((1#1 : BitVec 1).setWidth 32).toInt = 1 := by decide
    rw [t, Int.cast_one, EReal.coe_one]
  · rw [if_neg h]
    have hb : (BitVec.ofNat 32 g.val == w) = false := by
      rw [beq_eq_false_iff_ne]
      exact fun e => h e.symm
    have e : IntOp.cmpi .eq (BitVec.ofNat 32 g.val) w = 0#1 := by
      unfold IntOp.cmpi
      simp only [hb, BitVec.ofBool_false]
      rfl
    rw [e]
    show ((((0#1 : BitVec 1).setWidth 32).toInt : ℝ) : EReal) = 0
    have t : ((0#1 : BitVec 1).setWidth 32).toInt = 0 := by decide
    rw [t, Int.cast_zero, EReal.coe_zero]

/-- The one-hot matrix at (g, k): 1 where row k's word is graph g's word, else 0. -/
theorem pay3_apply (x2 : S1000x1.Idx → BitVec 32) (g : Fin 128) (k : Fin 1000) :
    k2_pay3 (F := Ideal) x2 (ix2 g k) = Cert.Spec.hot (x2 (ix2 k (0 : Fin 1))) g := by
  unfold k2_pay3
  simp only [sitofp_apply, extui_apply]
  show FloatOps.sitofp (F := Ideal) .f32 (BitVec.setWidth 32 (IntOp.cmpi .eq
      (iota Kind.tc S128x1000 32 [0] iota_S128x1000_d0_w32 (ix2 g k))
      (broadcastTo S128x1000 (shapeCast S1x1000 (shapeCast S1000 x2 shapeCasts_S1000x1_S1000) shapeCasts_S1000_S1x1000)
        broadcasts_S1x1000_S128x1000 (ix2 g k)))) = _
  rw [iota_single_apply,
    broadcastTo_apply _ broadcasts_S1x1000_S128x1000 (ix2 g k) (ix2 (0 : Fin 1) k) (fun a => match a with
      | ⟨0, _⟩ => by show 0 = if (1 : Nat) = 1 then 0 else _; rw [if_pos rfl]
      | ⟨1, _⟩ => by show k.val = if (1000 : Nat) = 1 then 0 else k.val; rw [if_neg (by decide)]),
    shapeCast_apply _ shapeCasts_S1000_S1x1000 (ix2 (0 : Fin 1) k) (ix1 k)
      (by rewrite [Shape.rowMajor_val_one, Shape.rowMajor_val_two]; show k.val = 0 * 1000 + k.val; omega),
    shapeCast_apply x2 shapeCasts_S1000x1_S1000 (ix1 k) (ix2 k (0 : Fin 1))
      (by rewrite [Shape.rowMajor_val_one, Shape.rowMajor_val_two]; show k.val * 1 + 0 = k.val; omega)]
  exact hot_word _ g

/-! ## The products with the one-hot matrix

  The contraction runs over the block's 1000 rows: the left operand is read at (g, k), the right at (k, f). -/

theorem lhsA_0 (i : S128x256.Idx) (q : dot_S128x1000_S1000x256_S128x256_1_0_0_1_n_n.contr.Idx) :
    (dot_S128x1000_S1000x256_S128x256_1_0_0_1_n_n.lhsIdx i q 0).val = (i 0).val := by
  unfold DotDims.lhsIdx
  rw [dif_neg (show ¬(0 : Fin S128x1000.rank) ∈ dot_S128x1000_S1000x256_S128x256_1_0_0_1_n_n.lhsBatch by decide), dif_pos (show (0 : Fin S128x1000.rank) ∈ dot_S128x1000_S1000x256_S128x256_1_0_0_1_n_n.lhsNonContracting by decide)]
  rfl
theorem rhsA_1 (i : S128x256.Idx) (q : dot_S128x1000_S1000x256_S128x256_1_0_0_1_n_n.contr.Idx) :
    (dot_S128x1000_S1000x256_S128x256_1_0_0_1_n_n.rhsIdx i q 1).val = (i 1).val := by
  unfold DotDims.rhsIdx
  rw [dif_neg (show ¬(1 : Fin S1000x256.rank) ∈ dot_S128x1000_S1000x256_S128x256_1_0_0_1_n_n.rhsBatch by decide), dif_pos (show (1 : Fin S1000x256.rank) ∈ dot_S128x1000_S1000x256_S128x256_1_0_0_1_n_n.rhsNonContracting by decide)]
  rfl

/-- The one-hot matrix times a block of rows, at (g, f): the sum over the block's rows k of the entry at (g, k) times
    the row's entry at (k, f). -/
theorem hotmulA (x2 : S1000x1.Idx → BitVec 32) (v : FVec Ideal S1000x256 .f32) (g : Fin 128) (f : Fin 256) :
    matmul dot_S128x1000_S1000x256_S128x256_1_0_0_1_n_n (some ContractPrecision.fp32) (k2_pay3 (F := Ideal) x2) v (constant S128x256 FTy.f32 0x00000000#32) (ix2 g f)
      = ∑ k : Fin 1000, Cert.Spec.hot (x2 (ix2 k (0 : Fin 1))) g * v (ix2 k f) := by
  simp only [matmul]
  rw [Ideal.matmul_constant_zero_apply, ← Equiv.sum_comp (ValueIdx.contrEquiv1 dot_S128x1000_S1000x256_S128x256_1_0_0_1_n_n 1000 rfl rfl).symm]
  refine Finset.sum_congr rfl fun k _ => ?_
  have hk := ValueIdx.contrEquiv1_symm_val dot_S128x1000_S1000x256_S128x256_1_0_0_1_n_n 1000 rfl rfl k
  have el : dot_S128x1000_S1000x256_S128x256_1_0_0_1_n_n.lhsIdx (ix2 g f) ((ValueIdx.contrEquiv1 dot_S128x1000_S1000x256_S128x256_1_0_0_1_n_n 1000 rfl rfl).symm k) = ix2 g k := funext fun a => Fin.ext (by
    match a with
    | ⟨0, _⟩ => exact lhsA_0 _ _
    | ⟨1, _⟩ => exact (dot_S128x1000_S1000x256_S128x256_1_0_0_1_n_n.lhsIdx_val_of_single rfl _ _).trans hk)
  have er : dot_S128x1000_S1000x256_S128x256_1_0_0_1_n_n.rhsIdx (ix2 g f) ((ValueIdx.contrEquiv1 dot_S128x1000_S1000x256_S128x256_1_0_0_1_n_n 1000 rfl rfl).symm k) = ix2 k f := funext fun a => Fin.ext (by
    match a with
    | ⟨0, _⟩ => exact (dot_S128x1000_S1000x256_S128x256_1_0_0_1_n_n.rhsIdx_val_of_single rfl _ _).trans hk
    | ⟨1, _⟩ => exact rhsA_1 _ _)
  rw [el, er, pay3_apply]

theorem lhsB_0 (i : S128x128.Idx) (q : dot_S128x1000_S1000x128_S128x128_1_0_0_1_n_n.contr.Idx) :
    (dot_S128x1000_S1000x128_S128x128_1_0_0_1_n_n.lhsIdx i q 0).val = (i 0).val := by
  unfold DotDims.lhsIdx
  rw [dif_neg (show ¬(0 : Fin S128x1000.rank) ∈ dot_S128x1000_S1000x128_S128x128_1_0_0_1_n_n.lhsBatch by decide), dif_pos (show (0 : Fin S128x1000.rank) ∈ dot_S128x1000_S1000x128_S128x128_1_0_0_1_n_n.lhsNonContracting by decide)]
  rfl
theorem rhsB_1 (i : S128x128.Idx) (q : dot_S128x1000_S1000x128_S128x128_1_0_0_1_n_n.contr.Idx) :
    (dot_S128x1000_S1000x128_S128x128_1_0_0_1_n_n.rhsIdx i q 1).val = (i 1).val := by
  unfold DotDims.rhsIdx
  rw [dif_neg (show ¬(1 : Fin S1000x128.rank) ∈ dot_S128x1000_S1000x128_S128x128_1_0_0_1_n_n.rhsBatch by decide), dif_pos (show (1 : Fin S1000x128.rank) ∈ dot_S128x1000_S1000x128_S128x128_1_0_0_1_n_n.rhsNonContracting by decide)]
  rfl

/-- The one-hot matrix times a block of rows, at (g, f): the sum over the block's rows k of the entry at (g, k) times
    the row's entry at (k, f). -/
theorem hotmulB (x2 : S1000x1.Idx → BitVec 32) (v : FVec Ideal S1000x128 .f32) (g : Fin 128) (f : Fin 128) :
    matmul dot_S128x1000_S1000x128_S128x128_1_0_0_1_n_n (some ContractPrecision.fp32) (k2_pay3 (F := Ideal) x2) v (constant S128x128 FTy.f32 0x00000000#32) (ix2 g f)
      = ∑ k : Fin 1000, Cert.Spec.hot (x2 (ix2 k (0 : Fin 1))) g * v (ix2 k f) := by
  simp only [matmul]
  rw [Ideal.matmul_constant_zero_apply, ← Equiv.sum_comp (ValueIdx.contrEquiv1 dot_S128x1000_S1000x128_S128x128_1_0_0_1_n_n 1000 rfl rfl).symm]
  refine Finset.sum_congr rfl fun k _ => ?_
  have hk := ValueIdx.contrEquiv1_symm_val dot_S128x1000_S1000x128_S128x128_1_0_0_1_n_n 1000 rfl rfl k
  have el : dot_S128x1000_S1000x128_S128x128_1_0_0_1_n_n.lhsIdx (ix2 g f) ((ValueIdx.contrEquiv1 dot_S128x1000_S1000x128_S128x128_1_0_0_1_n_n 1000 rfl rfl).symm k) = ix2 g k := funext fun a => Fin.ext (by
    match a with
    | ⟨0, _⟩ => exact lhsB_0 _ _
    | ⟨1, _⟩ => exact (dot_S128x1000_S1000x128_S128x128_1_0_0_1_n_n.lhsIdx_val_of_single rfl _ _).trans hk)
  have er : dot_S128x1000_S1000x128_S128x128_1_0_0_1_n_n.rhsIdx (ix2 g f) ((ValueIdx.contrEquiv1 dot_S128x1000_S1000x128_S128x128_1_0_0_1_n_n 1000 rfl rfl).symm k) = ix2 k f := funext fun a => Fin.ext (by
    match a with
    | ⟨0, _⟩ => exact (dot_S128x1000_S1000x128_S128x128_1_0_0_1_n_n.rhsIdx_val_of_single rfl _ _).trans hk
    | ⟨1, _⟩ => exact rhsB_1 _ _)
  rw [el, er, pay3_apply]

/-! ## The stored values -/

/-- Columns 0..255 of the sums: what was there plus the one-hot matrix times the block's rows. -/
theorem pay4_apply (x2 : S1000x1.Idx → BitVec 32) (v11 : S128x256.Idx → EReal) (v13 : S1000x256.Idx → EReal) (g : Fin 128) (f : Fin 256) :
    k2_pay4 (F := Ideal) x2 v11 v13 (ix2 g f)
      = v11 (ix2 g f) + ∑ k : Fin 1000, Cert.Spec.hot (x2 (ix2 k (0 : Fin 1))) g * v13 (ix2 k f) := by
  unfold k2_pay4
  simp only [shapeCast_self]
  rw [addf_apply, hotmulA]

/-- Columns 256..383 of the sums: what was there plus the one-hot matrix times the block's feature rows. -/
theorem pay5_apply (x2 : S1000x1.Idx → BitVec 32) (v18 : S128x128.Idx → EReal) (v20 : S1000x128.Idx → EReal) (g : Fin 128) (f : Fin 128) :
    k2_pay5 (F := Ideal) x2 v18 v20 (ix2 g f)
      = v18 (ix2 g f) + ∑ k : Fin 1000, Cert.Spec.hot (x2 (ix2 k (0 : Fin 1))) g * v20 (ix2 k f) := by
  unfold k2_pay5
  simp only [shapeCast_self]
  rw [addf_apply, hotmulB]

/-- The lane sum of a 128×1000 array at row g is the sum over k of its entries at (g, k). -/
theorem rowsum (src : FVec Ideal S128x1000 .f32) (hφ : FKind.Formats .f32)
    (hacc : (0x00000000#32 : BitVec 32) = 0x00000000#32) (g : Fin 128) :
    multiReduction .add [1] S128 src 0x00000000#32 reduces_S128x1000_S128 hφ hacc (ix1 g) = ∑ k : Fin 1000, src (ix2 g k) := by
  refine (Ideal.multiReduction_add_single src 0x00000000#32 reduces_S128x1000_S128 hφ hacc (ix1 g)).trans ?_
  refine Finset.sum_congr rfl fun k _ => ?_
  have e : reduces_S128x1000_S128.lift (ix1 g) k = ix2 g k := funext fun a => Fin.ext (by
    match a with
    | ⟨0, _⟩ => rfl
    | ⟨1, _⟩ => rfl)
  exact congrArg src e

/-- The counts: what was there plus the one-hot matrix's row sum. -/
theorem pay6_apply (x2 : S1000x1.Idx → BitVec 32) (v24 : S128x1.Idx → EReal) (g : Fin 128) :
    k2_pay6 (F := Ideal) x2 v24 (ix2 g (0 : Fin 1))
      = v24 (ix2 g (0 : Fin 1)) + ∑ k : Fin 1000, Cert.Spec.hot (x2 (ix2 k (0 : Fin 1))) g := by
  unfold k2_pay6
  simp only [shapeCast_self]
  rw [addf_apply, shapeCast_apply _ shapeCasts_S128_S128x1 (ix2 g (0 : Fin 1)) (ix1 g)
      (by rewrite [Shape.rowMajor_val_one, Shape.rowMajor_val_two]; show g.val = g.val * 1 + 0; omega)]
  refine congrArg (v24 (ix2 g (0 : Fin 1)) + ·) ?_
  exact (rowsum _ _ _ g).trans (Finset.sum_congr rfl fun k _ => pay3_apply x2 g k)

/-- The first grid point's fill of the sums is zero. -/
theorem pay1_apply (i : S128x384.Idx) : k2_pay1 (F := Ideal) i = 0 := by
  unfold k2_pay1
  exact Ideal.ofBits_zero_f32

/-- The first grid point's fill of the counts is zero. -/
theorem pay2_apply (i : S128x1.Idx) : k2_pay2 (F := Ideal) i = 0 := by
  unfold k2_pay2
  exact Ideal.ofBits_zero_f32

end Cert.KernelIdeal.Hand

end
-- ==== Proof.KRegion2.lean ====
/-
  The pooling kernel: 50 grid points, each adding into the two resident outputs the one-hot matrix of its 1000 batch words
  times its 1000 rows (and the one-hot's row sums); point 0 first clears both outputs. After the last point the outputs
  are the pooled sums and counts over all 50000 rows.

  The sums block is stored in two column ranges, 0..255 (from the second-layer rows) and 256..383 (from the input rows);
  read back as one function of its index it is, at (g, f), what was there plus the sum over the point's 1000 rows of the
  one-hot entry times the row of the concatenation at column f. By induction over the points the two outputs hold, after
  point n, the sums and the counts over the first n + 1 blocks of rows; the last point's one write-back then leaves the
  whole sums and counts in the two result arrays.
-/
import proofs.«410204_j74380243632480_3_alg».proof.Proof.Gen.KernelIdeal.Frame
import proofs.«410204_j74380243632480_3_alg».proof.Proof.Spec
import proofs.«410204_j74380243632480_3_alg».proof.Proof.PoolLaw
import proofs.«410204_j74380243632480_3_alg».proof.Proof.K2Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

namespace R2

/-! ## What each control case leaves in the two outputs -/

section Pieces
variable {F : FTy → Type} [FloatOps F]

/-- The zero offsets, however they are spelt. -/
theorem hz : (![0, 0] : Fin 2 → Nat) = fun _ => 0 := funext fun a => by fin_cases a <;> rfl

/-- The two column ranges of the sums block: columns 0..255 and columns 256..383. -/
abbrev rL : Rect S128x384 := Rect.unit (s := S128x384) ![0, 0] S128x256.size inb_S128x384_S128x256_0_0
abbrev rR : Rect S128x384 := Rect.unit (s := S128x384) ![0, 256] S128x128.size inb_S128x384_S128x128_0_256

/-- An index left of column 256 is not in the right range, and one from column 256 on is not in the left. -/
theorem notmemR (y : S128x384.Idx) (h : (y 1).val < 256) : y ∉ rR.set := by
  rw [Rect.mem_set_unit]
  intro hm
  exact Nat.not_le.mpr h (hm 1).1

theorem notmemL (y : S128x384.Idx) (h : 256 ≤ (y 1).val) : y ∉ rL.set := by
  rw [Rect.mem_set_unit]
  intro hm
  exact Nat.not_lt.mpr h (hm 1).2

/-- An index of the block as the image of its coordinates within the range that holds it. -/
theorem embL_eq (y : S128x384.Idx) (h : (y 1).val < 256) : rL.emb (ix2 (y 0) ⟨(y 1).val, h⟩) = y :=
  funext fun a => Fin.ext (by
      match a with
      | ⟨0, _⟩ => show 0 + 1 * (y 0).val = (y 0).val; omega
      | ⟨1, _⟩ => show 0 + 1 * (y 1).val = (y 1).val; omega)

theorem embR_eq (y : S128x384.Idx) (h : 256 ≤ (y 1).val) (h' : (y 1).val - 256 < 128) : rR.emb (ix2 (y 0) ⟨(y 1).val - 256, h'⟩) = y :=
  funext fun a => Fin.ext (by
      match a with
      | ⟨0, _⟩ => show 0 + 1 * (y 0).val = (y 0).val; omega
      | ⟨1, _⟩ => show 256 + 1 * ((y 1).val - 256) = (y 1).val; omega)

/-- A store to columns 256..383 after a store to columns 0..255, over anything earlier, reads back column by column:
    below 256 the first store's value, from 256 on the second's at the column less 256. -/
theorem canon_LR {Val : EltTy → Type} [∀ e, Nonempty (Val e)] (wR : rR.shape.Idx → Val .f32) (wL : rL.shape.Idx → Val .f32)
    (L : List (View.Piece Val S128x384 .f32)) :
    View.canon ((⟨rR, wR⟩ : View.Piece Val S128x384 .f32) :: (⟨rL, wL⟩ : View.Piece Val S128x384 .f32) :: L)
      = fun y => if h : (y 1).val < 256 then wL (ix2 (y 0) ⟨(y 1).val, h⟩)
          else wR (ix2 (y 0) ⟨(y 1).val - 256, by have : (y 1).val < 384 := (y 1).isLt; omega⟩) := by
  funext y
  have h384 : (y 1).val < 384 := (y 1).isLt
  by_cases h : (y 1).val < 256
  · rw [dif_pos h]
    refine (View.canon_cons_of_not_mem (⟨rR, wR⟩ : View.Piece Val S128x384 .f32) ((⟨rL, wL⟩ : View.Piece Val S128x384 .f32) :: L) (notmemR y h)).trans ?_
    have := View.canon_cons_emb rL wL L (ix2 (y 0) ⟨(y 1).val, h⟩)
    rw [embL_eq y h] at this
    exact this
  · rw [dif_neg h]
    have := View.canon_cons_emb rR wR ((⟨rL, wL⟩ : View.Piece Val S128x384 .f32) :: L) (ix2 (y 0) ⟨(y 1).val - 256, by omega⟩)
    rw [embR_eq y (by omega)] at this
    exact this

/-- At an index of columns 256..383 a store to columns 0..255 is not seen. -/
theorem canon_L_at_R {Val : EltTy → Type} [∀ e, Nonempty (Val e)] (wL : rL.shape.Idx → Val .f32)
    (L : List (View.Piece Val S128x384 .f32)) (j : rR.shape.Idx) :
    View.canon ((⟨rL, wL⟩ : View.Piece Val S128x384 .f32) :: L) (rR.toLoadRect.idx j) = View.canon L (rR.toLoadRect.idx j) :=
  View.canon_cons_of_not_mem (⟨rL, wL⟩ : View.Piece Val S128x384 .f32) L
    (notmemL (rR.toLoadRect.idx j) (by show 256 ≤ 256 + 1 * (j 1).val; omega))

/-- After the zero fill, a load of columns 0..255 reads the fill. -/
theorem readCov_Z_L {Val : EltTy → Type} [∀ e, Nonempty (Val e)] {sig : RefSig} {κ : Kind} {sp : Space}
    (v : View sig κ sp S128x384 .f32) (z : S128x384.Idx → Val .f32) :
    v.readCov [(⟨Rect.unit (s := S128x384) ![0, 0] S128x384.size inb_S128x384_S128x384_0_0, z⟩ : View.Piece Val S128x384 .f32)] rL.toLoadRect
      = View.ld z rL := by
  rw [View.readCov_eq_canon', View.canon_unit_zero (S := S128x384) hz]

/-- After the zero fill and a store to columns 0..255, a load of columns 256..383 still reads the fill. -/
theorem readCov_LZ_R {Val : EltTy → Type} [∀ e, Nonempty (Val e)] {sig : RefSig} {κ : Kind} {sp : Space}
    (v : View sig κ sp S128x384 .f32) (wL : rL.shape.Idx → Val .f32) (z : S128x384.Idx → Val .f32) :
    v.readCov [(⟨rL, wL⟩ : View.Piece Val S128x384 .f32),
        (⟨Rect.unit (s := S128x384) ![0, 0] S128x384.size inb_S128x384_S128x384_0_0, z⟩ : View.Piece Val S128x384 .f32)] rR.toLoadRect
      = View.ld z rR := by
  rw [View.readCov_eq_canon']
  funext j
  rw [canon_L_at_R, View.canon_unit_zero (S := S128x384) hz]

/-- One point's update of the sums block, from the point's blocks and the block's contents before it: columns 0..255
    from the second-layer rows, columns 256..383 from the input rows. -/
def sumStep (x0 : Vec F S1000x256 .f32) (x1 : Vec F S1000x128 .f32) (x2 : Vec F S1000x1 .i32) (xo3 : Vec F S128x384 .f32) :
    Vec F S128x384 .f32 := fun y =>
  if h : (y 1).val < 256 then k2_pay4 x2 (View.ld xo3 rL) x0 (ix2 (y 0) ⟨(y 1).val, h⟩)
  else k2_pay5 x2 (View.ld xo3 rR) x1 (ix2 (y 0) ⟨(y 1).val - 256, by have : (y 1).val < 384 := (y 1).isLt; omega⟩)

/-- A later point: the sums block updated from what the point before left. -/
theorem outB3 (c : Dev nD) (i : grid2.Coords) (a1 : Memref sig .tc .vmem S1000x256 .f32) (h1 : a1.IsWhole)
    (a2 : Memref sig .tc .vmem S1000x128 .f32) (h2 : a2.IsWhole) (a3 : Memref sig .tc .vmem S1000x1 .i32) (h3 : a3.IsWhole)
    (a4 : Memref sig .tc .vmem S128x384 .f32) (h4 : a4.IsWhole) (a5 : Memref sig .tc .vmem S128x1 .f32) (h5 : a5.IsWhole)
    (hc : ¬cond2_0 i) (x0 : Vec F S1000x256 .f32) (x1 : Vec F S1000x128 .f32) (x2 : Vec F S1000x1 .i32)
    (xo3 : Vec F S128x384 .f32) (xo4 : Vec F S128x1 .f32) :
    out2_B_3 c i a1 h1 a2 h2 a3 h3 a4 h4 a5 h5 hc x0 x1 x2 xo3 xo4 = sumStep x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  sl_unfold_words
  simp only [View.readAt_eq_ld, h1.read_unread, h2.read_unread, h3.read_unread, h4.read_unread,
    View.ld_unit_zero (S := S1000x1) hz, View.ld_unit_zero (S := S1000x256) hz, View.ld_unit_zero (S := S1000x128) hz]
  exact canon_LR _ _ []

/-- A later point: the counts block updated from what the point before left. -/
theorem outB4 (c : Dev nD) (i : grid2.Coords) (a1 : Memref sig .tc .vmem S1000x256 .f32) (h1 : a1.IsWhole)
    (a2 : Memref sig .tc .vmem S1000x128 .f32) (h2 : a2.IsWhole) (a3 : Memref sig .tc .vmem S1000x1 .i32) (h3 : a3.IsWhole)
    (a4 : Memref sig .tc .vmem S128x384 .f32) (h4 : a4.IsWhole) (a5 : Memref sig .tc .vmem S128x1 .f32) (h5 : a5.IsWhole)
    (hc : ¬cond2_0 i) (x0 : Vec F S1000x256 .f32) (x1 : Vec F S1000x128 .f32) (x2 : Vec F S1000x1 .i32)
    (xo3 : Vec F S128x384 .f32) (xo4 : Vec F S128x1 .f32) :
    out2_B_4 c i a1 h1 a2 h2 a3 h3 a4 h4 a5 h5 hc x0 x1 x2 xo3 xo4 = k2_pay6 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  sl_unfold_words
  rw [View.canon_unit_zero hz]
  simp only [View.readAt_eq_ld, h3.read_unread, h5.read_unread, View.ld_unit_zero (S := S1000x1) hz, View.ld_unit_zero (S := S128x1) hz]

/-- The first point: the sums block updated from the zero block it has just stored. -/
theorem outA3 (c : Dev nD) (i : grid2.Coords) (a1 : Memref sig .tc .vmem S1000x256 .f32) (h1 : a1.IsWhole)
    (a2 : Memref sig .tc .vmem S1000x128 .f32) (h2 : a2.IsWhole) (a3 : Memref sig .tc .vmem S1000x1 .i32) (h3 : a3.IsWhole)
    (a4 : Memref sig .tc .vmem S128x384 .f32) (h4 : a4.IsWhole) (a5 : Memref sig .tc .vmem S128x1 .f32) (h5 : a5.IsWhole)
    (hc : cond2_0 i) (x0 : Vec F S1000x256 .f32) (x1 : Vec F S1000x128 .f32) (x2 : Vec F S1000x1 .i32) :
    out2_A_3 c i a1 h1 a2 h2 a3 h3 a4 h4 a5 h5 hc x0 x1 x2 = sumStep x0 x1 x2 k2_pay1 := by
  unfold out2_A_3
  rw [View.read_writes_eq_canon _ _ _ (cover2_A_3 c i a1 h1 a2 h2 a3 h3 a4 h4 a5 h5 hc x0 x1 x2)]
  unfold kernelRun2_A
  dsimp only
  sl_unfold_words
  rw [readCov_LZ_R, readCov_Z_L]
  simp only [View.readAt_eq_ld, h1.read_unread, h2.read_unread, h3.read_unread,
    View.ld_unit_zero (S := S1000x1) hz, View.ld_unit_zero (S := S1000x256) hz, View.ld_unit_zero (S := S1000x128) hz]
  exact canon_LR _ _ _

/-- The first point: the counts block updated from the zero block it has just stored. -/
theorem outA4 (c : Dev nD) (i : grid2.Coords) (a1 : Memref sig .tc .vmem S1000x256 .f32) (h1 : a1.IsWhole)
    (a2 : Memref sig .tc .vmem S1000x128 .f32) (h2 : a2.IsWhole) (a3 : Memref sig .tc .vmem S1000x1 .i32) (h3 : a3.IsWhole)
    (a4 : Memref sig .tc .vmem S128x384 .f32) (h4 : a4.IsWhole) (a5 : Memref sig .tc .vmem S128x1 .f32) (h5 : a5.IsWhole)
    (hc : cond2_0 i) (x0 : Vec F S1000x256 .f32) (x1 : Vec F S1000x128 .f32) (x2 : Vec F S1000x1 .i32) :
    out2_A_4 c i a1 h1 a2 h2 a3 h3 a4 h4 a5 h5 hc x0 x1 x2 = k2_pay6 x2 k2_pay2 := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S128x1) hz, View.readCov_unit_zero (S := S128x1) _ hz]
  simp only [View.readAt_eq_ld, h3.read_unread, View.ld_unit_zero (S := S1000x1) hz]

end Pieces

end R2

-- the TensorCore's buffer contents when the region is entered
variable (V : (c : Dev nD) → (b : Ref sig .tc) → Buf (Elt Ideal) ((c : Thread nD τ).loc b))

namespace R2

/-! ## The blocks a point sees are rows of the arrays -/

/-- The three arrays the region reads and each one's block at a point, at their literal types. -/
abbrev hArr (c : Dev nD) : Cert.Spec.Arr Cert.Spec.S50000x256 := V c main_v97
abbrev xArr (c : Dev nD) : Cert.Spec.Arr Cert.Spec.S50000x128 := V c main_arg0
abbrev bArr (c : Dev nD) : IVec Cert.Spec.S50000x1 32 := V c main_v98
abbrev hBlk (c : Dev nD) (t : Fin cfg2.N) : Vec Ideal S1000x256 .f32 := iblk2 V c 0 t
abbrev xBlk (c : Dev nD) (t : Fin cfg2.N) : Vec Ideal S1000x128 .f32 := iblk2 V c 1 t
abbrev bBlk (c : Dev nD) (t : Fin cfg2.N) : Vec Ideal S1000x1 .i32 := iblk2 V c 2 t

theorem N2 : cfg2.N = 50 := N_2

/-- A grid point as a block number. -/
def blkOf (t : Fin cfg2.N) : Fin 50 := ⟨t.val, Nat.lt_of_lt_of_eq t.isLt N2⟩

/-- The three input windows step one block of rows per point and stay at column block 0. -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ t : Fin cfg2.N, win2_2.index t 0 = t.val ∧ win2_2.index t 1 = 0 :=
  (by decide +kernel : ∀ t : Fin grid2.N, win2_2.index t 0 = t.val ∧ win2_2.index t 1 = 0)

/-- Row k of point t's block of the second-layer rows is row 1000 t + k of the array. -/
theorem hBlk_apply (c : Dev nD) (t : Fin cfg2.N) (k : Fin 1000) (f : Fin 256) :
    hBlk V c t (ix2 k f) = hArr V c (ix2 (Cert.Spec.blkRow (blkOf t) k) f) := by
  have hi := index2_0 t
  show iblk2 V c 0 t (ix2 k f) = V c main_v97 _
  unfold iblk2
  rw [View.read_apply]
  show V c main_v97 _ = V c main_v97 _
  congr 1
  funext a
  apply Fin.ext
  match a with
  | ⟨0, _⟩ => show win2_0.index t 0 * 1000 + 1 * k.val = 1000 * t.val + k.val; rw [hi.1]; omega
  | ⟨1, _⟩ => show win2_0.index t 1 * 256 + 1 * f.val = f.val; rw [hi.2]; omega

/-- Row k of point t's block of the input rows is row 1000 t + k of the array. -/
theorem xBlk_apply (c : Dev nD) (t : Fin cfg2.N) (k : Fin 1000) (f : Fin 128) :
    xBlk V c t (ix2 k f) = xArr V c (ix2 (Cert.Spec.blkRow (blkOf t) k) f) := by
  have hi := index2_1 t
  show iblk2 V c 1 t (ix2 k f) = V c main_arg0 _
  unfold iblk2
  rw [View.read_apply]
  show V c main_arg0 _ = V c main_arg0 _
  congr 1
  funext a
  apply Fin.ext
  match a with
  | ⟨0, _⟩ => show win2_1.index t 0 * 1000 + 1 * k.val = 1000 * t.val + k.val; rw [hi.1]; omega
  | ⟨1, _⟩ => show win2_1.index t 1 * 128 + 1 * f.val = f.val; rw [hi.2]; omega

/-- Word k of point t's block of the batch words is word 1000 t + k of the array. -/
theorem bBlk_apply (c : Dev nD) (t : Fin cfg2.N) (k : Fin 1000) :
    bBlk V c t (ix2 k (0 : Fin 1)) = bArr V c (ix2 (Cert.Spec.blkRow (blkOf t) k) (0 : Fin 1)) := by
  have hi := index2_2 t
  show iblk2 V c 2 t (ix2 k (0 : Fin 1)) = V c main_v98 _
  unfold iblk2
  rw [View.read_apply]
  show V c main_v98 _ = V c main_v98 _
  congr 1
  funext a
  apply Fin.ext
  match a with
  | ⟨0, _⟩ => show win2_2.index t 0 * 1000 + 1 * k.val = 1000 * t.val + k.val; rw [hi.1]; omega
  | ⟨1, _⟩ => show win2_2.index t 1 * 1 + 1 * 0 = 0; rw [hi.2]

/-! ## One point's update, over the extended reals -/

/-- The sums block after one point, at (g, f): what was there plus the one-hot-weighted sum of the point's 1000 rows of
    the concatenation [second-layer rows | input rows]. -/
theorem sumStep_apply (x0 : Vec Ideal S1000x256 .f32) (x1 : Vec Ideal S1000x128 .f32) (x2 : Vec Ideal S1000x1 .i32)
    (xo3 : Vec Ideal S128x384 .f32) (g : Fin 128) (f : Fin 384) :
    sumStep (F := Ideal) x0 x1 x2 xo3 (ix2 g f)
      = xo3 (ix2 g f) + ∑ k : Fin 1000, Cert.Spec.hot (x2 (ix2 k (0 : Fin 1))) g *
          (if hf : f.val < 256 then x0 (ix2 k ⟨f.val, hf⟩) else x1 (ix2 k ⟨f.val - 256, by have := f.isLt; omega⟩)) := by
  have h384 := f.isLt
  by_cases hf : f.val < 256
  · have e0 : sumStep (F := Ideal) x0 x1 x2 xo3 (ix2 g f) = k2_pay4 (F := Ideal) x2 (View.ld xo3 rL) x0 (ix2 g ⟨f.val, hf⟩) :=
      dif_pos hf
    rw [e0, pay4_apply x2 (View.ld xo3 rL) x0 g ⟨f.val, hf⟩]
    have e1 : View.ld xo3 rL (ix2 g ⟨f.val, hf⟩) = xo3 (ix2 g f) := congrArg xo3 (funext fun a => Fin.ext (by
      match a with
      | ⟨0, _⟩ => show 0 + 1 * g.val = g.val; omega
      | ⟨1, _⟩ => show 0 + 1 * f.val = f.val; omega))
    rw [e1]
    refine congrArg (xo3 (ix2 g f) + ·) (Finset.sum_congr rfl fun k _ => ?_)
    rw [dif_pos hf]
  · have e0 : sumStep (F := Ideal) x0 x1 x2 xo3 (ix2 g f) = k2_pay5 (F := Ideal) x2 (View.ld xo3 rR) x1 (ix2 g ⟨f.val - 256, by omega⟩) :=
      dif_neg hf
    rw [e0, pay5_apply x2 (View.ld xo3 rR) x1 g ⟨f.val - 256, by omega⟩]
    have e1 : View.ld xo3 rR (ix2 g ⟨f.val - 256, by omega⟩) = xo3 (ix2 g f) := congrArg xo3 (funext fun a => Fin.ext (by
      match a with
      | ⟨0, _⟩ => show 0 + 1 * g.val = g.val; omega
      | ⟨1, _⟩ => show 256 + 1 * (f.val - 256) = f.val; omega))
    rw [e1]
    refine congrArg (xo3 (ix2 g f) + ·) (Finset.sum_congr rfl fun k _ => ?_)
    rw [dif_neg hf]

/-- One point takes the sums over the first t blocks to the sums over the first t + 1. -/
theorem sum_law (c : Dev nD) (t : Fin cfg2.N) (P : Vec Ideal S128x384 .f32)
    (hP : ∀ (g : Fin 128) (f : Fin 384), P (ix2 g f) = Cert.Spec.partSum (bArr V c) (hArr V c) (xArr V c) t.val (ix2 g f))
    (g : Fin 128) (f : Fin 384) :
    sumStep (F := Ideal) (hBlk V c t) (xBlk V c t) (bBlk V c t) P (ix2 g f)
      = Cert.Spec.partSum (bArr V c) (hArr V c) (xArr V c) (t.val + 1) (ix2 g f) := by
  rw [sumStep_apply, hP g f]
  refine Eq.trans ?_ (Cert.Spec.partSum_succ (bArr V c) (hArr V c) (xArr V c) (blkOf t) (ix2 g f)).symm
  refine congrArg (Cert.Spec.partSum (bArr V c) (hArr V c) (xArr V c) t.val (ix2 g f) + ·) (Finset.sum_congr rfl fun k _ => ?_)
  rw [bBlk_apply V c t k]
  refine congrArg (Cert.Spec.hot (bArr V c (ix2 (Cert.Spec.blkRow (blkOf t) k) (0 : Fin 1))) g * ·) ?_
  unfold Cert.Spec.catRow
  by_cases hf : f.val < 256
  · rw [dif_pos hf, dif_pos (show ((ix2 g f : Cert.Spec.S128x384.Idx) 1).val < 256 from hf)]
    exact hBlk_apply V c t k ⟨f.val, hf⟩
  · rw [dif_neg hf, dif_neg (show ¬((ix2 g f : Cert.Spec.S128x384.Idx) 1).val < 256 from hf)]
    exact xBlk_apply V c t k ⟨f.val - 256, by have := f.isLt; omega⟩

/-- One point takes the counts over the first t blocks to the counts over the first t + 1. -/
theorem cnt_law (c : Dev nD) (t : Fin cfg2.N) (P : Vec Ideal S128x1 .f32)
    (hP : ∀ g : Fin 128, P (ix2 g (0 : Fin 1)) = Cert.Spec.partCnt (bArr V c) t.val (ix2 g (0 : Fin 1))) (g : Fin 128) :
    k2_pay6 (F := Ideal) (bBlk V c t) P (ix2 g (0 : Fin 1)) = Cert.Spec.partCnt (bArr V c) (t.val + 1) (ix2 g (0 : Fin 1)) := by
  rw [pay6_apply (bBlk V c t) P g, hP g]
  refine Eq.trans ?_ (Cert.Spec.partCnt_succ (bArr V c) (blkOf t) (ix2 g (0 : Fin 1))).symm
  refine congrArg (Cert.Spec.partCnt (bArr V c) t.val (ix2 g (0 : Fin 1)) + ·) (Finset.sum_congr rfl fun k _ => ?_)
  rw [bBlk_apply V c t k]

/-! ## The accumulation, point by point -/

/-- The first point leaves the update of the zero blocks; -/
theorem stepA_1 (c : Dev nD) (t : Fin cfg2.N) (h0 : t.val % 50 = 0) :
    (outsAt2 V c t.val t.isLt).1 = sumStep (hBlk V c t) (xBlk V c t) (bBlk V c t) (k2_pay1 (F := Ideal)) := by
  rw [outsAt2_A V c t h0]
  dsimp only
  exact outA3 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)

theorem stepA_2 (c : Dev nD) (t : Fin cfg2.N) (h0 : t.val % 50 = 0) :
    (outsAt2 V c t.val t.isLt).2 = k2_pay6 (bBlk V c t) (k2_pay2 (F := Ideal)) := by
  rw [outsAt2_A V c t h0]
  dsimp only
  exact outA4 (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)

/-- a later point the update of what the point before left. -/
theorem stepB_1 (c : Dev nD) (t : Fin cfg2.N) (h0 : ¬t.val % 50 = 0) :
    (outsAt2 V c t.val t.isLt).1 = sumStep (hBlk V c t) (xBlk V c t) (bBlk V c t)
      (outsAt2 V c (t.val - 1) (Nat.lt_of_le_of_lt (Nat.sub_le _ _) t.isLt)).1 := by
  rw [outsAt2_B V c t h0]
  dsimp only
  exact outB3 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t)
    (outsAt2 V c (t.val - 1) (Nat.lt_of_le_of_lt (Nat.sub_le _ _) t.isLt)).1 (outsAt2 V c (t.val - 1) (Nat.lt_of_le_of_lt (Nat.sub_le _ _) t.isLt)).2

theorem stepB_2 (c : Dev nD) (t : Fin cfg2.N) (h0 : ¬t.val % 50 = 0) :
    (outsAt2 V c t.val t.isLt).2 = k2_pay6 (bBlk V c t)
      (outsAt2 V c (t.val - 1) (Nat.lt_of_le_of_lt (Nat.sub_le _ _) t.isLt)).2 := by
  rw [outsAt2_B V c t h0]
  dsimp only
  exact outB4 (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t)
    (outsAt2 V c (t.val - 1) (Nat.lt_of_le_of_lt (Nat.sub_le _ _) t.isLt)).1 (outsAt2 V c (t.val - 1) (Nat.lt_of_le_of_lt (Nat.sub_le _ _) t.isLt)).2

/-- THE INVARIANT: after point n the two outputs hold the sums and the counts over the first n + 1 blocks. -/
theorem outs_inv (c : Dev nD) : ∀ (n : ℕ) (hn : n < cfg2.N),
    (∀ (g : Fin 128) (f : Fin 384), (outsAt2 V c n hn).1 (ix2 g f)
        = Cert.Spec.partSum (bArr V c) (hArr V c) (xArr V c) (n + 1) (ix2 g f))
    ∧ (∀ g : Fin 128, (outsAt2 V c n hn).2 (ix2 g (0 : Fin 1)) = Cert.Spec.partCnt (bArr V c) (n + 1) (ix2 g (0 : Fin 1)))
  | 0, hn => by
    refine ⟨fun g f => ?_, fun g => ?_⟩
    · rw [stepA_1 V c ⟨0, hn⟩ rfl]
      exact sum_law V c ⟨0, hn⟩ (k2_pay1 (F := Ideal))
        (fun g f => (pay1_apply (ix2 g f)).trans (Cert.Spec.partSum_zero (bArr V c) (hArr V c) (xArr V c) (ix2 g f)).symm) g f
    · rw [stepA_2 V c ⟨0, hn⟩ rfl]
      exact cnt_law V c ⟨0, hn⟩ (k2_pay2 (F := Ideal))
        (fun g => (pay2_apply (ix2 g (0 : Fin 1))).trans (Cert.Spec.partCnt_zero (bArr V c) (ix2 g (0 : Fin 1))).symm) g
  | n + 1, hn => by
    have hN : cfg2.N = 50 := N2
    have hB : ¬(⟨n + 1, hn⟩ : Fin cfg2.N).val % 50 = 0 := by dsimp only; omega
    obtain ⟨ihS, ihC⟩ := outs_inv c n (Nat.lt_of_succ_lt hn)
    refine ⟨fun g f => ?_, fun g => ?_⟩
    · rw [stepB_1 V c ⟨n + 1, hn⟩ hB]
      show sumStep (hBlk V c ⟨n + 1, hn⟩) (xBlk V c ⟨n + 1, hn⟩) (bBlk V c ⟨n + 1, hn⟩)
        (outsAt2 V c n (Nat.lt_of_succ_lt hn)).1 (ix2 g f) = _
      exact sum_law V c ⟨n + 1, hn⟩ (outsAt2 V c n (Nat.lt_of_succ_lt hn)).1 ihS g f
    · rw [stepB_2 V c ⟨n + 1, hn⟩ hB]
      show k2_pay6 (bBlk V c ⟨n + 1, hn⟩) (outsAt2 V c n (Nat.lt_of_succ_lt hn)).2 (ix2 g (0 : Fin 1)) = _
      exact cnt_law V c ⟨n + 1, hn⟩ (outsAt2 V c n (Nat.lt_of_succ_lt hn)).2 ihC g

/-! ## The write-back of the last point, and the arrays after the run -/

/-- The pooled sums and counts as contents of the two result arrays. -/
abbrev sumRes (c : Dev nD) : Buf (Elt Ideal) ((c : Thread nD τ).loc main_v99_0) :=
  Cert.Spec.poolSum (bArr V c) (hArr V c) (xArr V c)
abbrev cntRes (c : Dev nD) : Buf (Elt Ideal) ((c : Thread nD τ).loc main_v99_1) :=
  Cert.Spec.poolCnt (bArr V c)

/-- After the last point the sums block holds the pooled sums, -/
theorem last_sum (c : Dev nD) (t : Fin cfg2.N) (ht : t.val = 49) : (outsAt2 V c t.val t.isLt).1 = sumRes V c := by
  funext y
  obtain ⟨g, f, rfl⟩ : ∃ (g : Fin 128) (f : Fin 384), y = ix2 g f := ⟨y 0, y 1, eq_ix2 y⟩
  refine ((outs_inv V c t.val t.isLt).1 g f).trans ?_
  rw [ht]
  exact congrFun (Cert.Spec.partSum_full (bArr V c) (hArr V c) (xArr V c)) (ix2 g f)

/-- and the counts block the pooled counts. -/
theorem last_cnt (c : Dev nD) (t : Fin cfg2.N) (ht : t.val = 49) : (outsAt2 V c t.val t.isLt).2 = cntRes V c := by
  funext y
  obtain ⟨g, u, rfl⟩ : ∃ (g : Fin 128) (u : Fin 1), y = ix2 g u := ⟨y 0, y 1, eq_ix2 y⟩
  obtain rfl : u = 0 := Subsingleton.elim _ _
  refine ((outs_inv V c t.val t.isLt).2 g).trans ?_
  rw [ht]
  exact congrFun (Cert.Spec.partCnt_full (bArr V c)) (ix2 g (0 : Fin 1))

/-- The two output windows never move: their one block is the whole array. -/
theorem index2_3 : ∀ (t : Fin cfg2.N) (a : Fin 2), win2_3.index t a = 0 :=
  (by decide +kernel : ∀ (t : Fin grid2.N) (a : Fin 2), win2_3.index t a = 0)
theorem index2_4 : ∀ (t : Fin cfg2.N) (a : Fin 2), win2_4.index t a = 0 :=
  (by decide +kernel : ∀ (t : Fin grid2.N) (a : Fin 2), win2_4.index t a = 0)

/-- The one write-back of the sums, at the last point, writes the pooled sums. -/
theorem flushed_3 (c : Dev nD) (t : Fin cfg2.N) (hf : (cfg2.win 3).flush t = true) :
    (dat2 V c).flushed 3 t = ((cfg2.win 3).blk t).view.read (Elt Ideal) (sumRes V c) := by
  have hN : cfg2.N = 50 := N2
  have h49 : t.val = 49 := by have := (flush2_3 t).mp hf; have := t.isLt; omega
  show (cfg2.win 3).cut (grid2.coords t) ((dat2 V c).after 3 t) = _
  rw [after2_3, last_sum V c t h49]
  have hz' : (fun a => win2_3.index t a * main_v99_0.ty.shape.size a) = fun _ => 0 :=
    funext fun a => by rw [index2_3 t a, Nat.zero_mul]
  exact (Memref.read_access_unit_zero (Elt Ideal) main_v99_0 hz' (fun a => by rw [congrFun hz' a]; simp) (sumRes V c)).symm

/-- The one write-back of the counts, at the last point, writes the pooled counts. -/
theorem flushed_4 (c : Dev nD) (t : Fin cfg2.N) (hf : (cfg2.win 4).flush t = true) :
    (dat2 V c).flushed 4 t = ((cfg2.win 4).blk t).view.read (Elt Ideal) (cntRes V c) := by
  have hN : cfg2.N = 50 := N2
  have h49 : t.val = 49 := by have := (flush2_4 t).mp hf; have := t.isLt; omega
  show (cfg2.win 4).cut (grid2.coords t) ((dat2 V c).after 4 t) = _
  rw [after2_4, last_cnt V c t h49]
  have hz' : (fun a => win2_4.index t a * main_v99_1.ty.shape.size a) = fun _ => 0 :=
    funext fun a => by rw [index2_4 t a, Nat.zero_mul]
  exact (Memref.read_access_unit_zero (Elt Ideal) main_v99_1 hz' (fun a => by rw [congrFun hz' a]; simp) (cntRes V c)).symm

/-- The last point. -/
abbrev tLast : Fin cfg2.N := ⟨49, by rw [N2]; decide⟩

theorem size2_3 : win2_3.xsize (grid2.coords tLast) 0 = 128 ∧ win2_3.xsize (grid2.coords tLast) 1 = 384 := by decide +kernel
theorem size2_4 : win2_4.xsize (grid2.coords tLast) 0 = 128 ∧ win2_4.xsize (grid2.coords tLast) 1 = 1 := by decide +kernel

end R2

open R2

/-- Region 2's first output after the run: the pooled sums. -/
theorem region2_sum (c : Dev nD) :
    (dat2 (F := Ideal) V c).arrAt 3 cfg2.N = Cert.Spec.poolSum (V c main_v98) (V c main_v97) (V c main_arg0) :=
  (dat2 V c).arrAt_eq_of_cover 3 (sumRes V c) (flushed_3 V c) fun i =>
    ⟨tLast, (flush2_3 tLast).mpr rfl, by
      show i ∈ ((View.whole main_v99_0).slice (win2_3.rect tLast)).set
      rw [View.set_slice_whole, Rect.mem_set_unit]
      intro a
      have h0 : (i 0 : Nat) < 128 := (i 0).isLt
      have h1 : (i 1 : Nat) < 384 := (i 1).isLt
      match a with
      | ⟨0, _⟩ =>
        show win2_3.index tLast 0 * win2_3.size 0 ≤ (i 0 : Nat) ∧ (i 0 : Nat) < win2_3.index tLast 0 * win2_3.size 0 + win2_3.xsize (grid2.coords tLast) 0
        rw [index2_3 tLast 0, size2_3.1]; omega
      | ⟨1, _⟩ =>
        show win2_3.index tLast 1 * win2_3.size 1 ≤ (i 1 : Nat) ∧ (i 1 : Nat) < win2_3.index tLast 1 * win2_3.size 1 + win2_3.xsize (grid2.coords tLast) 1
        rw [index2_3 tLast 1, size2_3.2]; omega⟩

/-- Region 2's second output after the run: the pooled counts. -/
theorem region2_cnt (c : Dev nD) :
    (dat2 (F := Ideal) V c).arrAt 4 cfg2.N = Cert.Spec.poolCnt (V c main_v98) :=
  (dat2 V c).arrAt_eq_of_cover 4 (cntRes V c) (flushed_4 V c) fun i =>
    ⟨tLast, (flush2_4 tLast).mpr rfl, by
      show i ∈ ((View.whole main_v99_1).slice (win2_4.rect tLast)).set
      rw [View.set_slice_whole, Rect.mem_set_unit]
      intro a
      have h0 : (i 0 : Nat) < 128 := (i 0).isLt
      have h1 : (i 1 : Nat) < 1 := (i 1).isLt
      match a with
      | ⟨0, _⟩ =>
        show win2_4.index tLast 0 * win2_4.size 0 ≤ (i 0 : Nat) ∧ (i 0 : Nat) < win2_4.index tLast 0 * win2_4.size 0 + win2_4.xsize (grid2.coords tLast) 0
        rw [index2_4 tLast 0, size2_4.1]; omega
      | ⟨1, _⟩ =>
        show win2_4.index tLast 1 * win2_4.size 1 ≤ (i 1 : Nat) ∧ (i 1 : Nat) < win2_4.index tLast 1 * win2_4.size 1 + win2_4.xsize (grid2.coords tLast) 1
        rw [index2_4 tLast 1, size2_4.2]; omega⟩

end Cert.KernelIdeal.Hand

end
-- ==== Proof.KDense.lean ====
/-
  The two dense kernels (one grid point each, whole arrays as blocks): the output array is the layer's function of the
  arrays the region found.

  Each kernel loads its three operands whole, multiplies the first two on the matrix unit into a zero accumulator, adds
  the bias row to every row of the product (region 3 then takes the maximum with zero) and stores the result whole.
  Read at row p and column q the product is the sum over the contraction index k of x[p,k]·w[k,q]: the contraction
  index of the dimension numbers is its one coordinate, and the operand indices at (p,q) and k are (p,k) and (k,q).
  The grid has one point and every window's block index there is (0,0), so each input block is its whole array, the
  block written back is the whole output array, and that one block covers it.
-/
import proofs.«410204_j74380243632480_3_alg».proof.Proof.Gen.KernelIdeal.Frame
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

/-! The lemmas behind the two statements: the payloads read at an index, the blocks of the one point, what it writes back. -/
namespace Dense

/-- The zero offsets of a rank-2 access, as the constant function. -/
theorem hz2 : (![0, 0] : Fin 2 → Nat) = fun _ => 0 := funext fun a => by fin_cases a <;> rfl

/-! # Region 3: max(x·w + b, 0) on [128,384] × [384,512] -/

/-! ## The product's operand indices, axis by axis -/

/-- The left operand's row is the output's row. -/
theorem lhs3_0 (i : S128x512.Idx) (q : dot_S128x384_S384x512_S128x512_1_0_0_1_n_n.contr.Idx) :
    (dot_S128x384_S384x512_S128x512_1_0_0_1_n_n.lhsIdx i q 0).val = (i 0).val := by
  unfold DotDims.lhsIdx
  rw [dif_neg (show ¬(0 : Fin S128x384.rank) ∈ dot_S128x384_S384x512_S128x512_1_0_0_1_n_n.lhsBatch by decide), dif_pos (show (0 : Fin S128x384.rank) ∈ dot_S128x384_S384x512_S128x512_1_0_0_1_n_n.lhsNonContracting by decide)]
  rfl
/-- The left operand's column is the contraction coordinate. -/
theorem lhs3_1 (i : S128x512.Idx) (q : dot_S128x384_S384x512_S128x512_1_0_0_1_n_n.contr.Idx) :
    (dot_S128x384_S384x512_S128x512_1_0_0_1_n_n.lhsIdx i q 1).val = (q ⟨0, by decide⟩).val :=
  dot_S128x384_S384x512_S128x512_1_0_0_1_n_n.lhsIdx_val_of_single rfl i q
/-- The right operand's row is the contraction coordinate. -/
theorem rhs3_0 (i : S128x512.Idx) (q : dot_S128x384_S384x512_S128x512_1_0_0_1_n_n.contr.Idx) :
    (dot_S128x384_S384x512_S128x512_1_0_0_1_n_n.rhsIdx i q 0).val = (q ⟨0, by decide⟩).val :=
  dot_S128x384_S384x512_S128x512_1_0_0_1_n_n.rhsIdx_val_of_single rfl i q
/-- The right operand's column is the output's column. -/
theorem rhs3_1 (i : S128x512.Idx) (q : dot_S128x384_S384x512_S128x512_1_0_0_1_n_n.contr.Idx) :
    (dot_S128x384_S384x512_S128x512_1_0_0_1_n_n.rhsIdx i q 1).val = (i 1).val := by
  unfold DotDims.rhsIdx
  rw [dif_neg (show ¬(1 : Fin S384x512.rank) ∈ dot_S128x384_S384x512_S128x512_1_0_0_1_n_n.rhsBatch by decide), dif_pos (show (1 : Fin S384x512.rank) ∈ dot_S128x384_S384x512_S128x512_1_0_0_1_n_n.rhsNonContracting by decide)]
  rfl

/-! ## The payload -/

/-- The stored value at row p, column q: the product into the zero accumulator is the sum over k of x[p,k]·w[k,q]; the
    bias row broadcast to 128 rows reads b[0,q]; then the maximum with the zero word. -/
theorem pay3_apply (x : Vec Ideal S128x384 .f32) (w : Vec Ideal S384x512 .f32) (b : Vec Ideal S1x512 .f32) (p : Fin 128) (q : Fin 512) :
    k3_pay1 (F := Ideal) x w b (ix2 p q) = max ((∑ k : Fin 384, x (ix2 p k) * w (ix2 k q)) + b (ix2 (0 : Fin 1) q)) Cert.Spec.zero := by
  unfold k3_pay1
  simp only [shapeCast_self]
  rw [maximumf_apply, addf_apply, broadcast_apply]
  simp only [matmul]
  rw [Ideal.matmul_constant_zero_apply]
  rw [broadcastTo_apply b broadcasts_S1x512_S128x512 (ix2 p q) (ix2 (0 : Fin 1) q) (fun a => match a with | ⟨0, _⟩ => rfl | ⟨1, _⟩ => rfl)]
  rw [← Equiv.sum_comp (contrEquiv1 dot_S128x384_S384x512_S128x512_1_0_0_1_n_n 384 rfl rfl).symm]
  refine congrArg₂ max (congrArg (· + b (ix2 (0 : Fin 1) q)) (Finset.sum_congr rfl fun k _ => ?_)) rfl
  have hk := contrEquiv1_symm_val dot_S128x384_S384x512_S128x512_1_0_0_1_n_n 384 rfl rfl k
  have el : dot_S128x384_S384x512_S128x512_1_0_0_1_n_n.lhsIdx (ix2 p q) ((contrEquiv1 dot_S128x384_S384x512_S128x512_1_0_0_1_n_n 384 rfl rfl).symm k) = ix2 p k := funext fun a => Fin.ext (by
    match a with
    | ⟨0, _⟩ => exact lhs3_0 _ _
    | ⟨1, _⟩ => exact (lhs3_1 _ _).trans hk)
  have er : dot_S128x384_S384x512_S128x512_1_0_0_1_n_n.rhsIdx (ix2 p q) ((contrEquiv1 dot_S128x384_S384x512_S128x512_1_0_0_1_n_n 384 rfl rfl).symm k) = ix2 k q := funext fun a => Fin.ext (by
    match a with
    | ⟨0, _⟩ => exact (rhs3_0 _ _).trans hk
    | ⟨1, _⟩ => exact rhs3_1 _ _)
  rw [el, er]

/-- So the payload is the hidden dense layer of its three operands. -/
theorem pay3_eq (x : Vec Ideal S128x384 .f32) (w : Vec Ideal S384x512 .f32) (b : Vec Ideal S1x512 .f32) :
    k3_pay1 (F := Ideal) x w b = Cert.Spec.denseRelu x w b := funext fun j => by
  obtain ⟨p, q, rfl⟩ : ∃ (p : Fin 128) (q : Fin 512), j = ix2 p q := ⟨j 0, j 1, eq_ix2 j⟩
  exact pay3_apply x w b p q

/-! ## The one point's blocks are the whole arrays -/

/-- Every window of region 3 has block index zero on both axes, at every point of the grid. -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The block of x is x: a [128,384] block of a [128,384] array at offsets 0·128 and 0·384. -/
theorem iblk3_0_eq (c : Dev nD) (t : Fin cfg3.N) : iblk3 (F := Ideal) V c 0 t = V c main_v103 := by
  obtain ⟨e0, e1, -⟩ := idx3 t
  have hz : (fun a => win3_0.index t a * main_v103.ty.shape.size a) = fun _ => 0 := funext fun a => by
    match a with
    | ⟨0, _⟩ => show win3_0.index t (0 : Fin 2) * 128 = 0; omega
    | ⟨1, _⟩ => show win3_0.index t (1 : Fin 2) * 384 = 0; omega
  exact Memref.read_access_unit_zero (Elt Ideal) main_v103 hz (fun a => by rw [congrFun hz a]; simp) (V c main_v103)

/-- The block of w is w. -/
theorem iblk3_1_eq (c : Dev nD) (t : Fin cfg3.N) : iblk3 (F := Ideal) V c 1 t = V c main_arg7 := by
  obtain ⟨-, -, e0, e1, -⟩ := idx3 t
  have hz : (fun a => win3_1.index t a * main_arg7.ty.shape.size a) = fun _ => 0 := funext fun a => by
    match a with
    | ⟨0, _⟩ => show win3_1.index t (0 : Fin 2) * 384 = 0; omega
    | ⟨1, _⟩ => show win3_1.index t (1 : Fin 2) * 512 = 0; omega
  exact Memref.read_access_unit_zero (Elt Ideal) main_arg7 hz (fun a => by rw [congrFun hz a]; simp) (V c main_arg7)

/-- The block of the bias row is the bias row. -/
theorem iblk3_2_eq (c : Dev nD) (t : Fin cfg3.N) : iblk3 (F := Ideal) V c 2 t = V c main_v104 := by
  obtain ⟨-, -, -, -, e0, e1, -⟩ := idx3 t
  have hz : (fun a => win3_2.index t a * main_v104.ty.shape.size a) = fun _ => 0 := funext fun a => by
    match a with
    | ⟨0, _⟩ => show win3_2.index t (0 : Fin 2) * 1 = 0; omega
    | ⟨1, _⟩ => show win3_2.index t (1 : Fin 2) * 512 = 0; omega
  exact Memref.read_access_unit_zero (Elt Ideal) main_v104 hz (fun a => by rw [congrFun hz a]; simp) (V c main_v104)

/-- What a point writes back is its block of the layer's value: the body's one store fills the staging buffer with the
    payload of the three whole operands, and the block of the output array at offsets (0,0) reads the whole array. -/
theorem flushed3_eq (c : Dev nD) (t : Fin cfg3.N) :
    (dat3 (F := Ideal) V c).flushed 3 t
      = ((cfg3.win 3).blk t).view.read (Elt Ideal) (Cert.Spec.denseRelu (V c main_v103) (V c main_arg7) (V c main_v104)) := by
  show (cfg3.win 3).cut (grid3.coords t) ((dat3 V c).after 3 t) = _
  rw [after3_3]
  unfold out3_3
  rw [View.canon_unit_zero hz2]
  simp only [View.ld_unit_zero (S := S128x384) hz2, View.ld_unit_zero (S := S384x512) hz2, View.ld_unit_zero (S := S1x512) hz2]
  rw [iblk3_0_eq, iblk3_1_eq, iblk3_2_eq, pay3_eq]
  obtain ⟨-, -, -, -, -, -, e0, e1⟩ := idx3 t
  have hz : (fun a => win3_3.index t a * main_v105.ty.shape.size a) = fun _ => 0 := funext fun a => by
    match a with
    | ⟨0, _⟩ => show win3_3.index t (0 : Fin 2) * 128 = 0; omega
    | ⟨1, _⟩ => show win3_3.index t (1 : Fin 2) * 512 = 0; omega
  exact (Memref.read_access_unit_zero (Elt Ideal) main_v105 hz (fun a => by rw [congrFun hz a]; simp) _).symm

/-- An index of the output array lies in point `t`'s block iff each coordinate is in the block's range on its axis. -/
theorem mem_blk3 (t : Fin cfg3.N) (i : S128x512.Idx) :
    i ∈ ((cfg3.win 3).blk t).view.set ↔ ∀ a : Fin 2, win3_3.index t a * S128x512.size a ≤ (i a).val ∧ (i a).val < win3_3.index t a * S128x512.size a + S128x512.size a := by
  show i ∈ ((View.whole main_v105).slice (win3_3.rect t)).set ↔ _
  rw [View.set_slice_whole, Rect.mem_set_unit]
  exact Iff.rfl

/-! # Region 4: x·w + b on [128,512] × [512,128] -/

/-! ## The product's operand indices, axis by axis -/

/-- The left operand's row is the output's row. -/
theorem lhs4_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
/-- The left operand's column is the contraction coordinate. -/
theorem lhs4_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q
/-- The right operand's row is the contraction coordinate. -/
theorem rhs4_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q
/-- The right operand's column is the output's column. -/
theorem rhs4_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-! ## The payload -/

/-- The stored value at row p, column q: the sum over k of x[p,k]·w[k,q], plus the bias row's b[0,q]. -/
theorem pay4_apply (x : Vec Ideal S128x512 .f32) (w : Vec Ideal S512x128 .f32) (b : Vec Ideal S1x128 .f32) (p : Fin 128) (q : Fin 128) :
    k4_pay1 (F := Ideal) x w b (ix2 p q) = (∑ k : Fin 512, x (ix2 p k) * w (ix2 k q)) + b (ix2 (0 : Fin 1) q) := by
  unfold k4_pay1
  simp only [shapeCast_self]
  rw [addf_apply]
  simp only [matmul]
  rw [Ideal.matmul_constant_zero_apply]
  rw [broadcastTo_apply b broadcasts_S1x128_S128x128 (ix2 p q) (ix2 (0 : Fin 1) q) (fun a => match a with | ⟨0, _⟩ => rfl | ⟨1, _⟩ => rfl)]
  rw [← Equiv.sum_comp (contrEquiv1 dot_S128x512_S512x128_S128x128_1_0_0_1_n_n 512 rfl rfl).symm]
  refine congrArg (· + b (ix2 (0 : Fin 1) q)) (Finset.sum_congr rfl fun k _ => ?_)
  have hk := contrEquiv1_symm_val dot_S128x512_S512x128_S128x128_1_0_0_1_n_n 512 rfl rfl k
  have el : dot_S128x512_S512x128_S128x128_1_0_0_1_n_n.lhsIdx (ix2 p q) ((contrEquiv1 dot_S128x512_S512x128_S128x128_1_0_0_1_n_n 512 rfl rfl).symm k) = ix2 p k := funext fun a => Fin.ext (by
    match a with
    | ⟨0, _⟩ => exact lhs4_0 _ _
    | ⟨1, _⟩ => exact (lhs4_1 _ _).trans hk)
  have er : dot_S128x512_S512x128_S128x128_1_0_0_1_n_n.rhsIdx (ix2 p q) ((contrEquiv1 dot_S128x512_S512x128_S128x128_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-- So the payload is the output dense layer of its three operands. -/
theorem pay4_eq (x : Vec Ideal S128x512 .f32) (w : Vec Ideal S512x128 .f32) (b : Vec Ideal S1x128 .f32) :
    k4_pay1 (F := Ideal) x w b = Cert.Spec.dense x w b := funext fun j => by
  obtain ⟨p, q, rfl⟩ : ∃ (p : Fin 128) (q : Fin 128), j = ix2 p q := ⟨j 0, j 1, eq_ix2 j⟩
  exact pay4_apply x w b p q

/-! ## The one point's blocks are the whole arrays -/

/-- Every window of region 4 has block index zero on both axes, at every point of the grid. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The block of x is x: a [128,512] block of a [128,512] array at offsets 0·128 and 0·512. -/
theorem iblk4_0_eq (c : Dev nD) (t : Fin cfg4.N) : iblk4 (F := Ideal) V c 0 t = V c main_v105 := by
  obtain ⟨e0, e1, -⟩ := idx4 t
  have hz : (fun a => win4_0.index t a * main_v105.ty.shape.size a) = fun _ => 0 := funext fun a => by
    match a with
    | ⟨0, _⟩ => show win4_0.index t (0 : Fin 2) * 128 = 0; omega
    | ⟨1, _⟩ => show win4_0.index t (1 : Fin 2) * 512 = 0; omega
  exact Memref.read_access_unit_zero (Elt Ideal) main_v105 hz (fun a => by rw [congrFun hz a]; simp) (V c main_v105)

/-- The block of w is w. -/
theorem iblk4_1_eq (c : Dev nD) (t : Fin cfg4.N) : iblk4 (F := Ideal) V c 1 t = V c main_arg9 := by
  obtain ⟨-, -, e0, e1, -⟩ := idx4 t
  have hz : (fun a => win4_1.index t a * main_arg9.ty.shape.size a) = fun _ => 0 := funext fun a => by
    match a with
    | ⟨0, _⟩ => show win4_1.index t (0 : Fin 2) * 512 = 0; omega
    | ⟨1, _⟩ => show win4_1.index t (1 : Fin 2) * 128 = 0; omega
  exact Memref.read_access_unit_zero (Elt Ideal) main_arg9 hz (fun a => by rw [congrFun hz a]; simp) (V c main_arg9)

/-- The block of the bias row is the bias row. -/
theorem iblk4_2_eq (c : Dev nD) (t : Fin cfg4.N) : iblk4 (F := Ideal) V c 2 t = V c main_v106 := by
  obtain ⟨-, -, -, -, e0, e1, -⟩ := idx4 t
  have hz : (fun a => win4_2.index t a * main_v106.ty.shape.size a) = fun _ => 0 := funext fun a => by
    match a with
    | ⟨0, _⟩ => show win4_2.index t (0 : Fin 2) * 1 = 0; omega
    | ⟨1, _⟩ => show win4_2.index t (1 : Fin 2) * 128 = 0; omega
  exact Memref.read_access_unit_zero (Elt Ideal) main_v106 hz (fun a => by rw [congrFun hz a]; simp) (V c main_v106)

/-- What a point writes back is its block of the layer's value. -/
theorem flushed4_eq (c : Dev nD) (t : Fin cfg4.N) :
    (dat4 (F := Ideal) V c).flushed 3 t
      = ((cfg4.win 3).blk t).view.read (Elt Ideal) (Cert.Spec.dense (V c main_v105) (V c main_arg9) (V c main_v106)) := by
  show (cfg4.win 3).cut (grid4.coords t) ((dat4 V c).after 3 t) = _
  rw [after4_3]
  unfold out4_3
  rw [View.canon_unit_zero hz2]
  simp only [View.ld_unit_zero (S := S128x512) hz2, View.ld_unit_zero (S := S512x128) hz2, View.ld_unit_zero (S := S1x128) hz2]
  rw [iblk4_0_eq, iblk4_1_eq, iblk4_2_eq, pay4_eq]
  obtain ⟨-, -, -, -, -, -, e0, e1⟩ := idx4 t
  have hz : (fun a => win4_3.index t a * main_v107.ty.shape.size a) = fun _ => 0 := funext fun a => by
    match a with
    | ⟨0, _⟩ => show win4_3.index t (0 : Fin 2) * 128 = 0; omega
    | ⟨1, _⟩ => show win4_3.index t (1 : Fin 2) * 128 = 0; omega
  exact (Memref.read_access_unit_zero (Elt Ideal) main_v107 hz (fun a => by rw [congrFun hz a]; simp) _).symm

/-- An index of the output array lies in point `t`'s block iff each coordinate is in the block's range on its axis. -/
theorem mem_blk4 (t : Fin cfg4.N) (i : S128x128.Idx) :
    i ∈ ((cfg4.win 3).blk t).view.set ↔ ∀ a : Fin 2, win4_3.index t a * S128x128.size a ≤ (i a).val ∧ (i a).val < win4_3.index t a * S128x128.size a + S128x128.size a := by
  show i ∈ ((View.whole main_v107).slice (win4_3.rect t)).set ↔ _
  rw [View.set_slice_whole, Rect.mem_set_unit]
  exact Iff.rfl

end Dense

/-! # The two output arrays after the run -/

/-- Region 3's output array after the run: the hidden dense layer with its rectifier. -/
theorem region3_value (c : Dev nD) :
    (dat3 (F := Ideal) V c).arrAt 3 cfg3.N = Cert.Spec.denseRelu (V c main_v103) (V c main_arg7) (V c main_v104) := by
  refine (dat3 (F := Ideal) V c).arrAt_eq_of_cover 3 _ (fun t _ => Dense.flushed3_eq V c t) fun i => ?_
  -- the grid's one point writes back, and its block [0,128) × [0,512) holds every index
  have hN : 0 < cfg3.N := by rw [show cfg3.N = 1 from N_3]; decide
  refine ⟨⟨0, hN⟩, flush3_3 _, ?_⟩
  obtain ⟨-, -, -, -, -, -, e0, e1⟩ := Dense.idx3 ⟨0, hN⟩
  rw [Dense.mem_blk3]
  intro a
  match a with
  | ⟨0, _⟩ =>
    show win3_3.index ⟨0, hN⟩ (0 : Fin 2) * 128 ≤ (i 0).val ∧ (i 0).val < win3_3.index ⟨0, hN⟩ (0 : Fin 2) * 128 + 128
    have h : (i 0).val < 128 := (i 0).isLt
    omega
  | ⟨1, _⟩ =>
    show win3_3.index ⟨0, hN⟩ (1 : Fin 2) * 512 ≤ (i 1).val ∧ (i 1).val < win3_3.index ⟨0, hN⟩ (1 : Fin 2) * 512 + 512
    have h : (i 1).val < 512 := (i 1).isLt
    omega

/-- Region 4's output array after the run: the output dense layer. -/
theorem region4_value (c : Dev nD) :
    (dat4 (F := Ideal) V c).arrAt 3 cfg4.N = Cert.Spec.dense (V c main_v105) (V c main_arg9) (V c main_v106) := by
  refine (dat4 (F := Ideal) V c).arrAt_eq_of_cover 3 _ (fun t _ => Dense.flushed4_eq V c t) fun i => ?_
  -- the grid's one point writes back, and its block [0,128) × [0,128) holds every index
  have hN : 0 < cfg4.N := by rw [show cfg4.N = 1 from N_4]; decide
  refine ⟨⟨0, hN⟩, flush4_3 _, ?_⟩
  obtain ⟨-, -, -, -, -, -, e0, e1⟩ := Dense.idx4 ⟨0, hN⟩
  rw [Dense.mem_blk4]
  intro a
  match a with
  | ⟨0, _⟩ =>
    show win4_3.index ⟨0, hN⟩ (0 : Fin 2) * 128 ≤ (i 0).val ∧ (i 0).val < win4_3.index ⟨0, hN⟩ (0 : Fin 2) * 128 + 128
    have h : (i 0).val < 128 := (i 0).isLt
    omega
  | ⟨1, _⟩ =>
    show win4_3.index ⟨0, hN⟩ (1 : Fin 2) * 128 ≤ (i 1).val ∧ (i 1).val < win4_3.index ⟨0, hN⟩ (1 : Fin 2) * 128 + 128
    have h : (i 1).val < 128 := (i 1).isLt
    omega

end Cert.KernelIdeal.Hand

end
-- ==== Proof.KValue.lean ====
/-
  The kernel program's result as the network function of its arguments.

  Region by region from the last to the first: a region's output array at its exit is the region's function of the
  arrays it found at its entry (the region's value lemma), and those are the launched arguments, the host operations'
  functions of them, or the previous region's output (the boundary lemmas). Chained, the result array is the network,
  its propagation the host's own.
-/
import proofs.«410204_j74380243632480_3_alg».proof.Proof.KHostB
import proofs.«410204_j74380243632480_3_alg».proof.Proof.KRegion0
import proofs.«410204_j74380243632480_3_alg».proof.Proof.KRegion1
import proofs.«410204_j74380243632480_3_alg».proof.Proof.KRegion2
import proofs.«410204_j74380243632480_3_alg».proof.Proof.KDense

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen
open Cert.ReferenceIdeal.Hand (edgeProp)

variable (m : (ℓ : Loc nD τ sig) → Buf (Elt Ideal) ℓ) (ρ : Dev nD → PrngReg)

/-- The first layer's output, at region 0's exit. -/
theorem layer1_value (c : Dev nD) :
    (W4 m ρ c (Proc.devRef .tc main_v63))
      = Cert.Spec.conv128 (m ((c : Thread nD τ).loc main_arg0)) (edgeProp (F := Ideal) (m ((c : Thread nD τ).loc main_arg1)) (m ((c : Thread nD τ).loc main_arg0))) (edgeProp (F := Ideal) (m ((c : Thread nD τ).loc main_arg1)) (edgeProp (F := Ideal) (m ((c : Thread nD τ).loc main_arg1)) (m ((c : Thread nD τ).loc main_arg0))))
          (Cert.Spec.wslice128 (m ((c : Thread nD τ).loc main_arg3)) 0) (Cert.Spec.wslice128 (m ((c : Thread nD τ).loc main_arg3)) 1) (Cert.Spec.wslice128 (m ((c : Thread nD τ).loc main_arg3)) 2) (Cert.Spec.row128 (m ((c : Thread nD τ).loc main_arg4))) :=
  (W4_arr m ρ c 7).trans ((region0_value (V3 m ρ) c).trans (by
    show Cert.Spec.conv128 (W3 m ρ c (Proc.devRef .tc main_arg0)) (W3 m ρ c (Proc.devRef .tc main_v42)) (W3 m ρ c (Proc.devRef .tc main_v55)) (W3 m ρ c (Proc.devRef .tc main_v58)) (W3 m ρ c (Proc.devRef .tc main_v60)) (W3 m ρ c (Proc.devRef .tc main_v62)) (W3 m ρ c (Proc.devRef .tc main_v56)) = _
    rw [W3_arg0, W3_v42, W3_v55, W3_w0, W3_w1, W3_w2, W3_b]))

/-- The second layer's output, at region 1's exit, from the first layer's. -/
theorem layer2_value (c : Dev nD) :
    (W6 m ρ c (Proc.devRef .tc main_v97))
      = Cert.Spec.conv256 (W4 m ρ c (Proc.devRef .tc main_v63)) (edgeProp (F := Ideal) (m ((c : Thread nD τ).loc main_arg1)) (W4 m ρ c (Proc.devRef .tc main_v63))) (edgeProp (F := Ideal) (m ((c : Thread nD τ).loc main_arg1)) (edgeProp (F := Ideal) (m ((c : Thread nD τ).loc main_arg1)) (W4 m ρ c (Proc.devRef .tc main_v63))))
          (Cert.Spec.wslice256 (m ((c : Thread nD τ).loc main_arg5)) 0) (Cert.Spec.wslice256 (m ((c : Thread nD τ).loc main_arg5)) 1) (Cert.Spec.wslice256 (m ((c : Thread nD τ).loc main_arg5)) 2) (Cert.Spec.row256 (m ((c : Thread nD τ).loc main_arg6))) :=
  (W6_arr m ρ c 7).trans ((region1_value (V5 m ρ) c).trans (by
    show Cert.Spec.conv256 (W5 m ρ c (Proc.devRef .tc main_v63)) (W5 m ρ c (Proc.devRef .tc main_v76)) (W5 m ρ c (Proc.devRef .tc main_v89)) (W5 m ρ c (Proc.devRef .tc main_v92)) (W5 m ρ c (Proc.devRef .tc main_v94)) (W5 m ρ c (Proc.devRef .tc main_v96)) (W5 m ρ c (Proc.devRef .tc main_v90)) = _
    rw [W5_v63, W5_v76, W5_v89, W5_w0, W5_w1, W5_w2, W5_b]))

/-- The pooled sums, at region 2's exit, from the second layer's output. -/
theorem pool_sum_value (c : Dev nD) :
    (W8 m ρ c (Proc.devRef .tc main_v99_0)) = Cert.Spec.poolSum (Cert.Spec.col50000 (m ((c : Thread nD τ).loc main_arg2))) (W6 m ρ c (Proc.devRef .tc main_v97)) (m ((c : Thread nD τ).loc main_arg0)) :=
  (W8_arr m ρ c 3).trans ((region2_sum (V7 m ρ) c).trans (by
    show Cert.Spec.poolSum (W7 m ρ c (Proc.devRef .tc main_v98)) (W7 m ρ c (Proc.devRef .tc main_v97)) (W7 m ρ c (Proc.devRef .tc main_arg0)) = _
    rw [W7_bt, W7_v97, W7_arg0]))

/-- The pooled counts, at region 2's exit. -/
theorem pool_cnt_value (c : Dev nD) :
    (W8 m ρ c (Proc.devRef .tc main_v99_1)) = Cert.Spec.poolCnt (Cert.Spec.col50000 (m ((c : Thread nD τ).loc main_arg2))) :=
  (W8_arr m ρ c 4).trans ((region2_cnt (V7 m ρ) c).trans (by
    show Cert.Spec.poolCnt (W7 m ρ c (Proc.devRef .tc main_v98)) = _
    rw [W7_bt]))

/-- The hidden layer, at region 3's exit, from the pooled sums and counts. -/
theorem hidden_value (c : Dev nD) :
    (W10 m ρ c (Proc.devRef .tc main_v105))
      = Cert.Spec.denseRelu (Cert.Spec.pooled (W8 m ρ c (Proc.devRef .tc main_v99_0)) (W8 m ρ c (Proc.devRef .tc main_v99_1))) (m ((c : Thread nD τ).loc main_arg7)) (Cert.Spec.row512 (m ((c : Thread nD τ).loc main_arg8))) :=
  (W10_arr m ρ c 3).trans ((region3_value (V9 m ρ) c).trans (by
    show Cert.Spec.denseRelu (W9 m ρ c (Proc.devRef .tc main_v103)) (W9 m ρ c (Proc.devRef .tc main_arg7)) (W9 m ρ c (Proc.devRef .tc main_v104)) = _
    rw [W9_mean, W9_arg7, W9_b]))

/-- The result, at region 4's exit, from the hidden layer. -/
theorem out_value (c : Dev nD) :
    (W12 m ρ c (Proc.devRef .tc main_v107)) = Cert.Spec.dense (W10 m ρ c (Proc.devRef .tc main_v105)) (m ((c : Thread nD τ).loc main_arg9)) (Cert.Spec.row128 (m ((c : Thread nD τ).loc main_arg10))) :=
  (W12_arr m ρ c 3).trans ((region4_value (V11 m ρ) c).trans (by
    show Cert.Spec.dense (W11 m ρ c (Proc.devRef .tc main_v105)) (W11 m ρ c (Proc.devRef .tc main_arg9)) (W11 m ρ c (Proc.devRef .tc main_v106)) = _
    rw [W11_v105, W11_arg9, W11_b]))

/-- The kernel program's result array is the network of its launched arguments. -/
theorem kernel_value (c : Dev nD) :
    (W12 m ρ c (Proc.devRef .tc main_v107))
      = Cert.Spec.net (edgeProp (F := Ideal) (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out_value, hidden_value, pool_sum_value, pool_cnt_value, layer2_value, layer1_value]
  rfl

end Cert.KernelIdeal.Hand

end
-- ==== Proof.RefConv.lean ====
/-
  The reference's two convolution layers read index by index: each is the layer's function of its input array, that
  array's two propagated forms, the three weight slices and the bias row.
-/
import proofs.«410204_j74380243632480_3_alg».proof.Proof.RefRead
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.Hand

open Cert.ReferenceIdeal Cert.ReferenceIdeal.ReadP

/-! ## The weight slices

  Slice k of the stack, reshaped to a matrix: the reshape reads row-major position r·C + c of the one-slice array,
  whose row is (r·C + c) / C mod 128 = r and whose column is (r·C + c) mod C = c, as c < C (C the column count). -/

theorem w31_eq (x3 : (⟨S3x128x128, .f32⟩ : BufTy).Contents (Elt Ideal)) :
    val_main_v31 (F := Ideal) x3 = Cert.Spec.wslice128 x3 0 := by
  funext i
  obtain ⟨k, q, rfl⟩ : ∃ (k : Fin 128) (q : Fin 128), i = ix2 k q := ⟨i 0, i 1, eq_ix2 i⟩
  have e : idx_main_v30 (idx_main_v31 (ix2 k q)) = ix3 (0 : Fin 3) k q := funext fun a => Fin.ext (by
    match a with
    | ⟨0, _⟩ => rfl
    | ⟨1, _⟩ => show (k.val * 128 + q.val) / 128 % 128 = k.val; omega
    | ⟨2, _⟩ => show (k.val * 128 + q.val) % 128 = q.val; omega)
  rw [val_main_v31_apply, val_main_v30_apply, e]
  rfl

theorem w47_eq (x3 : (⟨S3x128x128, .f32⟩ : BufTy).Contents (Elt Ideal)) :
    val_main_v47 (F := Ideal) x3 = Cert.Spec.wslice128 x3 1 := by
  funext i
  obtain ⟨k, q, rfl⟩ : ∃ (k : Fin 128) (q : Fin 128), i = ix2 k q := ⟨i 0, i 1, eq_ix2 i⟩
  have e : idx_main_v46 (idx_main_v47 (ix2 k q)) = ix3 (1 : Fin 3) k q := funext fun a => Fin.ext (by
    match a with
    | ⟨0, _⟩ => rfl
    | ⟨1, _⟩ => show (k.val * 128 + q.val) / 128 % 128 = k.val; omega
    | ⟨2, _⟩ => show (k.val * 128 + q.val) % 128 = q.val; omega)
  rw [val_main_v47_apply, val_main_v46_apply, e]
  rfl

theorem w67_eq (x3 : (⟨S3x128x128, .f32⟩ : BufTy).Contents (Elt Ideal)) :
    val_main_v67 (F := Ideal) x3 = Cert.Spec.wslice128 x3 2 := by
  funext i
  obtain ⟨k, q, rfl⟩ : ∃ (k : Fin 128) (q : Fin 128), i = ix2 k q := ⟨i 0, i 1, eq_ix2 i⟩
  have e : idx_main_v66 (idx_main_v67 (ix2 k q)) = ix3 (2 : Fin 3) k q := funext fun a => Fin.ext (by
    match a with
    | ⟨0, _⟩ => rfl
    | ⟨1, _⟩ => show (k.val * 128 + q.val) / 128 % 128 = k.val; omega
    | ⟨2, _⟩ => show (k.val * 128 + q.val) % 128 = q.val; omega)
  rw [val_main_v67_apply, val_main_v66_apply, e]
  rfl

theorem w75_eq (x5 : (⟨S3x128x256, .f32⟩ : BufTy).Contents (Elt Ideal)) :
    val_main_v75 (F := Ideal) x5 = Cert.Spec.wslice256 x5 0 := by
  funext i
  obtain ⟨k, q, rfl⟩ : ∃ (k : Fin 128) (q : Fin 256), i = ix2 k q := ⟨i 0, i 1, eq_ix2 i⟩
  have e : idx_main_v74 (idx_main_v75 (ix2 k q)) = ix3 (0 : Fin 3) k q := funext fun a => Fin.ext (by
    match a with
    | ⟨0, _⟩ => rfl
    | ⟨1, _⟩ => show (k.val * 256 + q.val) / 256 % 128 = k.val; omega
    | ⟨2, _⟩ => show (k.val * 256 + q.val) % 256 = q.val; omega)
  rw [val_main_v75_apply, val_main_v74_apply, e]
  rfl

theorem w91_eq (x5 : (⟨S3x128x256, .f32⟩ : BufTy).Contents (Elt Ideal)) :
    val_main_v91 (F := Ideal) x5 = Cert.Spec.wslice256 x5 1 := by
  funext i
  obtain ⟨k, q, rfl⟩ : ∃ (k : Fin 128) (q : Fin 256), i = ix2 k q := ⟨i 0, i 1, eq_ix2 i⟩
  have e : idx_main_v90 (idx_main_v91 (ix2 k q)) = ix3 (1 : Fin 3) k q := funext fun a => Fin.ext (by
    match a with
    | ⟨0, _⟩ => rfl
    | ⟨1, _⟩ => show (k.val * 256 + q.val) / 256 % 128 = k.val; omega
    | ⟨2, _⟩ => show (k.val * 256 + q.val) % 256 = q.val; omega)
  rw [val_main_v91_apply, val_main_v90_apply, e]
  rfl

theorem w111_eq (x5 : (⟨S3x128x256, .f32⟩ : BufTy).Contents (Elt Ideal)) :
    val_main_v111 (F := Ideal) x5 = Cert.Spec.wslice256 x5 2 := by
  funext i
  obtain ⟨k, q, rfl⟩ : ∃ (k : Fin 128) (q : Fin 256), i = ix2 k q := ⟨i 0, i 1, eq_ix2 i⟩
  have e : idx_main_v110 (idx_main_v111 (ix2 k q)) = ix3 (2 : Fin 3) k q := funext fun a => Fin.ext (by
    match a with
    | ⟨0, _⟩ => rfl
    | ⟨1, _⟩ => show (k.val * 256 + q.val) / 256 % 128 = k.val; omega
    | ⟨2, _⟩ => show (k.val * 256 + q.val) % 256 = q.val; omega)
  rw [val_main_v111_apply, val_main_v110_apply, e]
  rfl

/-! ## The layers

  At row p and column q each product reads its left operand at (p, k) and its weight slice at (k, q); the bias,
  broadcast twice, is read at q; the doubled second propagation is the word for 2.0 times it, less the input. -/

/-- The first layer's output (after its rectifier). -/
theorem conv1_eq (x0 : (⟨S50000x128, .f32⟩ : BufTy).Contents (Elt Ideal)) (x1 : (⟨S2x600000, .i32⟩ : BufTy).Contents (Elt Ideal)) (x3 : (⟨S3x128x128, .f32⟩ : BufTy).Contents (Elt Ideal)) (x4 : (⟨S128, .f32⟩ : BufTy).Contents (Elt Ideal)) :
    val_main_v73 (F := Ideal) x0 x1 x3 x4
      = Cert.Spec.conv128 x0 (val_main_v45 (F := Ideal) x0 x1) (val_main_v62 (F := Ideal) x0 x1)
          (Cert.Spec.wslice128 x3 0) (Cert.Spec.wslice128 x3 1) (Cert.Spec.wslice128 x3 2) (Cert.Spec.row128 x4) := by
  funext i
  obtain ⟨p, q, rfl⟩ : ∃ (p : Fin 50000) (q : Fin 128), i = ix2 p q := ⟨i 0, i 1, eq_ix2 i⟩
  have el0 : ∀ k : Fin 128, lidx_main_v32 (ix2 p q) k = ix2 p k := fun k => funext fun a => Fin.ext (by
    match a with | ⟨0, _⟩ => rfl | ⟨1, _⟩ => rfl)
  have er0 : ∀ k : Fin 128, ridx_main_v32 (ix2 p q) k = ix2 k q := fun k => funext fun a => Fin.ext (by
    match a with | ⟨0, _⟩ => rfl | ⟨1, _⟩ => rfl)
  have el1 : ∀ k : Fin 128, lidx_main_v48 (ix2 p q) k = ix2 p k := fun k => funext fun a => Fin.ext (by
    match a with | ⟨0, _⟩ => rfl | ⟨1, _⟩ => rfl)
  have er1 : ∀ k : Fin 128, ridx_main_v48 (ix2 p q) k = ix2 k q := fun k => funext fun a => Fin.ext (by
    match a with | ⟨0, _⟩ => rfl | ⟨1, _⟩ => rfl)
  have el2 : ∀ k : Fin 128, lidx_main_v68 (ix2 p q) k = ix2 p k := fun k => funext fun a => Fin.ext (by
    match a with | ⟨0, _⟩ => rfl | ⟨1, _⟩ => rfl)
  have er2 : ∀ k : Fin 128, ridx_main_v68 (ix2 p q) k = ix2 k q := fun k => funext fun a => Fin.ext (by
    match a with | ⟨0, _⟩ => rfl | ⟨1, _⟩ => rfl)
  have eb : idx_main_v70 (idx_main_v71 (ix2 p q)) = ix1 q := funext fun a => Fin.ext (by
    match a with | ⟨0, _⟩ => rfl)
  rw [val_main_v73_apply, val_main_v72_apply, val_main_v69_apply, val_main_v49_apply, val_main_v32_apply,
    val_main_v48_apply, val_main_v68_apply, val_main_v71_apply, val_main_v70_apply, val_main_call1_v0_apply,
    val_main_call1_cst_apply]
  simp only [val_main_v65_apply, val_main_v64_apply, val_main_v63_apply, val_main_cst_13_apply,
    w31_eq, w47_eq, w67_eq, el0, er0, el1, er1, el2, er2, eb,
    Ideal.addf_def, Ideal.subf_def, Ideal.mulf_def, Ideal.maximumf_def]
  rfl

/-- The second layer's output (after its rectifier). -/
theorem conv2_eq (x0 : (⟨S50000x128, .f32⟩ : BufTy).Contents (Elt Ideal)) (x1 : (⟨S2x600000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) :
    val_main_v117 (F := Ideal) x0 x1 x3 x4 x5 x6
      = Cert.Spec.conv256 (val_main_v73 (F := Ideal) x0 x1 x3 x4) (val_main_v89 (F := Ideal) x0 x1 x3 x4) (val_main_v106 (F := Ideal) x0 x1 x3 x4)
          (Cert.Spec.wslice256 x5 0) (Cert.Spec.wslice256 x5 1) (Cert.Spec.wslice256 x5 2) (Cert.Spec.row256 x6) := by
  funext i
  obtain ⟨p, q, rfl⟩ : ∃ (p : Fin 50000) (q : Fin 256), i = ix2 p q := ⟨i 0, i 1, eq_ix2 i⟩
  have el0 : ∀ k : Fin 128, lidx_main_v76 (ix2 p q) k = ix2 p k := fun k => funext fun a => Fin.ext (by
    match a with | ⟨0, _⟩ => rfl | ⟨1, _⟩ => rfl)
  have er0 : ∀ k : Fin 128, ridx_main_v76 (ix2 p q) k = ix2 k q := fun k => funext fun a => Fin.ext (by
    match a with | ⟨0, _⟩ => rfl | ⟨1, _⟩ => rfl)
  have el1 : ∀ k : Fin 128, lidx_main_v92 (ix2 p q) k = ix2 p k := fun k => funext fun a => Fin.ext (by
    match a with | ⟨0, _⟩ => rfl | ⟨1, _⟩ => rfl)
  have er1 : ∀ k : Fin 128, ridx_main_v92 (ix2 p q) k = ix2 k q := fun k => funext fun a => Fin.ext (by
    match a with | ⟨0, _⟩ => rfl | ⟨1, _⟩ => rfl)
  have el2 : ∀ k : Fin 128, lidx_main_v112 (ix2 p q) k = ix2 p k := fun k => funext fun a => Fin.ext (by
    match a with | ⟨0, _⟩ => rfl | ⟨1, _⟩ => rfl)
  have er2 : ∀ k : Fin 128, ridx_main_v112 (ix2 p q) k = ix2 k q := fun k => funext fun a => Fin.ext (by
    match a with | ⟨0, _⟩ => rfl | ⟨1, _⟩ => rfl)
  have eb : idx_main_v114 (idx_main_v115 (ix2 p q)) = ix1 q := funext fun a => Fin.ext (by
    match a with | ⟨0, _⟩ => rfl)
  rw [val_main_v117_apply, val_main_v116_apply, val_main_v113_apply, val_main_v93_apply, val_main_v76_apply,
    val_main_v92_apply, val_main_v112_apply, val_main_v115_apply, val_main_v114_apply, val_main_call2_v0_apply,
    val_main_call2_cst_apply]
  simp only [val_main_v109_apply, val_main_v108_apply, val_main_v107_apply, val_main_cst_20_apply,
    w75_eq, w91_eq, w111_eq, el0, er0, el1, er1, el2, er2, eb,
    Ideal.addf_def, Ideal.subf_def, Ideal.mulf_def, Ideal.maximumf_def]
  rfl

end Cert.ReferenceIdeal.Hand

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.RefPool.lean ====
/-
  The reference's mean pooling read index by index: the accumulating scatter of the rows [h | x] by batch word is, at
  graph g and column f, the sum over the rows whose word is g; the scatter of ones is the count; the quotient.
-/
import proofs.«410204_j74380243632480_3_alg».proof.Proof.RefRead
import proofs.«410204_j74380243632480_3_alg».proof.Proof.Spec
import proofs.«410204_j74380243632480_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.Hand

open Cert.ReferenceIdeal Cert.ReferenceIdeal.ReadP

open Idealize.ShloMosaic.RowOps

/-- The batch words as a one-column matrix: the broadcast of the word vector along a new unit axis. -/
theorem v120_eq (x2 : (⟨S50000, .i32⟩ : BufTy).Contents (Elt Ideal)) :
    val_main_v120 (F := Ideal) x2 = Cert.Spec.col50000 x2 := by
  funext i
  rw [val_main_v120_apply]
  unfold Cert.Spec.col50000
  congr 1
  funext a
  match a with
  | ⟨0, _⟩ => rfl

theorem v124_eq (x2 : (⟨S50000, .i32⟩ : BufTy).Contents (Elt Ideal)) :
    val_main_v124 (F := Ideal) x2 = Cert.Spec.col50000 x2 := by
  funext i
  rw [val_main_v124_apply]
  unfold Cert.Spec.col50000
  congr 1
  funext a
  match a with
  | ⟨0, _⟩ => rfl

/-- Row n of the concatenation at a column below 256 is the first piece's element. -/
theorem v118_apply_left (x0 : (⟨S50000x128, .f32⟩ : BufTy).Contents (Elt Ideal)) (x1 : (⟨S2x600000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal))
    (n : Fin 50000) (f : Fin 384) (hf : f.val < 256) :
    val_main_v118 (F := Ideal) x0 x1 x3 x4 x5 x6 (ix2 n f)
      = val_main_v117 (F := Ideal) x0 x1 x3 x4 x5 x6 (ix2 n (⟨f.val, hf⟩ : Fin 256)) := by
  unfold val_main_v118
  exact concatenate_pair_apply_left (t := S50000x384) (s₁ := S50000x256) (s₂ := S50000x128) (1 : Fin S50000x384.rank)
    (val_main_v117 (F := Ideal) x0 x1 x3 x4 x5 x6) x0 Facts₀.concatenates_S50000x256_S50000x128_S50000x384_d1
    (ix2 n f) rfl (ix2 n (⟨f.val, hf⟩ : Fin 256))
    (fun b => match b with
      | ⟨0, _⟩ => rfl
      | ⟨1, _⟩ => rfl)

/-- Row n of the concatenation at a column from 256 on is the second piece's element, 256 columns back. -/
theorem v118_apply_right (x0 : (⟨S50000x128, .f32⟩ : BufTy).Contents (Elt Ideal)) (x1 : (⟨S2x600000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal))
    (n : Fin 50000) (f : Fin 384) (hf : ¬ f.val < 256) :
    val_main_v118 (F := Ideal) x0 x1 x3 x4 x5 x6 (ix2 n f)
      = x0 (ix2 n (⟨f.val - 256, by omega⟩ : Fin 128)) := by
  unfold val_main_v118
  exact concatenate_pair_apply_right (t := S50000x384) (s₁ := S50000x256) (s₂ := S50000x128) (1 : Fin S50000x384.rank)
    (val_main_v117 (F := Ideal) x0 x1 x3 x4 x5 x6) x0 Facts₀.concatenates_S50000x256_S50000x128_S50000x384_d1
    (ix2 n f) rfl rfl (ix2 n (⟨f.val - 256, by omega⟩ : Fin 128))
    (fun b => match b with
      | ⟨0, _⟩ => fun _ => rfl
      | ⟨1, _⟩ => fun h => absurd rfl h)
    (by show f.val - 256 + 256 = f.val; omega)

/-- Row n of the concatenation [h | x] at column f. -/
theorem v118_apply (x0 : (⟨S50000x128, .f32⟩ : BufTy).Contents (Elt Ideal)) (x1 : (⟨S2x600000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal))
    (n : Fin 50000) (f : Fin 384) :
    val_main_v118 (F := Ideal) x0 x1 x3 x4 x5 x6 (ix2 n f)
      = Cert.Spec.catRow (val_main_v117 (F := Ideal) x0 x1 x3 x4 x5 x6) x0 n f := by
  unfold Cert.Spec.catRow
  split
  · next hf => exact v118_apply_left x0 x1 x3 x4 x5 x6 n f hf
  · next hf => exact v118_apply_right x0 x1 x3 x4 x5 x6 n f hf

/-- The pooled sums: the scatter-add of the concatenated rows, at (graph, column). -/
theorem pool_sum_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) :
    val_main_v121 (F := Ideal) x0 x1 x2 x3 x4 x5 x6
      = Cert.Spec.poolSum (Cert.Spec.col50000 x2) (val_main_v117 (F := Ideal) x0 x1 x3 x4 x5 x6) x0 := by
  funext i
  obtain ⟨g, f, rfl⟩ : ∃ (g : Fin 128) (f : Fin 384), i = ix2 g f := ⟨i 0, i 1, eq_ix2 i⟩
  unfold val_main_v121 Host.scatterAdd
  rw [Ideal.hostScatterAdd_def]
  have hd : scatter_S128x384_S50000x1_S50000x384_1_0_0_1
      = rowScatter 128 50000 384 Facts₀.scatter_S128x384_S50000x1_S50000x384_1_0_0_1_wf := rfl
  rw [hd, rowScatterAdd_apply, val_main_v119_apply, val_main_cst_21_apply, v120_eq]
  show Ideal.ofBits .f32 0x00000000#32 + _ = _
  rw [Ideal.ofBits_zero_f32, zero_add]
  unfold Cert.Spec.poolSum Cert.Spec.rowsOf
  exact Finset.sum_congr rfl (fun n _ => v118_apply x0 x1 x3 x4 x5 x6 n f)

/-- The pooled counts (a vector in the reference), as a one-column matrix. -/
theorem pool_cnt_eq (x2 : (⟨S50000, .i32⟩ : BufTy).Contents (Elt Ideal)) :
    (fun i : Cert.Spec.S128x1.Idx => val_main_v125 (F := Ideal) x2 (ix1 (i 0))) = Cert.Spec.poolCnt (Cert.Spec.col50000 x2) := by
  funext i
  obtain ⟨g, z, rfl⟩ : ∃ (g : Fin 128) (z : Fin 1), i = ix2 g z := ⟨i 0, i 1, eq_ix2 i⟩
  show val_main_v125 (F := Ideal) x2 (ix1 g) = _
  unfold val_main_v125 Host.scatterAdd
  rw [Ideal.hostScatterAdd_def]
  have hd : scatter_S128_S50000x1_S50000_n_0_0_1
      = vecScatter 128 50000 Facts₀.scatter_S128_S50000x1_S50000_n_0_0_1_wf := rfl
  rw [hd, vecScatterAdd_apply, val_main_v123_apply, val_main_cst_23_apply, v124_eq]
  show Ideal.ofBits .f32 0x00000000#32 + _ = _
  rw [Ideal.ofBits_zero_f32, zero_add]
  unfold Cert.Spec.poolCnt Cert.Spec.rowsOf
  refine Finset.sum_congr rfl (fun n _ => ?_)
  rw [val_main_v122_apply, val_main_cst_22_apply]
  rfl

/-- The mean: sums over max(count, 1), the count broadcast along the columns. -/
theorem pooled_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) :
    val_main_v130 (F := Ideal) x0 x1 x2 x3 x4 x5 x6
      = Cert.Spec.pooled (val_main_v121 (F := Ideal) x0 x1 x2 x3 x4 x5 x6)
          (fun i : Cert.Spec.S128x1.Idx => val_main_v125 (F := Ideal) x2 (ix1 (i 0))) := by
  funext i
  rw [val_main_v130_apply, Ideal.hostDivf_def, val_main_v129_apply, val_main_v128_apply, val_main_v127_apply,
    Ideal.maximumf_def, val_main_v126_apply, val_main_cst_24_apply]
  unfold Cert.Spec.pooled
  show Ideal.div _ (max (val_main_v125 (F := Ideal) x2 (idx_main_v128 (idx_main_v129 i))) _) = Ideal.div _ (max (val_main_v125 (F := Ideal) x2 (ix1 (i 0))) _)
  have hi : idx_main_v128 (idx_main_v129 i) = ix1 (i 0) := by
    funext a
    match a with
    | ⟨0, _⟩ => rfl
  rw [hi]
  rfl

end Cert.ReferenceIdeal.Hand

end
-- ==== Proof.RefDense.lean ====
/-
  The reference's two dense layers read index by index.
-/
import proofs.«410204_j74380243632480_3_alg».proof.Proof.RefRead
import proofs.«410204_j74380243632480_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.Hand

open Cert.ReferenceIdeal Cert.ReferenceIdeal.ReadP

/-- The hidden layer (after its rectifier). -/
theorem hidden_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) (x7 : (⟨S384x512, .f32⟩ : BufTy).Contents (Elt Ideal)) (x8 : (⟨S512, .f32⟩ : BufTy).Contents (Elt Ideal)) :
    val_main_v135 (F := Ideal) x0 x1 x2 x3 x4 x5 x6 x7 x8
      = Cert.Spec.denseRelu (val_main_v130 (F := Ideal) x0 x1 x2 x3 x4 x5 x6) x7 (Cert.Spec.row512 x8) := by
  funext i
  obtain ⟨p, q, rfl⟩ : ∃ (p : Fin 128) (q : Fin 512), i = ix2 p q := ⟨i 0, i 1, eq_ix2 i⟩
  -- the left factor of the product is read at row p, column k
  have el : ∀ k : Fin 384, lidx_main_v131 (ix2 p q) k = ix2 p k := fun k =>
    funext fun a => Fin.ext (by match a with | ⟨0, _⟩ => rfl | ⟨1, _⟩ => rfl)
  -- the right factor at row k, column q
  have er : ∀ k : Fin 384, ridx_main_v131 (ix2 p q) k = ix2 k q := fun k =>
    funext fun a => Fin.ext (by match a with | ⟨0, _⟩ => rfl | ⟨1, _⟩ => rfl)
  -- the bias, broadcast twice, is read at column q
  have eb : idx_main_v132 (idx_main_v133 (ix2 p q)) = ix1 q :=
    funext fun a => Fin.ext (by match a with | ⟨0, _⟩ => rfl)
  rw [val_main_v135_apply, val_main_v134_apply, val_main_v131_apply, val_main_v133_apply, val_main_v132_apply,
    val_main_call3_v0_apply, val_main_call3_cst_apply]
  simp only [el, er, eb, Cert.Spec.denseRelu, Cert.Spec.row512, Ideal.addf_def, Ideal.maximumf_def, Ideal.ofBits_def]

/-- The output layer. -/
theorem out_eq (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) (x7 : (⟨S384x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) :
    val_main_v139 (F := Ideal) x0 x1 x2 x3 x4 x5 x6 x7 x8 x9 x10
      = Cert.Spec.dense (val_main_v135 (F := Ideal) x0 x1 x2 x3 x4 x5 x6 x7 x8) x9 (Cert.Spec.row128 x10) := by
  funext i
  obtain ⟨p, q, rfl⟩ : ∃ (p : Fin 128) (q : Fin 128), i = ix2 p q := ⟨i 0, i 1, eq_ix2 i⟩
  -- the left factor of the product is read at row p, column k
  have el : ∀ k : Fin 512, lidx_main_v136 (ix2 p q) k = ix2 p k := fun k =>
    funext fun a => Fin.ext (by match a with | ⟨0, _⟩ => rfl | ⟨1, _⟩ => rfl)
  -- the right factor at row k, column q
  have er : ∀ k : Fin 512, ridx_main_v136 (ix2 p q) k = ix2 k q := fun k =>
    funext fun a => Fin.ext (by match a with | ⟨0, _⟩ => rfl | ⟨1, _⟩ => rfl)
  -- the bias, broadcast twice, is read at column q
  have eb : idx_main_v137 (idx_main_v138 (ix2 p q)) = ix1 q :=
    funext fun a => Fin.ext (by match a with | ⟨0, _⟩ => rfl)
  rw [val_main_v139_apply, val_main_v136_apply, val_main_v138_apply, val_main_v137_apply]
  simp only [el, er, eb, Cert.Spec.dense, Cert.Spec.row128, Ideal.addf_def]

end Cert.ReferenceIdeal.Hand

end
-- ==== Proof.RefValue.lean ====
/-
  The reference's result as the network function of its arguments: the stages chained, outermost first, with each of
  the four propagations read as the one propagation function of the array it propagates.
-/
import proofs.«410204_j74380243632480_3_alg».proof.Proof.RefProp
import proofs.«410204_j74380243632480_3_alg».proof.Proof.RefConv
import proofs.«410204_j74380243632480_3_alg».proof.Proof.RefPool
import proofs.«410204_j74380243632480_3_alg».proof.Proof.RefDense

noncomputable section

open Idealize.ShloMosaic Idealize.ShloMosaic.TcCoe Idealize.SL.Sem
open Idealize.ShloMosaic.ValueIdx

namespace Cert.ReferenceIdeal.Hand

open Cert.ReferenceIdeal Cert.ReferenceIdeal.ReadP

/-- The reference's last stage is the network, its propagation the reference's own. -/
theorem ref_value (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S3x128x128, .f32⟩ : BufTy).Contents (Elt Ideal)) (x4 : (⟨S128, .f32⟩ : BufTy).Contents (Elt Ideal)) (x5 : (⟨S3x128x256, .f32⟩ : BufTy).Contents (Elt Ideal)) (x6 : (⟨S256, .f32⟩ : BufTy).Contents (Elt Ideal)) (x7 : (⟨S384x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) :
    val_main_v139 (F := Ideal) x0 x1 x2 x3 x4 x5 x6 x7 x8 x9 x10
      = Cert.Spec.net (edgeProp (F := Ideal) x1) x0 x2 x3 x4 x5 x6 x7 x8 x9 x10 := by
  rw [out_eq, hidden_eq, pooled_eq, pool_sum_eq, pool_cnt_eq, conv2_eq, v106_eq, v89_eq, conv1_eq, v62_eq, v45_eq]
  rfl

end Cert.ReferenceIdeal.Hand

end
-- ==== Proof.lean ====
/-
  A graph network on 50000 nodes and 600000 edges, a kernel program of five pallas_calls against its plain reference,
  over the extended reals.

  Both programs compute, from the node features x, the edge list and the batch vector: a symmetric-normalised
  propagation P along the edges (degrees by an accumulating scatter of ones, inverse square roots, one weight per edge;
  P h = the accumulating scatter, by destination, of weight times the source's row of h); two Chebyshev layers of
  order 3, layer(h) = max (((h·W0 + (P h)·W1) + (2·P(P h) − h)·W2) + b) 0; mean pooling of [layer2 | x] over the 128
  graphs (sums and counts by batch word, the quotient by max(count, 1)); a hidden dense layer with its rectifier and
  an output dense layer.

  The propagation is the SAME host text in both programs; the kernel program's own parts are the two layers' algebra
  (one pallas_call each, 50 row blocks of 1000), the pooling (one pallas_call accumulating, over 50 blocks, the one-hot
  matrix of the batch words times the block's rows, and the one-hot's row sums) and the two dense layers. Against the
  reference they differ only by tiling and by how the pooled sums are spelt: the one-hot product
  Σ_k [word_k = g]·row_k is the sum over the rows whose word is g, because 1·a = a and 0·a = 0 for every extended
  real a (no finiteness is used), and a word naming no graph meets no one-hot row just as the scatter drops it.
  Blocks added in grid order against one scatter: a sum over 50000 rows split into 50 blocks.

  So the kernel program's result array (read off its run, region by region) and the reference's last stage are one
  function of the arguments, `Cert.Spec.net` with the host's propagation; the frames of the two kernel programs are the
  generated ones, the reference's its run with the result dropped, and nothing was rewritten by the ideal pass.
-/
import proofs.«410204_j74380243632480_3_alg».proof.Defs
import proofs.«410204_j74380243632480_3_alg».proof.Proof.Gen.Kernel
import proofs.«410204_j74380243632480_3_alg».proof.Proof.Gen.Kernel.Skeleton
import proofs.«410204_j74380243632480_3_alg».proof.Proof.Gen.Kernel.Launch
import proofs.«410204_j74380243632480_3_alg».proof.Proof.Gen.Kernel.Points
import proofs.«410204_j74380243632480_3_alg».proof.Proof.Gen.Kernel.Frame
import proofs.«410204_j74380243632480_3_alg».proof.Proof.Gen.KernelIdeal
import proofs.«410204_j74380243632480_3_alg».proof.Proof.Gen.KernelIdeal.Skeleton
import proofs.«410204_j74380243632480_3_alg».proof.Proof.Gen.KernelIdeal.Launch
import proofs.«410204_j74380243632480_3_alg».proof.Proof.Gen.KernelIdeal.Points
import proofs.«410204_j74380243632480_3_alg».proof.Proof.Gen.KernelIdeal.Frame
import proofs.«410204_j74380243632480_3_alg».proof.Proof.Gen.ReferenceIdeal
import proofs.«410204_j74380243632480_3_alg».proof.Proof.Gen.Pre_finite_inputs
import proofs.«410204_j74380243632480_3_alg».proof.Proof.RunMain
import proofs.«410204_j74380243632480_3_alg».proof.Proof.KValue
import proofs.«410204_j74380243632480_3_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => Cert.KernelIdeal.Gen.W12 m ρ c (Proc.devRef .tc Cert.KernelIdeal.main_v107),
    Cert.KernelIdeal.RunMain.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  have hk := Cert.KernelIdeal.Hand.kernel_value m ρ c
  have hr := (Cert.ReferenceIdeal.ReadP.val_main_v139_eq (F := Ideal) m' c).trans
    (Cert.ReferenceIdeal.Hand.ref_value _ _ _ _ _ _ _ _ _ _ _)
  obtain ⟨h0, h1, h2, h3, h4, h5, h6, h7, h8, h9, h10⟩ := hagree c
  rw [h0, h1, h2, h3, h4, h5, h6, h7, h8, h9, h10] at hr
  exact hr.trans hk.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
